-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S128x256 : Shape := ⟨2, ![128, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S512x256 : Shape := ⟨2, ![512, 256]⟩
abbrev S1x128 : Shape := ⟨2, ![1, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S1x128 : S_.BroadcastsInDim S1x128 (![] : Fin 0 → Fin S1x128.rank)
  reducesTo_S1x128_S_d0_1 : S1x128.ReducesTo [0, 1] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg1 : IVec S16384 32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_c_20 : IVec S_ 32 := constantI S_ 32 0#32
  let main_v54 : IVec S16384 32 := broadcastInDim S16384 ![] bcast_S_S16384 main_c_20
  let main_v55 : IVec S16384 1 := cmpi .sge main_arg1 main_v54
  let main_c_21 : IVec S_ 32 := constantI S_ 32 8#32
  let main_v56 : IVec S16384 32 := broadcastInDim S16384 ![] bcast_S_S16384 main_c_21
  let main_v57 : IVec S16384 1 := cmpi .slt main_arg1 main_v56
  let main_v58 : IVec S16384 1 := andi main_v55 main_v57
  let main_c_22 : IVec S_ 1 := constantI S_ 1 1#1
  let main_v59 : IVec S_ 1 := (fun x v => Host.reduce IntOp.andi x v reducesTo_S16384_S_d0 h_S_) main_v58 main_c_22
  let main_v60 : IVec S_ 1 := andi main_v53 main_v59
  main_v60

def fn_part2 {F : FTy → Type} [FloatOps F] (main_arg1 : IVec S16384 32) (main_arg8 : FVec F S256 .f32) (main_arg9 : FVec F S512x256 .f32) (main_arg10 : FVec F S512 .f32) (main_arg11 : FVec F S1x128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg1 main_v48 main_v49 main_v50

def fn_part1 {F : FTy → Type} [FloatOps F] (main_arg1 : IVec S16384 32) (main_arg5 : FVec F S512x512 .f32) (main_arg6 : FVec F S512 .f32) (main_arg7 : FVec F S256x256 .f32) (main_arg8 : FVec F S256 .f32) (main_arg9 : FVec F S512x256 .f32) (main_arg10 : FVec F S512 .f32) (main_arg11 : FVec F S1x128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S16384x512 .f32) (main_arg1 : IVec S16384 32) (main_arg2 : FVec F S128x256 .f32) (main_arg3 : FVec F S512x512 .f32) (main_arg4 : FVec F S512 .f32) (main_arg5 : FVec F S512x512 .f32) (main_arg6 : FVec F S512 .f32) (main_arg7 : FVec F S256x256 .f32) (main_arg8 : FVec F S256 .f32) (main_arg9 : FVec F S512x256 .f32) (main_arg10 : FVec F S512 .f32) (main_arg11 : FVec F S1x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_arg9 main_arg10 main_arg11 main_v13 main_v16
-- ==== Kernel.lean ====
abbrev S16384x512 : Shape := ⟨2, ![16384, 512]⟩
abbrev S16384 : Shape := ⟨1, ![16384]⟩
abbrev S128x256 : Shape := ⟨2, ![128, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S512x256 : Shape := ⟨2, ![512, 256]⟩
abbrev S1x128 : Shape := ⟨2, ![1, 128]⟩
abbrev S16384x1 : Shape := ⟨2, ![16384, 1]⟩
abbrev S1x512 : Shape := ⟨2, ![1, 512]⟩
abbrev S1x256 : Shape := ⟨2, ![1, 256]⟩
abbrev S1x1 : Shape := ⟨2, ![1, 1]⟩
abbrev S512x1 : Shape := ⟨2, ![512, 1]⟩
abbrev S512x16x256 : Shape := ⟨3, ![512, 16, 256]⟩
abbrev S512x1x1 : Shape := ⟨3, ![512, 1, 1]⟩
abbrev S16x256 : Shape := ⟨2, ![16, 256]⟩
abbrev S512x1x256 : Shape := ⟨3, ![512, 1, 256]⟩
abbrev S1x16x256 : Shape := ⟨3, ![1, 16, 256]⟩
abbrev S512x16 : Shape := ⟨2, ![512, 16]⟩
abbrev S1 : Shape := ⟨1, ![1]⟩
abbrev S512x128 : Shape := ⟨2, ![512, 128]⟩
abbrev S_ : Shape := ⟨0, ![]⟩
abbrev S8x16x256 : Shape := ⟨3, ![8, 16, 256]⟩
abbrev S8x256 : Shape := ⟨2, ![8, 256]⟩
abbrev S8x1x256 : Shape := ⟨3, ![8, 1, 256]⟩
abbrev S8x16x16 : Shape := ⟨3, ![8, 16, 16]⟩
abbrev S16x16 : Shape := ⟨2, ![16, 16]⟩
abbrev S1x16x16 : Shape := ⟨3, ![1, 16, 16]⟩
abbrev S8 : Shape := ⟨1, ![8]⟩

abbrev nBuf : Space → Nat
  | .hbm => 53
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S128x256, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S256x256, .f32⟩
  | .hbm, ⟨8, _⟩ => ⟨S256, .f32⟩
  | .hbm, ⟨9, _⟩ => ⟨S512x256, .f32⟩
  | .hbm, ⟨10, _⟩ => ⟨S512, .f32⟩
  | .hbm, ⟨11, _⟩ => ⟨S1x128, .f32⟩
  | .hbm, ⟨12, _⟩ => ⟨S16384x1, .i32⟩
  | .hbm, ⟨13, _⟩ => ⟨S512x512, .bf16⟩
  | .hbm, ⟨14, _⟩ => ⟨S512x512, .bf16⟩
  | .hbm, ⟨15, _⟩ => ⟨S256x256, .bf16⟩
  | .hbm, ⟨16, _⟩ => ⟨S512x256, .bf16⟩
  | .hbm, ⟨17, _⟩ => ⟨S1x512, .f32⟩
  | .hbm, ⟨18, _⟩ => ⟨S1x512, .f32⟩
  | .hbm, ⟨19, _⟩ => ⟨S1x256, .f32⟩
  | .hbm, ⟨20, _⟩ => ⟨S1x512, .f32⟩
  | .hbm, ⟨21, _⟩ => ⟨S16384x1, .f32⟩
  | .hbm, ⟨22, _⟩ => ⟨S16384x512, .f32⟩
  | .hbm, ⟨23, _⟩ => ⟨S1x1, .f32⟩
  | .hbm, ⟨24, _⟩ => ⟨S_, .f32⟩
  | .hbm, ⟨25, _⟩ => ⟨S8x16x256, .f32⟩
  | .hbm, ⟨26, _⟩ => ⟨S_, .f32⟩
  | .hbm, ⟨27, _⟩ => ⟨S8x256, .f32⟩
  | .hbm, ⟨28, _⟩ => ⟨S8x1x256, .f32⟩
  | .hbm, ⟨29, _⟩ => ⟨S_, .f32⟩
  | .hbm, ⟨30, _⟩ => ⟨S8x1x256, .f32⟩
  | .hbm, ⟨31, _⟩ => ⟨S8x1x256, .f32⟩
  | .hbm, ⟨32, _⟩ => ⟨S8x16x256, .f32⟩
  | .hbm, ⟨33, _⟩ => ⟨S8x16x256, .f32⟩
  | .hbm, ⟨34, _⟩ => ⟨S8x16x16, .f32⟩
  | .hbm, ⟨35, _⟩ => ⟨S16x16, .i32⟩
  | .hbm, ⟨36, _⟩ => ⟨S16x16, .i32⟩
  | .hbm, ⟨37, _⟩ => ⟨S_, .i32⟩
  | .hbm, ⟨38, _⟩ => ⟨S16x16, .i32⟩
  | .hbm, ⟨39, _⟩ => ⟨S16x16, .i32⟩
  | .hbm, ⟨40, _⟩ => ⟨S16x16, .i1⟩
  | .hbm, ⟨41, _⟩ => ⟨S16x16, .f32⟩
  | .hbm, ⟨42, _⟩ => ⟨S1x16x16, .f32⟩
  | .hbm, ⟨43, _⟩ => ⟨S8x16x16, .f32⟩
  | .hbm, ⟨44, _⟩ => ⟨S8x16x16, .f32⟩
  | .hbm, ⟨45, _⟩ => ⟨S8x16x16, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x1, .i32⟩
  | .local _ .vmem, ⟨3, _⟩ => ⟨S512x1, .i32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S256x256, .bf16⟩
  | .local _ .vmem, ⟨9, _⟩ => ⟨S1x256, .f32⟩
  | .local _ .vmem, ⟨10, _⟩ => ⟨S512x256, .bf16⟩
  | .local _ .vmem, ⟨11, _⟩ => ⟨S1x512, .f32⟩
  | .local _ .vmem, ⟨12, _⟩ => ⟨S128x256, .f32⟩
  | .local _ .vmem, ⟨13, _⟩ => ⟨S1x128, .f32⟩
  | .local _ .vmem, ⟨14, _⟩ => ⟨S512x1, .f32⟩
  | .local _ .vmem, ⟨15, _⟩ => ⟨S512x1, .f32⟩
  | .local _ .vmem, ⟨16, _⟩ => ⟨S512x512, .f32⟩
  | .local _ .vmem, ⟨17, _⟩ => ⟨S512x512, .f32⟩
  | .local _ .vmem, ⟨18, _⟩ => ⟨S1x1, .f32⟩
  | .local _ .vmem, ⟨19, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v261 : BitVec 1 := Scalar.cmpi .eq arg0 c31_i32
  let v262 : BitVec 32 := Scalar.extui v261
  let c0_i32_69 : BitVec 32 := 0#32
  let v263 : BitVec 1 := Scalar.cmpi .ne v262 c0_i32_69
  v263

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

class Facts₀ : Prop where
  shapeCasts_S16384_S16384x1 : S16384.ShapeCasts S16384x1
  bitsLt_bf16_f32 : FTy.bits .bf16 < FTy.bits .f32
  shapeCasts_S512_S1x512 : S512.ShapeCasts S1x512
  shapeCasts_S256_S1x256 : S256.ShapeCasts S1x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S512x512_o0_0_S512x256 : S512x512.Slices ![0, 0] S512x256
  slices_S512x512_o0_256_S512x256 : S512x512.Slices ![0, 256] S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  shapeCasts_S512x1_S512x1x1 : S512x1.ShapeCasts S512x1x1
  inb_S128x256_S16x256_0_0 : ∀ a, (![0, 0] : Fin 2 → Nat) a + S16x256.size a ≤ S128x256.size a
  h_S16x256 : 0 < S16x256.numel
  shapeCasts_S512x256_S512x1x256 : S512x256.ShapeCasts S512x1x256
  shapeCasts_S16x256_S1x16x256 : S16x256.ShapeCasts S1x16x256
  broadcasts_S512x1x256_S512x16x256 : S512x1x256.Broadcasts S512x16x256
  broadcasts_S1x16x256_S512x16x256 : S1x16x256.Broadcasts S512x16x256
  broadcasts_S512x1x1_S512x16x256 : S512x1x1.Broadcasts S512x16x256
  inb_S128x256_S16x256_16_0 : ∀ a, (![16, 0] : Fin 2 → Nat) a + S16x256.size a ≤ S128x256.size a
  inb_S128x256_S16x256_32_0 : ∀ a, (![32, 0] : Fin 2 → Nat) a + S16x256.size a ≤ S128x256.size a
  inb_S128x256_S16x256_48_0 : ∀ a, (![48, 0] : Fin 2 → Nat) a + S16x256.size a ≤ S128x256.size a
  inb_S128x256_S16x256_64_0 : ∀ a, (![64, 0] : Fin 2 → Nat) a + S16x256.size a ≤ S128x256.size a
  inb_S128x256_S16x256_80_0 : ∀ a, (![80, 0] : Fin 2 → Nat) a + S16x256.size a ≤ S128x256.size a
  inb_S128x256_S16x256_96_0 : ∀ a, (![96, 0] : Fin 2 → Nat) a + S16x256.size a ≤ S128x256.size a
  inb_S128x256_S16x256_112_0 : ∀ a, (![112, 0] : Fin 2 → Nat) a + S16x256.size a ≤ S128x256.size a
  reduces_S512x16x256_S512x16 : S512x16x256.Reduces [2] S512x16
  reduces_S512x16_S512 : S512x16.Reduces [1] S512
  shapeCasts_S512_S512x1 : S512.ShapeCasts S512x1
  reduces_S512x1_S1 : S512x1.Reduces [0] S1
  shapeCasts_S1_S1x1 : S1.ShapeCasts S1x1
  broadcasts_S512x1_S512x16 : S512x1.Broadcasts S512x16
  concatenates_S512x16_S512x16_S512x16_S512x16_S512x16_S512x16_S512x16_S512x16_S512x128_d1 : Shape.Concatenates [S512x16, S512x16, S512x16, S512x16, S512x16, S512x16, S512x16, S512x16] S512x128 1
  inb_S1x128_S1x128_0_0 : ∀ a, (![0, 0] : Fin 2 → Nat) a + S1x128.size a ≤ S1x128.size a
  h_S1x128 : 0 < S1x128.numel
  broadcasts_S1x128_S512x128 : S1x128.Broadcasts S512x128
  reduces_S512x128_S512 : S512x128.Reduces [1] S512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  shapeCasts_S128x256_S8x16x256 : S128x256.ShapeCasts S8x16x256
  reducesTo_S8x16x256_S8x256_d1 : S8x16x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x16x256_0_1_2 : S8x1x256.BroadcastsInDim S8x16x256 (![0, 1, 2] : Fin 3 → Fin S8x16x256.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S8x16x16_0_1_2 : S1x16x16.BroadcastsInDim S8x16x16 (![0, 1, 2] : Fin 3 → Fin S8x16x16.rank)
  reducesTo_S8x16x16_S8_d1_2 : S8x16x16.ReducesTo [1, 2] S8
  reducesTo_S8_S_d0 : S8.ReducesTo [0] S_
  dot_S512x512_S512x512_S512x512_1_1_0_0_n_n_wf : DotDims.WF S512x512 S512x512 S512x512 [1] [1] [0] [0] [] []
  dot_S512x256_S256x256_S512x256_1_1_0_0_n_n_wf : DotDims.WF S512x256 S256x256 S512x256 [1] [1] [0] [0] [] []
  dot_S512x256_S512x256_S512x512_1_1_0_0_n_n_wf : DotDims.WF S512x256 S512x256 S512x512 [1] [1] [0] [0] [] []
  dot_S8x16x256_S8x16x256_S8x16x16_2_2_1_1_0_0_wf : DotDims.WF S8x16x256 S8x16x256 S8x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S128x256.size a
  hwx0_10 : ∀ i : grid0.Coords, EltTy.bits .f32 = 32 ∨ (Rect.block (s := S128x256) S128x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S16384x1.size a
  hwx0_12 : ∀ i : grid0.Coords, EltTy.bits .f32 = 32 ∨ (Rect.block (s := S16384x1) S512x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S16384x512.size a
  hwx0_13 : ∀ i : grid0.Coords, EltTy.bits .f32 = 32 ∨ (Rect.block (s := S16384x512) S512x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S8x16x256_S8x16x256_S8x16x16_2_2_1_1_0_0 : DotDims S8x16x256 S8x16x256 S8x16x16 where
  lhsContracting := [2]
  rhsContracting := [2]
  lhsNonContracting := [1]
  rhsNonContracting := [1]
  lhsBatch := [0]
  rhsBatch := [0]
  wf := dot_S8x16x256_S8x16x256_S8x16x16_2_2_1_1_0_0_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S128x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9_0) S512x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9_1) S512x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_2) S1x1.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S128x256 : Shape := ⟨2, ![128, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S512x256 : Shape := ⟨2, ![512, 256]⟩
abbrev S1x128 : Shape := ⟨2, ![1, 128]⟩
abbrev S1x512 : Shape := ⟨2, ![1, 512]⟩
abbrev S_ : Shape := ⟨0, ![]⟩
abbrev S16384x256 : Shape := ⟨2, ![16384, 256]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x16x1 : Shape := ⟨3, ![16384, 16, 1]⟩
abbrev S16384x16x256 : Shape := ⟨3, ![16384, 16, 256]⟩
abbrev S16384x1x256 : Shape := ⟨3, ![16384, 1, 256]⟩
abbrev S16384x128 : Shape := ⟨2, ![16384, 128]⟩
abbrev S16384x16x2 : Shape := ⟨3, ![16384, 16, 2]⟩
abbrev S128x1 : Shape := ⟨2, ![128, 1]⟩
abbrev S1x256 : Shape := ⟨2, ![1, 256]⟩
abbrev S256x512 : Shape := ⟨2, ![256, 512]⟩
abbrev S8x16x256 : Shape := ⟨3, ![8, 16, 256]⟩
abbrev S8x256 : Shape := ⟨2, ![8, 256]⟩
abbrev S8x1x256 : Shape := ⟨3, ![8, 1, 256]⟩
abbrev S8x16x16 : Shape := ⟨3, ![8, 16, 16]⟩
abbrev S16x16 : Shape := ⟨2, ![16, 16]⟩
abbrev S1x16x16 : Shape := ⟨3, ![1, 16, 16]⟩
abbrev S8 : Shape := ⟨1, ![8]⟩

abbrev nBuf : Space → Nat
  | .hbm => 172
  | .vmem => 0
  | .smem => 0
  | _ => 0

abbrev hbmTy0_0 (i : Nat) : BufTy := match i % 128 with
  | 0 => ⟨S16384x512, .f32⟩
  | 1 => ⟨S16384, .i32⟩
  | 2 => ⟨S128x256, .f32⟩
  | 3 => ⟨S512x512, .f32⟩
  | 4 => ⟨S512, .f32⟩
  | 5 => ⟨S512x512, .f32⟩
  | 6 => ⟨S512, .f32⟩
  | 7 => ⟨S256x256, .f32⟩
  | 8 => ⟨S256, .f32⟩
  | 9 => ⟨S512x256, .f32⟩
  | 10 => ⟨S512, .f32⟩
  | 11 => ⟨S1x128, .f32⟩
  | 12 => ⟨S512x512, .f32⟩
  | 13 => ⟨S16384x512, .f32⟩
  | 14 => ⟨S1x512, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S512x512, .f32⟩
  | 21 => ⟨S16384x512, .f32⟩
  | 22 => ⟨S1x512, .f32⟩
  | 23 => ⟨S16384x512, .f32⟩
  | 24 => ⟨S16384x512, .f32⟩
  | 25 => ⟨S16384x256, .f32⟩
  | 26 => ⟨S16384x256, .f32⟩
  | 27 => ⟨S_, .f32⟩
  | 28 => ⟨S_, .f32⟩
  | 29 => ⟨S_, .f32⟩
  | 30 => ⟨S16384x256, .f32⟩
  | 31 => ⟨S16384x256, .f32⟩
  | 32 => ⟨S_, .f32⟩
  | 33 => ⟨S16384x256, .f32⟩
  | 34 => ⟨S16384x256, .f32⟩
  | 35 => ⟨S16384x1, .i32⟩
  | 36 => ⟨S_, .i32⟩
  | 37 => ⟨S16384x1, .i32⟩
  | 38 => ⟨S16384x1, .i32⟩
  | 39 => ⟨S16, .i32⟩
  | 40 => ⟨S1x16, .i32⟩
  | 41 => ⟨S16384x16, .i32⟩
  | 42 => ⟨S16384x16, .i32⟩
  | 43 => ⟨S16384x16, .i32⟩
  | 44 => ⟨S_, .i32⟩
  | 45 => ⟨S16384x16, .i32⟩
  | 46 => ⟨S16384x16, .i1⟩
  | 47 => ⟨S_, .i32⟩
  | 48 => ⟨S16384x16, .i32⟩
  | 49 => ⟨S16384x16, .i32⟩
  | 50 => ⟨S16384x16, .i32⟩
  | 51 => ⟨S16384x16x1, .i32⟩
  | 52 => ⟨S16384x16x256, .f32⟩
  | 53 => ⟨S16384x1x256, .f32⟩
  | 54 => ⟨S16384x16x256, .f32⟩
  | 55 => ⟨S16384x16x256, .f32⟩
  | 56 => ⟨S16384x16x256, .f32⟩
  | 57 => ⟨S_, .f32⟩
  | 58 => ⟨S16384x16, .f32⟩
  | 59 => ⟨S16384x16, .f32⟩
  | 60 => ⟨S_, .f32⟩
  | 61 => ⟨S16384x16, .f32⟩
  | 62 => ⟨S16384x16, .f32⟩
  | 63 => ⟨S_, .f32⟩
  | 64 => ⟨S16384x16, .f32⟩
  | 65 => ⟨S16384x16, .f32⟩
  | 66 => ⟨S16384x16, .f32⟩
  | 67 => ⟨S16384x16, .f32⟩
  | 68 => ⟨S_, .f32⟩
  | 69 => ⟨S16384x128, .f32⟩
  | 70 => ⟨S16384, .i32⟩
  | 71 => ⟨S16384x1, .i32⟩
  | 72 => ⟨S_, .i32⟩
  | 73 => ⟨S16384x1, .i32⟩
  | 74 => ⟨S16384x1, .i1⟩
  | 75 => ⟨S_, .i32⟩
  | 76 => ⟨S16384x1, .i32⟩
  | 77 => ⟨S16384x1, .i32⟩
  | 78 => ⟨S16384x1, .i32⟩
  | 79 => ⟨S_, .i32⟩
  | 80 => ⟨S16384x16, .i32⟩
  | 81 => ⟨S16384x16, .i1⟩
  | 82 => ⟨S_, .i32⟩
  | 83 => ⟨S16384x16, .i32⟩
  | 84 => ⟨S16384x16, .i32⟩
  | 85 => ⟨S16384x16, .i32⟩
  | 86 => ⟨S16384x16, .i32⟩
  | 87 => ⟨S16384x16x1, .i32⟩
  | 88 => ⟨S16384x16x1, .i32⟩
  | 89 => ⟨S16384x16x2, .i32⟩
  | 90 => ⟨S16384x128, .f32⟩
  | 91 => ⟨S16384x256, .f32⟩
  | 92 => ⟨S16384x1x256, .f32⟩
  | 93 => ⟨S_, .f32⟩
  | 94 => ⟨S16384x1x256, .f32⟩
  | 95 => ⟨S16384x1x256, .f32⟩
  | 96 => ⟨S16384x1x256, .f32⟩
  | 97 => ⟨S16384x16x256, .f32⟩
  | 98 => ⟨S16384x16x256, .f32⟩
  | 99 => ⟨S16384x16x256, .f32⟩
  | 100 => ⟨S_, .f32⟩
  | 101 => ⟨S16384x16x256, .f32⟩
  | 102 => ⟨S16384x16x256, .f32⟩
  | 103 => ⟨S16384x16x256, .f32⟩
  | 104 => ⟨S16384x16x256, .f32⟩
  | 105 => ⟨S_, .f32⟩
  | 106 => ⟨S16384x16x256, .f32⟩
  | 107 => ⟨S16384x16x256, .f32⟩
  | 108 => ⟨S_, .f32⟩
  | 109 => ⟨S16384x16, .f32⟩
  | 110 => ⟨S_, .f32⟩
  | 111 => ⟨S16384x16, .f32⟩
  | 112 => ⟨S16384x16, .f32⟩
  | 113 => ⟨S16384x16, .f32⟩
  | 114 => ⟨S_, .f32⟩
  | 115 => ⟨S16384x16, .f32⟩
  | 116 => ⟨S16384x16, .i1⟩
  | 117 => ⟨S16384x16, .f32⟩
  | 118 => ⟨S_, .f32⟩
  | 119 => ⟨S16384, .f32⟩
  | 120 => ⟨S16384x16, .f32⟩
  | 121 => ⟨S_, .f32⟩
  | 122 => ⟨S16384, .f32⟩
  | 123 => ⟨S16384, .f32⟩
  | 124 => ⟨S_, .f32⟩
  | 125 => ⟨S_, .f32⟩
  | 126 => ⟨S_, .f32⟩
  | 127 => ⟨S_, .f32⟩
  | _ => ⟨S16384x512, .f32⟩

abbrev hbmTy0_1 (i : Nat) : BufTy := match i % 128 with
  | 0 => ⟨S128x1, .f32⟩
  | 1 => ⟨S16384x1, .f32⟩
  | 2 => ⟨S256x256, .f32⟩
  | 3 => ⟨S16384x256, .f32⟩
  | 4 => ⟨S1x256, .f32⟩
  | 5 => ⟨S16384x256, .f32⟩
  | 6 => ⟨S16384x256, .f32⟩
  | 7 => ⟨S_, .f32⟩
  | 8 => ⟨S16384x256, .f32⟩
  | 9 => ⟨S16384x256, .f32⟩
  | 10 => ⟨S256x512, .f32⟩
  | 11 => ⟨S16384x512, .f32⟩
  | 12 => ⟨S1x512, .f32⟩
  | 13 => ⟨S16384x512, .f32⟩
  | 14 => ⟨S16384x512, .f32⟩
  | 15 => ⟨S16384x512, .f32⟩
  | 16 => ⟨S8x16x256, .f32⟩
  | 17 => ⟨S_, .f32⟩
  | 18 => ⟨S8x256, .f32⟩
  | 19 => ⟨S8x1x256, .f32⟩
  | 20 => ⟨S_, .f32⟩
  | 21 => ⟨S8x1x256, .f32⟩
  | 22 => ⟨S8x1x256, .f32⟩
  | 23 => ⟨S8x16x256, .f32⟩
  | 24 => ⟨S8x16x256, .f32⟩
  | 25 => ⟨S8x16x16, .f32⟩
  | 26 => ⟨S16x16, .i32⟩
  | 27 => ⟨S16x16, .i32⟩
  | 28 => ⟨S_, .i32⟩
  | 29 => ⟨S16x16, .i32⟩
  | 30 => ⟨S16x16, .i32⟩
  | 31 => ⟨S16x16, .i1⟩
  | 32 => ⟨S16x16, .f32⟩
  | 33 => ⟨S1x16x16, .f32⟩
  | 34 => ⟨S8x16x16, .f32⟩
  | 35 => ⟨S8x16x16, .f32⟩
  | 36 => ⟨S8x16x16, .f32⟩
  | 37 => ⟨S_, .f32⟩
  | 38 => ⟨S8, .f32⟩
  | 39 => ⟨S8, .f32⟩
  | 40 => ⟨S_, .f32⟩
  | 41 => ⟨S_, .f32⟩
  | 42 => ⟨S_, .f32⟩
  | 43 => ⟨S_, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_18 : Ref sig .tc := ⟨.hbm, 118, rfl⟩
abbrev main_v81 : Ref sig .tc := ⟨.hbm, 119, rfl⟩
abbrev main_v82 : Ref sig .tc := ⟨.hbm, 120, rfl⟩
abbrev main_cst_19 : Ref sig .tc := ⟨.hbm, 121, rfl⟩
abbrev main_v83 : Ref sig .tc := ⟨.hbm, 122, rfl⟩
abbrev main_v84 : Ref sig .tc := ⟨.hbm, 123, rfl⟩
abbrev main_cst_20 : Ref sig .tc := ⟨.hbm, 124, rfl⟩
abbrev main_v85 : Ref sig .tc := ⟨.hbm, 125, rfl⟩
abbrev main_cst_21 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_22 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_23 : Ref sig .tc := ⟨.hbm, 145, rfl⟩
abbrev main_v103 : Ref sig .tc := ⟨.hbm, 146, rfl⟩
abbrev main_v104 : Ref sig .tc := ⟨.hbm, 147, rfl⟩
abbrev main_cst_24 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_c_25 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_26 : Ref sig .tc := ⟨.hbm, 165, rfl⟩
abbrev main_v120 : Ref sig .tc := ⟨.hbm, 166, rfl⟩
abbrev main_v121 : Ref sig .tc := ⟨.hbm, 167, rfl⟩
abbrev main_cst_27 : Ref sig .tc := ⟨.hbm, 168, rfl⟩
abbrev main_v122 : Ref sig .tc := ⟨.hbm, 169, rfl⟩
abbrev main_cst_28 : Ref sig .tc := ⟨.hbm, 170, rfl⟩
abbrev main_v123 : Ref sig .tc := ⟨.hbm, 171, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S16384x512_S16384x256_0_0 : S16384x512.Slices ![0, 0] S16384x256
  slices_S16384x512_S16384x256_0_256 : S16384x512.Slices ![0, 256] S16384x256
  bcast_S_S16384x256 : S_.BroadcastsInDim S16384x256 (![] : Fin 0 → Fin S16384x256.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S16384x256_S16384x1x256_0_2 : S16384x256.BroadcastsInDim S16384x1x256 (![0, 2] : Fin 2 → Fin S16384x1x256.rank)
  bcast_S16384x1x256_S16384x16x256_0_1_2 : S16384x1x256.BroadcastsInDim S16384x16x256 (![0, 1, 2] : Fin 3 → Fin S16384x16x256.rank)
  reducesTo_S16384x16x256_S16384x16_d2 : S16384x16x256.ReducesTo [2] S16384x16
  h_S_ : 0 < S_.numel
  bcast_S_S16384x128 : S_.BroadcastsInDim S16384x128 (![] : Fin 0 → Fin S16384x128.rank)
  concatenates_S16384x16x1_S16384x16x1_S16384x16x2_d2 : Shape.Concatenates [S16384x16x1, S16384x16x1] S16384x16x2 2
  bcast_S_S16384x1x256 : S_.BroadcastsInDim S16384x1x256 (![] : Fin 0 → Fin S16384x1x256.rank)
  bcast_S_S16384x16x256 : S_.BroadcastsInDim S16384x16x256 (![] : Fin 0 → Fin S16384x16x256.rank)
  reducesTo_S16384x16_S16384_d1 : S16384x16.ReducesTo [1] S16384
  reducesTo_S16384_S_d0 : S16384.ReducesTo [0] S_
  transposes_S1x128_S128x1_1_0 : S1x128.Transposes [1, 0] S128x1
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S512x256_S256x512_1_0 : S512x256.Transposes [1, 0] S256x512
  shapeCasts_S128x256_S8x16x256 : S128x256.ShapeCasts S8x16x256
  reducesTo_S8x16x256_S8x256_d1 : S8x16x256.ReducesTo [1] S8x256
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x16x256_0_1_2 : S8x1x256.BroadcastsInDim S8x16x256 (![0, 1, 2] : Fin 3 → Fin S8x16x256.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S8x16x16_0_1_2 : S1x16x16.BroadcastsInDim S8x16x16 (![0, 1, 2] : Fin 3 → Fin S8x16x16.rank)
  reducesTo_S8x16x16_S8_d1_2 : S8x16x16.ReducesTo [1, 2] S8
  reducesTo_S8_S_d0 : S8.ReducesTo [0] S_
  dot_S16384x512_S512x512_S16384x512_1_0_0_1_n_n_wf : DotDims.WF S16384x512 S512x512 S16384x512 [1] [0] [0] [1] [] []
  gather_S128x256_S16384x16x1_S16384x16x256_2_0_n_n_0_2_1256_wf : GatherDims.WF S128x256 S16384x16x1 S16384x16x256 [2] [0] [] [0] [] 2 ![1, 256]
  scatter_S16384x128_S16384x16x2_S16384x16_n_01_01_2_wf : ScatterDims.WF S16384x128 S16384x16x2 S16384x16 [] [0, 1] [0, 1] 2
  dot_S16384x128_S128x1_S16384x1_1_0_0_1_n_n_wf : DotDims.WF S16384x128 S128x1 S16384x1 [1] [0] [0] [1] [] []
  dot_S16384x256_S256x256_S16384x256_1_0_0_1_n_n_wf : DotDims.WF S16384x256 S256x256 S16384x256 [1] [0] [0] [1] [] []
  dot_S16384x256_S256x512_S16384x512_1_0_0_1_n_n_wf : DotDims.WF S16384x256 S256x512 S16384x512 [1] [0] [0] [1] [] []
  dot_S8x16x256_S8x16x256_S8x16x16_2_2_1_1_0_0_wf : DotDims.WF S8x16x256 S8x16x256 S8x16x16 [2] [2] [1] [1] [0] [0]

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def gather_S128x256_S16384x16x1_S16384x16x256_2_0_n_n_0_2_1256 : GatherDims S128x256 S16384x16x1 S16384x16x256 where
  offsetDims := [2]
  collapsedSliceDims := [0]
  operandBatchingDims := []
  startIndicesBatchingDims := []
  startIndexMap := [0]
  indexVectorDim := 2
  sliceSizes := ![1, 256]
  wf := gather_S128x256_S16384x16x1_S16384x16x256_2_0_n_n_0_2_1256_wf
def scatter_S16384x128_S16384x16x2_S16384x16_n_01_01_2 : ScatterDims S16384x128 S16384x16x2 S16384x16 where
  updateWindowDims := []
  insertedWindowDims := [0, 1]
  scatterDimsToOperandDims := [0, 1]
  indexVectorDim := 2
  wf := scatter_S16384x128_S16384x16x2_S16384x16_n_01_01_2_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S8x16x256_S8x16x256_S8x16x16_2_2_1_1_0_0 : DotDims S8x16x256 S8x16x256 S8x16x16 where
  lhsContracting := [2]
  rhsContracting := [2]
  lhsNonContracting := [1]
  rhsNonContracting := [1]
  lhsBatch := [0]
  rhsBatch := [0]
  wf := dot_S8x16x256_S8x16x256_S8x16x16_2_2_1_1_0_0_wf

class Facts : Prop extends Facts₀ where

variable [Facts]
-- ==== Proof.PreT.lean ====
import proofs.«426893_j22204980920725_3_alg».proof.Pre_finite_inputs
import proofs.«426893_j22204980920725_3_alg».proof.Proof.Gen.Pre_finite_inputs
import Idealize.ShloMosaic.Lib.ReduceAll
import Idealize.ShloMosaic.Lib.StableHlo.Predicate
import Idealize.ShloMosaic.Lib.ValueIdx

/-!
# The label range, decoded from the printed precondition

The precondition is a conjunction of `jnp.all`s; its last conjunct says that every entry `t` of the
label vector satisfies `0 ≤ t` and `t < 8`, both read signed. This module turns "the precondition is
all ones" into the value statement: every label is one of the eight words `0, …, 7`.
-/

namespace Cert.PreT

open Idealize.ShloMosaic Idealize.ShloMosaic.ValueIdx Cert.Pre_finite_inputs

/-- A rank-0 shape has one index. -/
instance subsingleton_scalar_idx : Subsingleton S_.Idx := ⟨fun a b => funext fun d => d.elim0⟩

/-- A 32-bit word that tests `0 ≤ w` and `w < 8`, both signed, is one of the numerals `0, …, 7`:
    nonnegative read signed means the top bit is clear, so the signed and unsigned readings agree. -/
theorem word_of_range (w : BitVec 32) (h0 : IntOp.cmpi .sge w 0#32 = 1#1) (h8 : IntOp.cmpi .slt w 8#32 = 1#1) :
    ∃ c : Fin 8, w = BitVec.ofNat 32 c.val := by
  rw [IntOp.cmpi_sge, show (0#32 : BitVec 32).toInt = 0 from by decide] at h0
  rw [IntOp.cmpi_slt, show (8#32 : BitVec 32).toInt = 8 from by decide] at h8
  have hc := BitVec.toInt_eq_toNat_cond w
  have hlt : w.toNat < 2 ^ 32 := w.isLt
  have hn : w.toNat < 8 := by split at hc <;> omega
  refine ⟨⟨w.toNat, hn⟩, ?_⟩
  apply BitVec.eq_of_toNat_eq
  rw [BitVec.toNat_ofNat]
  show w.toNat = w.toNat % 2 ^ 32
  omega

/-- The last conjunct of the precondition, read at one label: the part of the chain that ends the
    predicate is an `and` whose second operand is the `jnp.all` of the range mask, so when the whole is 1
    every entry of that mask is 1, and an entry of the mask is the `and` of the two comparisons. -/
theorem part3_entry [Facts] {F : FTy → Type} [FloatOps F] (a1 : IVec S16384 32) (v48 : IVec S_ 1)
    (v49 v50 : FVec F S1x128 .f32) (h : fn_part3 (F := F) a1 v48 v49 v50 ix0 = 1#1) (b : Fin 16384) :
    IntOp.cmpi .sge (a1 (ix1 b)) 0#32 = 1#1 ∧ IntOp.cmpi .slt (a1 (ix1 b)) 8#32 = 1#1 := by
  dsimp only [fn_part3] at h
  have h59 := (IntOp.andi_eq_one.1 h).2
  have hb := Host.reduce_andi_all _ _ _ _ ix0 h59 (ix1 b)
  exact IntOp.andi_eq_one.1 hb

/-- Under the precondition every label is one of the eight words `0, …, 7`. -/
theorem label_range [Facts] {F : FTy → Type} [FloatOps F] (a0 : FVec F S16384x512 .f32) (a1 : IVec S16384 32)
    (a2 : FVec F S128x256 .f32) (a3 : FVec F S512x512 .f32) (a4 : FVec F S512 .f32) (a5 : FVec F S512x512 .f32)
    (a6 : FVec F S512 .f32) (a7 : FVec F S256x256 .f32) (a8 : FVec F S256 .f32) (a9 : FVec F S512x256 .f32)
    (a10 : FVec F S512 .f32) (a11 : FVec F S1x128 .f32)
    (h : fn (F := F) a0 a1 a2 a3 a4 a5 a6 a7 a8 a9 a10 a11 = fun _ => 1#1) :
    ∀ b : Fin 16384, ∃ c : Fin 8, a1 (ix1 b) = BitVec.ofNat 32 c.val := by
  intro b
  have h0 : fn (F := F) a0 a1 a2 a3 a4 a5 a6 a7 a8 a9 a10 a11 ix0 = 1#1 := congrFun h ix0
  dsimp only [fn, fn_part1, fn_part2] at h0
  obtain ⟨hge, hlt⟩ := part3_entry a1 _ _ _ h0 b
  exact word_of_range _ hge hlt

end Cert.PreT
-- ==== Proof.KPieces.lean ====
/-
  What each grid point leaves in its output blocks and in the carried accumulator, as terms of the body's arithmetic.

  The body's run names what it stored as a list of pieces; each output block is stored once, whole, so the block it
  leaves is that store's value. The accumulator is reset at the first point and then updated (the update reads the
  reset back), is updated over the value carried from the point before at the others, and at the last point the
  loss block holds the accumulator's updated value scaled.
-/
import proofs.«426893_j22204980920725_3_alg».proof.Proof.Gen.KernelIdeal.Frame
import Idealize.ShloMosaic.Lib.Pipeline.Value

set_option maxRecDepth 16384

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The block-level terms

What one grid point computes from its input blocks: `x0` the 512 samples, `x1` their labels, `x2 … x5` the encoder's
weights and biases, `x6 … x9` the decoder's, `x10` the prototype table, `x11` the last layer's weights. -/

/-- The sixteen prototypes of class `k`: rows `16k … 16k+15` of the table. -/
def P0 (x10 : Vec F S128x256 .f32) : Vec F S16x256 .f32 := View.ld x10 (Rect.unit ![0, 0] S16x256.size inb_S128x256_S16x256_0_0)
def P1 (x10 : Vec F S128x256 .f32) : Vec F S16x256 .f32 := View.ld x10 (Rect.unit ![16, 0] S16x256.size inb_S128x256_S16x256_16_0)
def P2 (x10 : Vec F S128x256 .f32) : Vec F S16x256 .f32 := View.ld x10 (Rect.unit ![32, 0] S16x256.size inb_S128x256_S16x256_32_0)
def P3 (x10 : Vec F S128x256 .f32) : Vec F S16x256 .f32 := View.ld x10 (Rect.unit ![48, 0] S16x256.size inb_S128x256_S16x256_48_0)
def P4 (x10 : Vec F S128x256 .f32) : Vec F S16x256 .f32 := View.ld x10 (Rect.unit ![64, 0] S16x256.size inb_S128x256_S16x256_64_0)
def P5 (x10 : Vec F S128x256 .f32) : Vec F S16x256 .f32 := View.ld x10 (Rect.unit ![80, 0] S16x256.size inb_S128x256_S16x256_80_0)
def P6 (x10 : Vec F S128x256 .f32) : Vec F S16x256 .f32 := View.ld x10 (Rect.unit ![96, 0] S16x256.size inb_S128x256_S16x256_96_0)
def P7 (x10 : Vec F S128x256 .f32) : Vec F S16x256 .f32 := View.ld x10 (Rect.unit ![112, 0] S16x256.size inb_S128x256_S16x256_112_0)

section
variable (x0 : Vec F S512x512 .f32) (x1 : Vec F S512x1 .i32) (x2 : Vec F S512x512 .bf16) (x3 : Vec F S1x512 .f32)
  (x4 : Vec F S512x512 .bf16) (x5 : Vec F S1x512 .f32) (x6 : Vec F S256x256 .bf16) (x7 : Vec F S1x256 .f32)
  (x8 : Vec F S512x256 .bf16) (x9 : Vec F S1x512 .f32) (x10 : Vec F S128x256 .f32) (x11 : Vec F S1x128 .f32)

/-- The latent means, the clipped log-variances and their exponentials, of the block's samples. -/
def zB : FVec F S512x256 .f32 := k0_pay3 x0 x2 x3 x4 x5
def lvB : FVec F S512x256 .f32 := k0_pay4 x0 x2 x3 x4 x5
def varB : FVec F S512x256 .f32 := k0_pay5 x0 x2 x3 x4 x5
/-- The labels. -/
def tB : IVec S512x1 32 := k0_pay6 x1
/-- The masked differences summed over classes 0 … 3, then over classes 0 … 6. -/
def d3B : FVec F S512x16x256 .f32 :=
  k0_pay11 (zB x0 x2 x3 x4 x5) (tB x1) (k0_pay7 (F := F)) (k0_pay8 x1) (k0_pay9 (P0 x10)) (k0_pay10 x0 x2 x3 x4 x5) (P1 x10) (P2 x10) (P3 x10)
def d6B : FVec F S512x16x256 .f32 :=
  k0_pay13 (zB x0 x2 x3 x4 x5) (tB x1) (d3B x0 x1 x2 x3 x4 x5 x10) (k0_pay12 (tB x1)) (P4 x10) (P5 x10) (P6 x10)
/-- Class 7's indicator, the latent means and class 7's prototypes, each spread over the block's three axes. -/
def m7B : FVec F S512x1x1 .f32 := k0_pay14 (F := F) (tB x1)
def zbB : FVec F S512x16x256 .f32 := k0_pay15 (zB x0 x2 x3 x4 x5)
def p7B : FVec F S512x16x256 .f32 := k0_pay16 (P7 x10)
/-- The squared differences, the similarities, the block's sum of ratios. -/
def dsqB : FVec F S512x16x256 .f32 := k0_pay17 (d6B x0 x1 x2 x3 x4 x5 x10) (m7B x1) (zbB x0 x2 x3 x4 x5) (p7B x10)
def simB : FVec F S512x16 .f32 := k0_pay18 (d6B x0 x1 x2 x3 x4 x5 x10) (m7B x1) (zbB x0 x2 x3 x4 x5) (p7B x10)
def tileB : FVec F S1x1 .f32 := k0_pay19 (lvB x0 x2 x3 x4 x5) (varB x0 x2 x3 x4 x5) (d6B x0 x1 x2 x3 x4 x5 x10) (m7B x1) (zbB x0 x2 x3 x4 x5) (p7B x10)
/-- The projections and the decoded rows. -/
def outB : FVec F S512x1 .f32 :=
  k0_pay21 (tB x1) (simB x0 x1 x2 x3 x4 x5 x10) (k0_pay20 (tB x1) (d6B x0 x1 x2 x3 x4 x5 x10) (m7B x1) (zbB x0 x2 x3 x4 x5) (p7B x10)) x11
def decB : FVec F S512x512 .f32 := k0_pay23 (k0_pay22 (zB x0 x2 x3 x4 x5)) x6 x7 x8 x9
end

/-! ## The found pieces -/

theorem hz2 : (![0, 0] : Fin 2 → Nat) = fun _ => 0 := by funext a; fin_cases a <;> rfl

theorem out0_A_12_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = outB x0 x1 x2 x3 x4 x5 x10 x11 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

theorem out0_A_13_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = decB x0 x2 x3 x4 x5 x6 x7 x8 x9 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

theorem sout0_A_0_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay25 (tileB x0 x1 x2 x3 x4 x5 x10) (k0_pay24 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2, View.readCov_unit_zero (S := S1x1) _ hz2]
  try rfl

theorem out0_B_12_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) (xs0 : Vec F S1x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = outB x0 x1 x2 x3 x4 x5 x10 x11 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_B
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

theorem out0_B_13_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) (xs0 : Vec F S1x1 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = decB x0 x2 x3 x4 x5 x6 x7 x8 x9 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_B
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

theorem sout0_B_0_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) (xs0 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = k0_pay25 (tileB x0 x1 x2 x3 x4 x5 x10) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_B
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

theorem out0_C_12_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) (xs0 : Vec F S1x1 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = outB x0 x1 x2 x3 x4 x5 x10 x11 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_C
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

theorem out0_C_13_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) (xs0 : Vec F S1x1 .f32) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = decB x0 x2 x3 x4 x5 x6 x7 x8 x9 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_C
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

theorem out0_C_14_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) (xs0 : Vec F S1x1 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = k0_pay1 (k0_pay25 (tileB x0 x1 x2 x3 x4 x5 x10) xs0) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_C
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2, View.readCov_unit_zero (S := S1x1) _ hz2]
  try rfl

theorem sout0_C_0_eq (c : Dev nD) (i : grid0.Coords) (arg1 : Memref sig .tc .vmem S512x512 .f32) (harg1 : arg1.IsWhole) (arg2 : Memref sig .tc .vmem S512x1 .i32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S1x512 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S512x1 .f32) (harg13 : arg13.IsWhole) (arg14 : Memref sig .tc .vmem S512x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S512x512 .f32) (x1 : Vec F S512x1 .i32) (x2 : Vec F S512x512 .bf16) (x3 : Vec F S1x512 .f32) (x4 : Vec F S512x512 .bf16) (x5 : Vec F S1x512 .f32) (x6 : Vec F S256x256 .bf16) (x7 : Vec F S1x256 .f32) (x8 : Vec F S512x256 .bf16) (x9 : Vec F S1x512 .f32) (x10 : Vec F S128x256 .f32) (x11 : Vec F S1x128 .f32) (xs0 : Vec F S1x1 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 = k0_pay25 (tileB x0 x1 x2 x3 x4 x5 x10) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_C
  dsimp only
  sl_unfold_words
  rw [View.canon_unit_zero hz2]
  simp only [View.readAt_eq_ld, Memref.IsWhole.read_unread, View.ld_unit_zero (S := S512x512) hz2, View.ld_unit_zero (S := S512x1) hz2, View.ld_unit_zero (S := S1x512) hz2, View.ld_unit_zero (S := S1x128) hz2, View.ld_unit_zero (S := S256x256) hz2, View.ld_unit_zero (S := S1x256) hz2, View.ld_unit_zero (S := S512x256) hz2, View.ld_unit_zero (S := S1x1) hz2]
  try rfl

end Cert.KernelIdeal.Blk

end
-- ==== Proof.KRun.lean ====
/-
  The kernel's run, read as values.

  The grid has 32 points; point `t` works on samples `512t … 512t+511`. After the body at point `t` the two
  per-sample output blocks hold the projections and the decoded rows of the point's samples; the carried accumulator
  holds the point's sum of ratios added to what the point before left (to zero at the first point); and at the last
  point the loss block holds the accumulator scaled by `2⁻¹⁴`. Every point writes its two per-sample blocks back, the
  blocks tile the arrays, so the arrays end holding, row by row, the block values of the row's point; the loss array
  is written back once, at the last point.
-/
import proofs.«426893_j22204980920725_3_alg».proof.Proof.KPieces
import Idealize.ShloMosaic.Lib.Pipeline.Value
import Idealize.ShloMosaic.Lib.ValueIdx

set_option maxRecDepth 16384

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blk

variable {F : FTy → Type} [FloatOps F]
variable (m : (ℓ : Loc nD τ sig) → Buf (Elt F) ℓ) (ρ : Dev nD → PrngReg)

/-! ## One point -/

/-- The projections, the decoded rows and the sum of ratios of point `t`'s samples, from its input blocks. -/
abbrev outP (c : Dev nD) (t : Fin cfg0.N) : Vec F S512x1 .f32 := outB (iblk m c 0 t) (iblk m c 1 t) (iblk m c 2 t) (iblk m c 3 t) (iblk m c 4 t) (iblk m c 5 t) (iblk m c 10 t) (iblk m c 11 t)
abbrev decP (c : Dev nD) (t : Fin cfg0.N) : Vec F S512x512 .f32 := decB (iblk m c 0 t) (iblk m c 2 t) (iblk m c 3 t) (iblk m c 4 t) (iblk m c 5 t) (iblk m c 6 t) (iblk m c 7 t) (iblk m c 8 t) (iblk m c 9 t)
abbrev tileP (c : Dev nD) (t : Fin cfg0.N) : Vec F S1x1 .f32 := tileB (iblk m c 0 t) (iblk m c 1 t) (iblk m c 2 t) (iblk m c 3 t) (iblk m c 4 t) (iblk m c 5 t) (iblk m c 10 t)

/-- Whatever the point, its first output block ends holding the projections of its samples. -/
theorem outs12 (c : Dev nD) (t : Fin cfg0.N) : (outsAt0 m c t.val t.isLt).1 = outP m c t := by
  by_cases h0 : t.val % 32 = 0
  · have h1 : ¬t.val % 32 = 31 := by omega
    rw [outsAt0_A m c t h0 h1]; dsimp only
    exact out0_A_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  · by_cases h1 : t.val % 32 = 31
    · rw [outsAt0_C m c t h0 h1]; dsimp only
      exact out0_C_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2
    · rw [outsAt0_B m c t h0 h1]; dsimp only
      exact out0_B_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2

/-- … and its second output block the decoded rows. -/
theorem outs13 (c : Dev nD) (t : Fin cfg0.N) : (outsAt0 m c t.val t.isLt).2.1 = decP m c t := by
  by_cases h0 : t.val % 32 = 0
  · have h1 : ¬t.val % 32 = 31 := by omega
    rw [outsAt0_A m c t h0 h1]; dsimp only
    exact out0_A_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  · by_cases h1 : t.val % 32 = 31
    · rw [outsAt0_C m c t h0 h1]; dsimp only
      exact out0_C_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2
    · rw [outsAt0_B m c t h0 h1]; dsimp only
      exact out0_B_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2

/-- At the first point the accumulator is reset, then the point's sum is added. -/
theorem outsSc_first (c : Dev nD) (t : Fin cfg0.N) (h0 : t.val % 32 = 0) :
    (outsAt0 m c t.val t.isLt).2.2.2 = k0_pay25 (tileP m c t) (k0_pay24 (F := F)) := by
  have h1 : ¬t.val % 32 = 31 := by omega
  rw [outsAt0_A m c t h0 h1]; dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- At every other point the point's sum is added to what the point before left. -/
theorem outsSc_next (c : Dev nD) (t : Fin cfg0.N) (h0 : ¬t.val % 32 = 0) :
    (outsAt0 m c t.val t.isLt).2.2.2 = k0_pay25 (tileP m c t) (outsAt0 m c (t.val - 1) (Nat.lt_of_le_of_lt (Nat.sub_le _ _) t.isLt)).2.2.2 := by
  by_cases h1 : t.val % 32 = 31
  · rw [outsAt0_C m c t h0 h1]; dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2
  · rw [outsAt0_B m c t h0 h1]; dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2

/-- At the last point the loss block holds the updated accumulator, scaled. -/
theorem outs14_last (c : Dev nD) (t : Fin cfg0.N) (h0 : ¬t.val % 32 = 0) (h1 : t.val % 32 = 31) :
    (outsAt0 m c t.val t.isLt).2.2.1 = k0_pay1 (k0_pay25 (tileP m c t) (outsAt0 m c (t.val - 1) (Nat.lt_of_le_of_lt (Nat.sub_le _ _) t.isLt)).2.2.2) := by
  rw [outsAt0_C m c t h0 h1]; dsimp only
  exact out0_C_14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2

/-! ## The per-sample arrays -/

theorem hN : cfg0.N = 32 := N_0

/-- The point that works on array row `n`, and the row's place inside that point's block. -/
def ptN (n : Nat) : Fin cfg0.N := ⟨n / 512 % 32, by rw [hN]; exact Nat.mod_lt _ (by decide)⟩
def rwN (n : Nat) : Fin 512 := ⟨n % 512, Nat.mod_lt _ (by decide)⟩

theorem ptN_val (n : Nat) : (ptN n).val = n / 512 % 32 := rfl

theorem ptN_blk (t : Fin cfg0.N) (r : Nat) (hr : r < 512) : ptN (512 * t.val + r) = t := by
  have ht : t.val < 32 := lt_of_lt_of_eq t.isLt hN
  apply Fin.ext; rw [ptN_val]; omega

theorem rwN_blk (t : Nat) (r : Fin 512) : rwN (512 * t + r.val) = r := by
  apply Fin.ext; show (512 * t + r.val) % 512 = r.val; have := r.isLt; omega

/-- The windows' block indices, decided over the grid: output blocks 12 and 13 sit at block row `t`, column 0. -/
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- The first result array: row `n` holds the projection of sample `n`, computed at the row's point. -/
def G12 (c : Dev nD) : Buf (Elt F) ((c : Thread nD τ).loc main_v9_0) :=
  fun i => outP m c (ptN (i 0).val) (ix2 (rwN (i 0).val) (0 : Fin 1))

/-- The second result array: row `n` holds the decoded row of sample `n`. -/
def G13 (c : Dev nD) : Buf (Elt F) ((c : Thread nD τ).loc main_v9_1) :=
  fun i => decP m c (ptN (i 0).val) (ix2 (rwN (i 0).val) (rwN (i 1).val))

/-- What point `t` writes back of the first output is block `t` of `G12`. -/
theorem flushed12_eq (c : Dev nD) (t : Fin cfg0.N) :
    (dats m 0 c).flushed 12 t = ((cfg0.win 12).blk t).view.read (Elt F) (G12 m c) := by
  show (cfg0.win 12).cut (grid0.coords t) ((dats m 0 c).after 12 t) = _
  rw [after0_12, outs12]
  obtain ⟨e0, e1⟩ := idx12 t
  funext j
  have hj0 : (j 0).val < 512 := (j 0).isLt
  have hj1 : (j 1).val < 1 := (j 1).isLt
  have hemb : ((((cfg0.win 12).blk t).view.emb j) 0).val = 512 * t.val + (j 0).val := by
    show win0_12.index t (0 : Fin 2) * 512 + 1 * (j 0).val = _
    rw [e0]; omega
  show outP m c t j = outP m c (ptN ((((cfg0.win 12).blk t).view.emb j) 0).val) (ix2 (rwN ((((cfg0.win 12).blk t).view.emb j) 0).val) (0 : Fin 1))
  rw [hemb, ptN_blk t _ hj0, rwN_blk t.val ⟨(j 0).val, hj0⟩]
  congr 1
  funext a
  match a with
  | ⟨0, _⟩ => rfl
  | ⟨1, _⟩ => exact Fin.ext (by show (j 1).val = 0; omega)

theorem flushed13_eq (c : Dev nD) (t : Fin cfg0.N) :
    (dats m 0 c).flushed 13 t = ((cfg0.win 13).blk t).view.read (Elt F) (G13 m c) := by
  show (cfg0.win 13).cut (grid0.coords t) ((dats m 0 c).after 13 t) = _
  rw [after0_13, outs13]
  obtain ⟨e0, e1⟩ := idx13 t
  funext j
  have hj0 : (j 0).val < 512 := (j 0).isLt
  have hj1 : (j 1).val < 512 := (j 1).isLt
  have hemb0 : ((((cfg0.win 13).blk t).view.emb j) 0).val = 512 * t.val + (j 0).val := by
    show win0_13.index t (0 : Fin 2) * 512 + 1 * (j 0).val = _
    rw [e0]; omega
  have hemb1 : ((((cfg0.win 13).blk t).view.emb j) 1).val = (j 1).val := by
    show win0_13.index t (1 : Fin 2) * 512 + 1 * (j 1).val = _
    rw [e1]; omega
  show decP m c t j = decP m c (ptN ((((cfg0.win 13).blk t).view.emb j) 0).val)
    (ix2 (rwN ((((cfg0.win 13).blk t).view.emb j) 0).val) (rwN ((((cfg0.win 13).blk t).view.emb j) 1).val))
  have e1' : rwN (j 1).val = (⟨(j 1).val, hj1⟩ : Fin 512) := Fin.ext (Nat.mod_eq_of_lt hj1)
  rw [hemb0, hemb1, ptN_blk t _ hj0, rwN_blk t.val ⟨(j 0).val, hj0⟩, e1']
  congr 1
  funext a
  match a with
  | ⟨0, _⟩ => rfl
  | ⟨1, _⟩ => rfl

/-- Every row of the first result array is in its point's block, and every point writes its block back. -/
theorem cover12 (c : Dev nD) (i : ((c : Thread nD τ).loc main_v9_0).2.ty.Idx) :
    ∃ t : Fin cfg0.N, (cfg0.win 12).flush t = true ∧ i ∈ ((cfg0.win 12).blk t).view.set := by
  refine ⟨ptN (i 0).val, flush0_12 _, ?_⟩
  show i ∈ ((View.whole main_v9_0).slice (win0_12.rect (ptN (i 0).val))).set
  rw [View.set_slice_whole, Rect.mem_set_unit]
  obtain ⟨e0, e1⟩ := idx12 (ptN (i 0).val)
  have h0 : (i 0).val < 16384 := (i 0).isLt
  have h1 : (i 1).val < 1 := (i 1).isLt
  intro a
  match a with
  | ⟨0, _⟩ =>
    show win0_12.index (ptN (i 0).val) (0 : Fin 2) * 512 ≤ (i 0).val ∧ (i 0).val < win0_12.index (ptN (i 0).val) (0 : Fin 2) * 512 + 512
    rw [e0, ptN_val]; omega
  | ⟨1, _⟩ =>
    show win0_12.index (ptN (i 0).val) (1 : Fin 2) * 1 ≤ (i 1).val ∧ (i 1).val < win0_12.index (ptN (i 0).val) (1 : Fin 2) * 1 + 1
    rw [e1]; omega

theorem cover13 (c : Dev nD) (i : ((c : Thread nD τ).loc main_v9_1).2.ty.Idx) :
    ∃ t : Fin cfg0.N, (cfg0.win 13).flush t = true ∧ i ∈ ((cfg0.win 13).blk t).view.set := by
  refine ⟨ptN (i 0).val, flush0_13 _, ?_⟩
  show i ∈ ((View.whole main_v9_1).slice (win0_13.rect (ptN (i 0).val))).set
  rw [View.set_slice_whole, Rect.mem_set_unit]
  obtain ⟨e0, e1⟩ := idx13 (ptN (i 0).val)
  have h0 : (i 0).val < 16384 := (i 0).isLt
  have h1 : (i 1).val < 512 := (i 1).isLt
  intro a
  match a with
  | ⟨0, _⟩ =>
    show win0_13.index (ptN (i 0).val) (0 : Fin 2) * 512 ≤ (i 0).val ∧ (i 0).val < win0_13.index (ptN (i 0).val) (0 : Fin 2) * 512 + 512
    rw [e0, ptN_val]; omega
  | ⟨1, _⟩ =>
    show win0_13.index (ptN (i 0).val) (1 : Fin 2) * 512 ≤ (i 1).val ∧ (i 1).val < win0_13.index (ptN (i 0).val) (1 : Fin 2) * 512 + 512
    rw [e1]; omega

/-- So the two per-sample arrays end holding `G12` and `G13`. -/
theorem final12 (c : Dev nD) : (dats m 0 c).arrAt 12 cfg0.N = G12 m c :=
  (dats m 0 c).arrAt_eq_of_cover 12 (G12 m c) (fun t _ => flushed12_eq m c t) (cover12 c)
theorem final13 (c : Dev nD) : (dats m 0 c).arrAt 13 cfg0.N = G13 m c :=
  (dats m 0 c).arrAt_eq_of_cover 13 (G13 m c) (fun t _ => flushed13_eq m c t) (cover13 c)

end Cert.KernelIdeal.KRun

end
-- ==== Proof.KAcc.lean ====
/-
  The carried accumulator and the loss array.

  Write `τ t` for the sum of ratios of point `t`'s 512 samples. After point 0 the accumulator holds `0 + τ 0`, after
  point `n + 1` what point `n` left plus `τ (n + 1)`: by induction the sum of `τ` over the points so far. The loss block
  is written once, at the last point, with the accumulator's final value times `2⁻¹⁴`; its one block is the whole
  `[1, 1]` array, so that is what the array ends holding.
-/
import proofs.«426893_j22204980920725_3_alg».proof.Proof.KRun
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.KAcc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blk Cert.KernelIdeal.KRun

variable (m : (ℓ : Loc nD τ sig) → Buf (Elt Ideal) ℓ) (c : Dev nD)

/-! ## The three accumulator steps at their one index -/

/-- The update adds the point's sum to the value it read. -/
theorem pay25_apply (v177 v256 : Vec Ideal S1x1 .f32) : k0_pay25 v177 v256 (ix2 0 0) = v256 (ix2 0 0) + v177 (ix2 0 0) := by
  unfold k0_pay25
  rw [shapeCast_self]
  rfl

/-- The reset stores zero. -/
theorem pay24_apply : k0_pay24 (F := Ideal) (ix2 0 0) = 0 := by
  unfold k0_pay24
  rw [shapeCast_self]
  exact Ideal.ofBits_zero_f32

/-- The loss block is the accumulator times `2⁻¹⁴`. -/
theorem pay1_apply (v : Vec Ideal S1x1 .f32) : k0_pay1 v (ix2 0 0) = v (ix2 0 0) * Ideal.ofBits .f32 0x38800000#32 := by
  unfold k0_pay1
  rfl

/-! ## The accumulator after each point -/

/-- Point `t`'s sum of ratios. -/
def tau (t : Fin cfg0.N) : EReal := tileP m c t (ix2 0 0)

/-- The same over all naturals, zero beyond the grid. -/
def tauN (u : ℕ) : EReal := if h : u < cfg0.N then tau m c ⟨u, h⟩ else 0

/-- The accumulator's value after point `n`. -/
def sAt (n : ℕ) (h : n < cfg0.N) : EReal := (outsAt0 m c n h).2.2.2 (ix2 0 0)

/-- It is the sum of the points' sums so far. -/
theorem sAt_eq : ∀ (n : ℕ) (h : n < cfg0.N), sAt m c n h = ∑ u ∈ Finset.range (n + 1), tauN m c u
  | 0, h => by
    have e := outsSc_first m c ⟨0, h⟩ rfl
    unfold sAt
    rw [show (outsAt0 m c 0 h).2.2.2 = _ from e, pay25_apply, pay24_apply, zero_add, Finset.sum_range_one]
    unfold tauN tau
    rw [dif_pos h]
  | n + 1, h => by
    have hlt : n + 1 < 32 := lt_of_lt_of_eq h hN
    have e := outsSc_next m c ⟨n + 1, h⟩ (by show ¬(n + 1) % 32 = 0; omega)
    unfold sAt
    rw [show (outsAt0 m c (n + 1) h).2.2.2 = _ from e, pay25_apply, Finset.sum_range_succ, ← sAt_eq n (Nat.lt_of_succ_lt h)]
    unfold tauN tau sAt
    rw [dif_pos h]
    rfl

/-- The sum over all naturals below the grid's size is the sum over the grid. -/
theorem sum_tauN : ∑ u ∈ Finset.range 32, tauN m c u = ∑ t : Fin cfg0.N, tau m c t := by
  rw [← hN, ← Fin.sum_univ_eq_sum_range]
  refine Finset.sum_congr rfl fun t _ => ?_
  unfold tauN
  rw [dif_pos t.isLt]

/-! ## The loss array -/

/-- The last point: the point whose number is 31. -/
theorem exists_last : ∃ t : Fin cfg0.N, t.val = 31 := ⟨⟨31, by rw [hN]; decide⟩, rfl⟩
def t31 : Fin cfg0.N := Classical.choose exists_last
theorem t31_val : (t31).val = 31 := Classical.choose_spec exists_last

/-- What the last point leaves in the loss block. -/
def R14 : Buf (Elt Ideal) ((c : Thread nD τ).loc main_v9_2) := (outsAt0 m c (t31).val (t31).isLt).2.2.1

theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-- What any point would write back of the loss block is what it left there, the block being the whole `[1, 1]` array. -/
theorem flushed14_at (t : Fin cfg0.N) :
    (dats m 0 c).flushed 14 t = ((cfg0.win 14).blk t).view.read (Elt Ideal) (outsAt0 m c t.val t.isLt).2.2.1 := by
  show (cfg0.win 14).cut (grid0.coords t) ((dats m 0 c).after 14 t) = _
  rw [after0_14]
  obtain ⟨e0, e1⟩ := idx14 t
  funext j
  have hj0 : (j 0).val < 1 := (j 0).isLt
  have hj1 : (j 1).val < 1 := (j 1).isLt
  have hj : ((cfg0.win 14).blk t).view.emb j = j := by
    funext a
    match a with
    | ⟨0, _⟩ => exact Fin.ext (by show win0_14.index t (0 : Fin 2) * 1 + 1 * (j 0).val = (j 0).val; rw [e0]; omega)
    | ⟨1, _⟩ => exact Fin.ext (by show win0_14.index t (1 : Fin 2) * 1 + 1 * (j 1).val = (j 1).val; rw [e1]; omega)
  show (outsAt0 m c t.val t.isLt).2.2.1 j = (outsAt0 m c t.val t.isLt).2.2.1 (((cfg0.win 14).blk t).view.emb j)
  rw [hj]

/-- The one write-back, at the last point, writes what the last point left. -/
theorem flushed14_eq (t : Fin cfg0.N) (hf : (cfg0.win 14).flush t = true) :
    (dats m 0 c).flushed 14 t = ((cfg0.win 14).blk t).view.read (Elt Ideal) (R14 m c) := by
  have h31 : t.val = 31 := by
    have h := (flush0_14 t).mp hf
    have := lt_of_lt_of_eq t.isLt hN
    omega
  have ht : t = t31 := Fin.ext (h31.trans t31_val.symm)
  unfold R14
  subst ht
  exact flushed14_at m c _

theorem cover14 (i : ((c : Thread nD τ).loc main_v9_2).2.ty.Idx) :
    ∃ t : Fin cfg0.N, (cfg0.win 14).flush t = true ∧ i ∈ ((cfg0.win 14).blk t).view.set := by
  refine ⟨t31, (flush0_14 t31).mpr (by rw [t31_val]), ?_⟩
  show i ∈ ((View.whole main_v9_2).slice (win0_14.rect t31)).set
  rw [View.set_slice_whole, Rect.mem_set_unit]
  obtain ⟨e0, e1⟩ := idx14 t31
  have h0 : (i 0).val < 1 := (i 0).isLt
  have h1 : (i 1).val < 1 := (i 1).isLt
  intro a
  match a with
  | ⟨0, _⟩ =>
    show win0_14.index t31 (0 : Fin 2) * 1 ≤ (i 0).val ∧ (i 0).val < win0_14.index t31 (0 : Fin 2) * 1 + 1
    rw [e0]; omega
  | ⟨1, _⟩ =>
    show win0_14.index t31 (1 : Fin 2) * 1 ≤ (i 1).val ∧ (i 1).val < win0_14.index t31 (1 : Fin 2) * 1 + 1
    rw [e1]; omega

/-- So the loss array ends holding what the last point left. -/
theorem final14 : (dats m 0 c).arrAt 14 cfg0.N = R14 m c :=
  (dats m 0 c).arrAt_eq_of_cover 14 (R14 m c) (flushed14_eq m c) (cover14 c)

/-- Its one entry is the sum over the grid of the points' sums, times `2⁻¹⁴`. -/
theorem R14_apply : R14 m c (ix2 0 0) = (∑ t : Fin cfg0.N, tau m c t) * Ideal.ofBits .f32 0x38800000#32 := by
  have h0 : ¬(t31).val % 32 = 0 := by rw [t31_val]; decide
  have h1 : (t31).val % 32 = 31 := by rw [t31_val]
  have e14 := outs14_last m c t31 h0 h1
  have esc := outsSc_next m c t31 h0
  have hs : (outsAt0 m c (t31).val (t31).isLt).2.2.2 (ix2 0 0) = ∑ u ∈ Finset.range ((t31).val + 1), tauN m c u :=
    sAt_eq m c (t31).val (t31).isLt
  unfold R14
  rw [e14, ← esc, pay1_apply, hs, t31_val, sum_tauN]

end Cert.KernelIdeal.KAcc

end
-- ==== Proof.Spec.lean ====
/-
  The mathematics both programs compute, one sample (one row of the batch) at a time, over the extended reals.

  A sample `x : Fin 512 → EReal` with class label `c : Fin 8` goes through
  * the encoder: `hid = max (x·W1ᵀ + b1) 0`, `conv = hid·W2ᵀ + b2`; `z` is the first half of `conv`,
    `lv` the second half clipped into `[lo, hi]`;
  * the sixteen prototypes of class `c` (rows `16c … 16c+15` of the table): `dif p l = z l − P (16c+p) l`,
    the distance `dist p = √(∑ₗ dif²)`, the similarity `sim p = log ((dist p + 1) / (dist p + ε))`;
  * the divergence term `klr p = (∑ₗ (−½·lv l + ½·(exp (lv l) + dif²) − ½)) / 256`, its weight `klw = klr·sim`,
    the indicator of `klw > 0`, and the sample's ratio `(∑ₚ klw p) / (∑ₚ sim p · [klw p > 0])`;
  * the projection `outr = ∑ⱼ fullsim j · Wl j` of the 128-vector holding `sim` in the class's sixteen slots and
    zero elsewhere;
  * the decoder `decr j = tanh (max (z·Wd1ᵀ + bd1) 0 · Wd2ᵀ + bd2)`.
  The batch's loss is the mean of the ratios over the 16384 samples.

  Also here: the two constants only one program spells (the divisor 16384 and its reciprocal 2⁻¹⁴), the selection of
  one term out of eight by indicator factors, and the regrouping of a sum over the batch as a sum over 32 tiles of 512.
-/
import Idealize.ShloMosaic.PureOps.Ideal
import Idealize.ShloMosaic.PureOps.Ideal.Laws
import Mathlib.Algebra.BigOperators.Fin
import Mathlib.Algebra.BigOperators.Pi
import Mathlib.Logic.Equiv.Fin.Basic

noncomputable section

namespace Cert.Spec

open Idealize.ShloMosaic

/-! ## The constants -/

/-- The clip bounds `∓18.420681` (the same words in both programs; never evaluated). -/
def lo : EReal := Ideal.ofBits .f32 0xC1935D8E#32
def hi : EReal := Ideal.ofBits .f32 0x41935D8E#32
/-- `1.0`, `ε` (the f32 nearest `1e-4`), `∓0.5` and `256.0`: shared words, never evaluated. -/
def one : EReal := Ideal.ofBits .f32 0x3F800000#32
def eps : EReal := Ideal.ofBits .f32 0x38D1B717#32
def mhalf : EReal := Ideal.ofBits .f32 0xBF000000#32
def half : EReal := Ideal.ofBits .f32 0x3F000000#32
def c256 : EReal := Ideal.ofBits .f32 0x43800000#32

/-- The word `0x46800000` denotes the real `16384`. -/
theorem ofBits_16384 : Ideal.ofBits .f32 0x46800000#32 = ((16384 : ℝ) : EReal) := by
  simp [Ideal.ofBits, Ideal.ieee, -EReal.coe_mul]; norm_num

/-- The word `0x38800000` denotes the real `1/16384` (it is `2⁻¹⁴` exactly). -/
theorem ofBits_inv_16384 : Ideal.ofBits .f32 0x38800000#32 = ((1 / 16384 : ℝ) : EReal) := by
  simp [Ideal.ofBits, Ideal.ieee, -EReal.coe_mul]; norm_num

/-- Dividing by `16384` is multiplying by `2⁻¹⁴`, on every extended real. -/
theorem div_16384 (x : EReal) :
    Ideal.div x (Ideal.ofBits .f32 0x46800000#32) = x * Ideal.ofBits .f32 0x38800000#32 := by
  rw [ofBits_16384, ofBits_inv_16384, Ideal.div_coe (by norm_num : (16384 : ℝ) ≠ 0)]

/-! ## One sample -/

section Row

variable (W1 : Fin 512 → Fin 512 → EReal) (b1 : Fin 512 → EReal) (W2 : Fin 512 → Fin 512 → EReal) (b2 : Fin 512 → EReal)

/-- The hidden layer: `max (∑ₖ x k · W1 j k + b1 j) 0`. -/
def hid (x : Fin 512 → EReal) (j : Fin 512) : EReal := max ((∑ k : Fin 512, x k * W1 j k) + b1 j) 0

/-- The encoder's output row: `∑ₖ hid k · W2 j k + b2 j`. -/
def conv (x : Fin 512 → EReal) (j : Fin 512) : EReal := (∑ k : Fin 512, hid W1 b1 x k * W2 j k) + b2 j

end Row

/-- The latent mean: the first 256 entries of the encoder's row. -/
def zr (cv : Fin 512 → EReal) (l : Fin 256) : EReal := cv ⟨l.val, by omega⟩

/-- The latent log-variance: the last 256 entries, clipped into `[lo, hi]`. -/
def lvr (cv : Fin 512 → EReal) (l : Fin 256) : EReal := min hi (max lo (cv ⟨256 + l.val, by omega⟩))

/-- The latent mean less prototype `p` of class `c`. -/
def dif (P : Fin 128 → Fin 256 → EReal) (c : Fin 8) (z : Fin 256 → EReal) (p : Fin 16) (l : Fin 256) : EReal :=
  z l - P ⟨16 * c.val + p.val, by omega⟩ l

section Proto

variable (d : Fin 16 → Fin 256 → EReal) (lv : Fin 256 → EReal)

def dist (p : Fin 16) : EReal := Ideal.sqrt (∑ l : Fin 256, d p l * d p l)

def sim (p : Fin 16) : EReal := Ideal.log (Ideal.div (dist d p + one) (dist d p + eps))

def klr (p : Fin 16) : EReal :=
  Ideal.div (∑ l : Fin 256, (mhalf * lv l + half * (Ideal.exp (lv l) + d p l * d p l) - half)) c256

def klw (p : Fin 16) : EReal := klr d lv p * sim d p

/-- The indicator of `klw p > 0`. -/
def msk (p : Fin 16) : EReal := if 0 < klw d lv p then 1 else 0

/-- The sample's ratio. -/
def ratio : EReal := Ideal.div (∑ p : Fin 16, klw d lv p) (∑ p : Fin 16, sim d p * msk d lv p)

end Proto

/-- The similarities in the class's sixteen slots of a 128-vector, zero elsewhere. -/
def fullsim (c : Fin 8) (s : Fin 16 → EReal) (j : Fin 128) : EReal :=
  if j.val / 16 = c.val then s ⟨j.val % 16, Nat.mod_lt _ (by decide)⟩ else 0

/-- The projection onto the last layer's weights. -/
def outr (Wl : Fin 128 → EReal) (c : Fin 8) (s : Fin 16 → EReal) : EReal := ∑ j : Fin 128, fullsim c s j * Wl j

/-- The decoder's output row. -/
def decr (Wd1 : Fin 256 → Fin 256 → EReal) (bd1 : Fin 256 → EReal) (Wd2 : Fin 512 → Fin 256 → EReal) (bd2 : Fin 512 → EReal)
    (z : Fin 256 → EReal) (j : Fin 512) : EReal :=
  Ideal.tanh ((∑ l : Fin 256, max ((∑ q : Fin 256, z q * Wd1 l q) + bd1 l) 0 * Wd2 j l) + bd2 j)

/-- The class a label word names (`w mod 8`; a label in range is its own class). -/
def cls (w : BitVec 32) : Fin 8 := ⟨w.toNat % 8, Nat.mod_lt _ (by decide)⟩

theorem cls_ofNat (c : Fin 8) : cls (BitVec.ofNat 32 c.val) = c := by
  revert c; decide

/-! ## One term out of eight -/

/-- The indicator factor of class `k` at a sample of class `c`. -/
def ind (c k : Fin 8) : EReal := if c = k then 1 else 0

/-- Adding, from zero, the eight terms `a k` each under its class's indicator leaves the sample's own term. -/
theorem sel8 (c : Fin 8) (a : Fin 8 → EReal) :
    0 + ind c 0 * a 0 + ind c 1 * a 1 + ind c 2 * a 2 + ind c 3 * a 3 + ind c 4 * a 4 + ind c 5 * a 5
      + ind c 6 * a 6 + ind c 7 * a 7 = a c := by
  fin_cases c <;> simp [ind]

/-! ## The batch as 32 tiles of 512 -/

/-- Sample `r` of tile `t`. -/
def row (t : Fin 32) (r : Fin 512) : Fin 16384 := ⟨512 * t.val + r.val, by omega⟩

/-- A sum over the batch is the sum over the tiles of the sums over each tile's samples. -/
theorem sum_tiles {M : Type} [AddCommMonoid M] (f : Fin 16384 → M) :
    ∑ b : Fin 16384, f b = ∑ t : Fin 32, ∑ r : Fin 512, f (row t r) := by
  rw [← Fintype.sum_prod_type']
  refine (Fintype.sum_equiv (finProdFinEquiv (m := 32) (n := 512)) _ _ (fun tr => ?_)).symm
  congr 1
  refine Fin.ext ?_
  simp only [finProdFinEquiv_apply_val, row]
  omega

end Cert.Spec

end
-- ==== Proof.KEnc.lean ====
/-
  The encoder and the decoder of one block of 512 samples, read entry by entry.

  Both are two affine layers with a rectifier between them. Each layer is a product that contracts axis 1 of both of
  its operands, so entry (r, j) of the product is the sum over k of lhs (r, k) * rhs (j, k), plus a bias row
  broadcast down the 512 rows. Narrowing a value to a shorter format is the identity on the extended reals. The
  encoder's row of 512 entries is cut into its two halves: the first is the latent mean, the second, clipped between
  the two bounds, the latent log-variance, whose exponential is the variance. The decoder applies the hyperbolic
  tangent to its second layer's row.
-/
import proofs.«426893_j22204980920725_3_alg».proof.Proof.KPieces
import proofs.«426893_j22204980920725_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KEnc

open Idealize.ShloMosaic Idealize.ShloMosaic.ValueIdx Cert.KernelIdeal Cert.KernelIdeal.Gen Cert.KernelIdeal.Blk

/-! ## The product of a [512, 512] array and a [512, 512] array along their second axes -/

/-- The left operand is read in the entry's row … -/
theorem lhs_mmE_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
/-- … at the contraction's position; -/
theorem lhs_mmE_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
/-- the right operand in the row the entry's column names … -/
theorem rhs_mmE_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
/-- … at the contraction's position. -/
theorem rhs_mmE_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Entry (r, j) of the product into a zero accumulator is the sum over k of lhs (r, k) * rhs (j, k). -/
theorem mmE_apply (A : FVec Ideal S512x512 .bf16) (B : FVec Ideal S512x512 .bf16) (r : Fin 512) (j : Fin 512) :
    matmul dot_S512x512_S512x512_S512x512_1_1_0_0_n_n none A B (constant (F := Ideal) S512x512 .f32 0x00000000#32) (ix2 r j)
      = ∑ k : Fin 512, A (ix2 r k) * B (ix2 j k) := by
  refine (Ideal.matmul_constant_zero_apply dot_S512x512_S512x512_S512x512_1_1_0_0_n_n none A B (ix2 r j)).trans ?_
  rw [← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 r j) ((contrEquiv1 dot_S512x512_S512x512_S512x512_1_1_0_0_n_n 512 rfl rfl).symm k) = ix2 r k := funext fun a => Fin.ext (by
    match a with
    | ⟨0, _⟩ => exact lhs_mmE_0 _ _
    | ⟨1, _⟩ => exact (lhs_mmE_1 _ _).trans hk)
  have er : dot_S512x512_S512x512_S512x512_1_1_0_0_n_n.rhsIdx (ix2 r j) ((contrEquiv1 dot_S512x512_S512x512_S512x512_1_1_0_0_n_n 512 rfl rfl).symm k) = ix2 j k := funext fun a => Fin.ext (by
    match a with
    | ⟨0, _⟩ => exact rhs_mmE_0 _ _
    | ⟨1, _⟩ => exact (rhs_mmE_1 _ _).trans hk)
  rw [el, er]

/-! ## The product of a [512, 256] array and a [256, 256] array along their second axes -/

/-- The left operand is read in the entry's row … -/
theorem lhs_mmD1_0 (i : S512x256.Idx) (q : dot_S512x256_S256x256_S512x256_1_1_0_0_n_n.contr.Idx) :
    (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
/-- … at the contraction's position; -/
theorem lhs_mmD1_1 (i : S512x256.Idx) (q : dot_S512x256_S256x256_S512x256_1_1_0_0_n_n.contr.Idx) :
    (dot_S512x256_S256x256_S512x256_1_1_0_0_n_n.lhsIdx i q 1).val = (q ⟨0, by decide⟩).val :=
  dot_S512x256_S256x256_S512x256_1_1_0_0_n_n.lhsIdx_val_of_single rfl i q
/-- the right operand in the row the entry's column names … -/
theorem rhs_mmD1_0 (i : S512x256.Idx) (q : dot_S512x256_S256x256_S512x256_1_1_0_0_n_n.contr.Idx) :
    (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
/-- … at the contraction's position. -/
theorem rhs_mmD1_1 (i : S512x256.Idx) (q : dot_S512x256_S256x256_S512x256_1_1_0_0_n_n.contr.Idx) :
    (dot_S512x256_S256x256_S512x256_1_1_0_0_n_n.rhsIdx i q 1).val = (q ⟨0, by decide⟩).val :=
  dot_S512x256_S256x256_S512x256_1_1_0_0_n_n.rhsIdx_val_of_single rfl i q

/-- Entry (r, j) of the product into a zero accumulator is the sum over k of lhs (r, k) * rhs (j, k). -/
theorem mmD1_apply (A : FVec Ideal S512x256 .bf16) (B : FVec Ideal S256x256 .bf16) (r : Fin 512) (j : Fin 256) :
    matmul dot_S512x256_S256x256_S512x256_1_1_0_0_n_n none A B (constant (F := Ideal) S512x256 .f32 0x00000000#32) (ix2 r j)
      = ∑ k : Fin 256, A (ix2 r k) * B (ix2 j k) := by
  refine (Ideal.matmul_constant_zero_apply dot_S512x256_S256x256_S512x256_1_1_0_0_n_n none A B (ix2 r j)).trans ?_
  rw [← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  have el : dot_S512x256_S256x256_S512x256_1_1_0_0_n_n.lhsIdx (ix2 r j) ((contrEquiv1 dot_S512x256_S256x256_S512x256_1_1_0_0_n_n 256 rfl rfl).symm k) = ix2 r k := funext fun a => Fin.ext (by
    match a with
    | ⟨0, _⟩ => exact lhs_mmD1_0 _ _
    | ⟨1, _⟩ => exact (lhs_mmD1_1 _ _).trans hk)
  have er : dot_S512x256_S256x256_S512x256_1_1_0_0_n_n.rhsIdx (ix2 r j) ((contrEquiv1 dot_S512x256_S256x256_S512x256_1_1_0_0_n_n 256 rfl rfl).symm k) = ix2 j k := funext fun a => Fin.ext (by
    match a with
    | ⟨0, _⟩ => exact rhs_mmD1_0 _ _
    | ⟨1, _⟩ => exact (rhs_mmD1_1 _ _).trans hk)
  rw [el, er]

/-! ## The product of a [512, 256] array and a [512, 256] array along their second axes -/

/-- The left operand is read in the entry's row … -/
theorem lhs_mmD2_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
/-- … at the contraction's position; -/
theorem lhs_mmD2_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
/-- the right operand in the row the entry's column names … -/
theorem rhs_mmD2_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
/-- … at the contraction's position. -/
theorem rhs_mmD2_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- Entry (r, j) of the product into a zero accumulator is the sum over k of lhs (r, k) * rhs (j, k). -/
theorem mmD2_apply (A : FVec Ideal S512x256 .bf16) (B : FVec Ideal S512x256 .bf16) (r : Fin 512) (j : Fin 512) :
    matmul dot_S512x256_S512x256_S512x512_1_1_0_0_n_n none A B (constant (F := Ideal) S512x512 .f32 0x00000000#32) (ix2 r j)
      = ∑ k : Fin 256, A (ix2 r k) * B (ix2 j k) := by
  refine (Ideal.matmul_constant_zero_apply dot_S512x256_S512x256_S512x512_1_1_0_0_n_n none A B (ix2 r j)).trans ?_
  rw [← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 r j) ((contrEquiv1 dot_S512x256_S512x256_S512x512_1_1_0_0_n_n 256 rfl rfl).symm k) = ix2 r k := funext fun a => Fin.ext (by
    match a with
    | ⟨0, _⟩ => exact lhs_mmD2_0 _ _
    | ⟨1, _⟩ => exact (lhs_mmD2_1 _ _).trans hk)
  have er : dot_S512x256_S512x256_S512x512_1_1_0_0_n_n.rhsIdx (ix2 r j) ((contrEquiv1 dot_S512x256_S512x256_S512x512_1_1_0_0_n_n 256 rfl rfl).symm k) = ix2 j k := funext fun a => Fin.ext (by
    match a with
    | ⟨0, _⟩ => exact rhs_mmD2_0 _ _
    | ⟨1, _⟩ => exact (rhs_mmD2_1 _ _).trans hk)
  rw [el, er]

/-! ## The encoder -/

variable (x0 : Vec Ideal S512x512 .f32) (x1 : Vec Ideal S512x1 .i32) (x2 : Vec Ideal S512x512 .bf16) (x3 : Vec Ideal S1x512 .f32)
  (x4 : Vec Ideal S512x512 .bf16) (x5 : Vec Ideal S1x512 .f32) (x6 : Vec Ideal S256x256 .bf16) (x7 : Vec Ideal S1x256 .f32)
  (x8 : Vec Ideal S512x256 .bf16) (x9 : Vec Ideal S1x512 .f32) (x10 : Vec Ideal S128x256 .f32) (x11 : Vec Ideal S1x128 .f32)

/-- A scalar constant at the extended reals is the extended real its word denotes. -/
theorem scalar_ofBits (φ : FTy) (b : BitVec φ.bits) : Scalar.ofBits (F := Ideal) φ b = Ideal.ofBits φ b := rfl

/-- The exponential of an array, at an entry, is the exponential of the entry … -/
theorem exp_apply {s : Shape} {φ : FTy} (a : FVec Ideal s φ) (i : s.Idx) : exp a i = Ideal.exp (a i) := rfl
/-- … and so is the hyperbolic tangent. -/
theorem tanh_apply {s : Shape} {φ : FTy} (a : FVec Ideal s φ) (i : s.Idx) : tanh a i = Ideal.tanh (a i) := rfl

/-- The encoder's row of sample `r`, from the block's samples and the two layers' weights and biases. -/
abbrev convRow (r : Fin 512) : Fin 512 → EReal :=
  Spec.conv (fun j k => x2 (ix2 j k)) (fun j => x3 (ix2 0 j)) (fun j k => x4 (ix2 j k)) (fun j => x5 (ix2 0 j))
    (fun k => x0 (ix2 r k))

/-- Entry (r, j) of the encoder's output block is entry j of sample r's row: the first layer's product plus its bias,
    rectified, then the second layer's product plus its bias. -/
theorem pay2_apply (r : Fin 512) (j : Fin 512) :
    k0_pay2 x0 x2 x3 x4 x5 (ix2 r j) = convRow x0 x2 x3 x4 x5 r j := by
  unfold k0_pay2
  simp only [addf_apply, mmE_apply, truncf_apply, maximumf_apply, broadcast_apply, shapeCast_self, broadcastTo_1b_ab_apply,
    scalar_ofBits, Ideal.ofBits_zero_f32]
  rfl

/-- The latent means are the first 256 columns of the encoder's output. -/
theorem zB_apply (r : Fin 512) (l : Fin 256) :
    zB x0 x2 x3 x4 x5 (ix2 r l) = Spec.zr (convRow x0 x2 x3 x4 x5 r) l := by
  unfold zB k0_pay3
  refine (slice2_axis1_apply 0 (k0_pay2 x0 x2 x3 x4 x5) _ r l ⟨l.val, by omega⟩ (Nat.zero_add _).symm).trans ?_
  exact pay2_apply x0 x2 x3 x4 x5 r _

/-- The latent log-variances are the last 256 columns, clipped between the two bounds. -/
theorem lvB_apply (r : Fin 512) (l : Fin 256) :
    lvB x0 x2 x3 x4 x5 (ix2 r l) = Spec.lvr (convRow x0 x2 x3 x4 x5 r) l := by
  unfold lvB k0_pay4
  simp only [minimumf_apply, maximumf_apply, broadcast_apply, scalar_ofBits]
  refine congrArg (fun t => min (Ideal.ofBits .f32 0x41935D8E#32) (max (Ideal.ofBits .f32 0xC1935D8E#32) t)) ?_
  refine (slice2_axis1_apply 256 (k0_pay2 x0 x2 x3 x4 x5) _ r l ⟨256 + l.val, by omega⟩ rfl).trans ?_
  exact pay2_apply x0 x2 x3 x4 x5 r _

/-- The variances are the exponentials of the clipped log-variances. -/
theorem varB_apply (r : Fin 512) (l : Fin 256) :
    varB x0 x2 x3 x4 x5 (ix2 r l) = Ideal.exp (Spec.lvr (convRow x0 x2 x3 x4 x5 r) l) := by
  unfold varB k0_pay5
  rw [exp_apply]
  exact congrArg Ideal.exp (lvB_apply x0 x2 x3 x4 x5 r l)

/-! ## The decoder -/

/-- Entry (r, j) of the decoded block: the latent mean of sample r through the first layer and the rectifier, through
    the second layer, then the hyperbolic tangent. -/
theorem decB_apply (r : Fin 512) (j : Fin 512) :
    decB x0 x2 x3 x4 x5 x6 x7 x8 x9 (ix2 r j)
      = Spec.decr (fun l q => x6 (ix2 l q)) (fun l => x7 (ix2 0 l)) (fun j l => x8 (ix2 j l)) (fun j => x9 (ix2 0 j))
          (Spec.zr (convRow x0 x2 x3 x4 x5 r)) j := by
  unfold decB k0_pay23 k0_pay22
  simp only [tanh_apply, addf_apply, mmD1_apply, mmD2_apply, truncf_apply, maximumf_apply, broadcast_apply, shapeCast_self,
    broadcastTo_1b_ab_apply, scalar_ofBits, Ideal.ofBits_zero_f32, zB_apply]
  rfl

end Cert.KernelIdeal.KEnc

end
-- ==== Proof.KDiff.lean ====
/-
  The masked selection of a sample's own class, read entry by entry.

  From a zero block the body adds, for each class k = 0 … 7, the term  ind_k · (z − P_k):  ind_k is 1 at the samples
  whose label is k and 0 elsewhere, z the sample's latent mean spread over the sixteen prototypes, P_k the sixteen
  prototypes of class k spread over the samples. At a sample of class c only the term of c remains, so the block holds
  z − P_c; then come the square, the sum over the 256 lanes, the square root, and log ((d + 1) / (d + ε)).
-/
import proofs.«426893_j22204980920725_3_alg».proof.Proof.KPieces
import proofs.«426893_j22204980920725_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KDiff

open Idealize.ShloMosaic Idealize.ShloMosaic.ValueIdx Cert.KernelIdeal Cert.KernelIdeal.Gen Cert.KernelIdeal.Blk

/-! ## The layout operations at an entry -/

section Layout
variable {α : Type}

/-- A row of 256 lanes per sample, spread over the sixteen prototypes: entry (r, p, l) is the row's entry (r, l). -/
theorem spreadRows_apply (v : S512x256.Idx → α) (r : Fin 512) (p : Fin 16) (l : Fin 256) :
    broadcastTo S512x16x256 (shapeCast S512x1x256 v shapeCasts_S512x256_S512x1x256) broadcasts_S512x1x256_S512x16x256
      (ix3 r p l) = v (ix2 r l) := by
  refine (broadcastTo_apply _ _ (ix3 r p l) (ix3 r (0 : Fin 1) l) (fun a => ?_)).trans ?_
  · match a with
    | ⟨0, _⟩ => rfl
    | ⟨1, _⟩ => rfl
    | ⟨2, _⟩ => rfl
  · refine shapeCast_apply v _ _ _ ?_
    rw [Shape.rowMajor_val_three, Shape.rowMajor_val_two]
    show r.val * 256 + l.val = (r.val * 1 + 0) * 256 + l.val
    omega

/-- Sixteen prototypes of 256 lanes, spread over the samples: entry (r, p, l) is the table's entry (p, l). -/
theorem spreadProtos_apply (P : S16x256.Idx → α) (r : Fin 512) (p : Fin 16) (l : Fin 256) :
    broadcastTo S512x16x256 (shapeCast S1x16x256 P shapeCasts_S16x256_S1x16x256) broadcasts_S1x16x256_S512x16x256
      (ix3 r p l) = P (ix2 p l) := by
  refine (broadcastTo_apply _ _ (ix3 r p l) (ix3 (0 : Fin 1) p l) (fun a => ?_)).trans ?_
  · match a with
    | ⟨0, _⟩ => rfl
    | ⟨1, _⟩ => rfl
    | ⟨2, _⟩ => rfl
  · exact shapeCast_ab_1ab_apply P _ (0 : Fin 1) p l

/-- One number per sample, spread over the prototypes and the lanes: entry (r, p, l) is the sample's number. -/
theorem spreadCol_apply (m : S512x1.Idx → α) (r : Fin 512) (p : Fin 16) (l : Fin 256) :
    broadcastTo S512x16x256 (shapeCast S512x1x1 m shapeCasts_S512x1_S512x1x1) broadcasts_S512x1x1_S512x16x256
      (ix3 r p l) = m (ix2 r (0 : Fin 1)) := by
  refine (broadcastTo_apply _ _ (ix3 r p l) (ix3 r (0 : Fin 1) (0 : Fin 1)) (fun a => ?_)).trans ?_
  · match a with
    | ⟨0, _⟩ => rfl
    | ⟨1, _⟩ => rfl
    | ⟨2, _⟩ => rfl
  · refine shapeCast_apply m _ _ _ ?_
    rw [Shape.rowMajor_val_three, Shape.rowMajor_val_two]
    show r.val * 1 + 0 = (r.val * 1 + 0) * 1 + 0
    omega

/-- One number per sample, spread over the sixteen prototypes: entry (r, p) is the sample's number. -/
theorem spreadCol16_apply (m : S512x1.Idx → α) (r : Fin 512) (p : Fin 16) :
    broadcastTo S512x16 m broadcasts_S512x1_S512x16 (ix2 r p) = m (ix2 r (0 : Fin 1)) := by
  refine broadcastTo_apply _ _ (ix2 r p) (ix2 r (0 : Fin 1)) (fun a => ?_)
  match a with
  | ⟨0, _⟩ => rfl
  | ⟨1, _⟩ => rfl

end Layout

/-! ## The table's slices and the indicator factors -/

/-- Entry (p, l) of the rows `o … o + 15` of the table is the table's entry (o + p, l). -/
theorem rows_apply (x10 : Vec Ideal S128x256 .f32) (o : Nat) (inb : ∀ a, (![o, 0] : Fin 2 → Nat) a + S16x256.size a ≤ S128x256.size a)
    (p : Fin 16) (l : Fin 256) (q : Fin 128) (hq : q.val = o + p.val) :
    (View.ld x10 (Rect.unit ![o, 0] S16x256.size inb) : Vec Ideal S16x256 .f32) (ix2 p l) = x10 (ix2 q l) := by
  show x10 _ = x10 _
  refine congrArg x10 (funext fun a => Fin.ext ?_)
  match a with
  | ⟨0, _⟩ => show o + 1 * p.val = q.val; omega
  | ⟨1, _⟩ => show 0 + 1 * l.val = l.val; omega

/-- The factor the body computes from a label word `w` for the class whose word is `K`: the comparison's bit, widened and
    read as a number. -/
def indW (w K : BitVec 32) : EReal := FloatOps.sitofp (F := Ideal) .f32 ((IntOp.cmpi .eq w K).setWidth 32)

/-- At the label word of class `c` the factor for class `k` is `1` when `c = k` and `0` otherwise. -/
theorem indW_eq (c k : Fin 8) (K : BitVec 32) (hK : K = BitVec.ofNat 32 k.val) :
    indW (BitVec.ofNat 32 c.val) K = Spec.ind c k := by
  subst hK
  have h : ((IntOp.cmpi .eq (BitVec.ofNat 32 c.val) (BitVec.ofNat 32 k.val)).setWidth 32).toInt = if c = k then 1 else 0 := by
    revert c k; decide
  show (((((IntOp.cmpi .eq (BitVec.ofNat 32 c.val) (BitVec.ofNat 32 k.val)).setWidth 32).toInt : ℤ) : ℝ) : EReal) = _
  rw [h]
  unfold Spec.ind
  split <;> simp

/-- The column of factors of class `K`, at sample `r`. -/
theorem indCol_apply (t : IVec S512x1 32) (K : BitVec 32) (r : Fin 512) :
    (sitofp .f32 (extui 32 (cmpi .eq t (broadcast S512x1 K)) natLt_1_32) : FVec Ideal S512x1 .f32) (ix2 r (0 : Fin 1))
      = indW (t (ix2 r (0 : Fin 1))) K := rfl

/-- The labels pass through their identity cast. -/
theorem tB_eq (x1 : Vec Ideal S512x1 .i32) : tB x1 = x1 := by
  unfold tB k0_pay6
  exact shapeCast_self _ _

/-! ## The eight terms, four and three at a time, then the last -/

variable (x0 : Vec Ideal S512x512 .f32) (x1 : Vec Ideal S512x1 .i32) (x2 : Vec Ideal S512x512 .bf16) (x3 : Vec Ideal S1x512 .f32)
  (x4 : Vec Ideal S512x512 .bf16) (x5 : Vec Ideal S1x512 .f32) (x6 : Vec Ideal S256x256 .bf16) (x7 : Vec Ideal S1x256 .f32)
  (x8 : Vec Ideal S512x256 .bf16) (x9 : Vec Ideal S1x512 .f32) (x10 : Vec Ideal S128x256 .f32) (x11 : Vec Ideal S1x128 .f32)

theorem pay6_eq : k0_pay6 x1 = x1 := by
  unfold k0_pay6
  exact shapeCast_self _ _

theorem zB_fold : k0_pay3 x0 x2 x3 x4 x5 = zB x0 x2 x3 x4 x5 := rfl

/-- Classes 0 … 3: from the zero block, the four terms at entry (r, p, l). -/
theorem d3B_apply (r : Fin 512) (p : Fin 16) (l : Fin 256) :
    d3B x0 x1 x2 x3 x4 x5 x10 (ix3 r p l)
      = Ideal.ofBits .f32 0x00000000#32
        + indW (x1 (ix2 r (0 : Fin 1))) 0#32 * (zB x0 x2 x3 x4 x5 (ix2 r l) - P0 x10 (ix2 p l))
        + indW (x1 (ix2 r (0 : Fin 1))) 1#32 * (zB x0 x2 x3 x4 x5 (ix2 r l) - P1 x10 (ix2 p l))
        + indW (x1 (ix2 r (0 : Fin 1))) 2#32 * (zB x0 x2 x3 x4 x5 (ix2 r l) - P2 x10 (ix2 p l))
        + indW (x1 (ix2 r (0 : Fin 1))) 3#32 * (zB x0 x2 x3 x4 x5 (ix2 r l) - P3 x10 (ix2 p l)) := by
  unfold d3B k0_pay11 k0_pay7 k0_pay8 k0_pay9 k0_pay10
  simp only [addf_apply, mulf_apply, subf_apply, broadcast_apply, spreadCol_apply, spreadRows_apply, spreadProtos_apply,
    indCol_apply, tB_eq, pay6_eq, zB_fold]
  rfl

/-- Classes 4 … 6: three more terms over the first four. -/
theorem d6B_apply (r : Fin 512) (p : Fin 16) (l : Fin 256) :
    d6B x0 x1 x2 x3 x4 x5 x10 (ix3 r p l)
      = d3B x0 x1 x2 x3 x4 x5 x10 (ix3 r p l)
        + indW (x1 (ix2 r (0 : Fin 1))) 4#32 * (zB x0 x2 x3 x4 x5 (ix2 r l) - P4 x10 (ix2 p l))
        + indW (x1 (ix2 r (0 : Fin 1))) 5#32 * (zB x0 x2 x3 x4 x5 (ix2 r l) - P5 x10 (ix2 p l))
        + indW (x1 (ix2 r (0 : Fin 1))) 6#32 * (zB x0 x2 x3 x4 x5 (ix2 r l) - P6 x10 (ix2 p l)) := by
  unfold d6B k0_pay13 k0_pay12
  simp only [addf_apply, mulf_apply, subf_apply, spreadCol_apply, spreadRows_apply, spreadProtos_apply,
    indCol_apply, tB_eq]

/-- Class 7's term over the seven, squared: the block of squared differences at entry (r, p, l). -/
theorem dsqB_eq_sq (r : Fin 512) (p : Fin 16) (l : Fin 256) :
    dsqB x0 x1 x2 x3 x4 x5 x10 (ix3 r p l)
      = (d6B x0 x1 x2 x3 x4 x5 x10 (ix3 r p l)
          + indW (x1 (ix2 r (0 : Fin 1))) 7#32 * (zB x0 x2 x3 x4 x5 (ix2 r l) - P7 x10 (ix2 p l)))
        * (d6B x0 x1 x2 x3 x4 x5 x10 (ix3 r p l)
          + indW (x1 (ix2 r (0 : Fin 1))) 7#32 * (zB x0 x2 x3 x4 x5 (ix2 r l) - P7 x10 (ix2 p l))) := by
  unfold dsqB k0_pay17 m7B k0_pay14 zbB k0_pay15 p7B k0_pay16
  simp only [addf_apply, mulf_apply, subf_apply, spreadCol_apply, spreadRows_apply, spreadProtos_apply,
    indCol_apply, tB_eq]

/-! ## The prototypes of each class in the table -/

theorem P0_apply (p : Fin 16) (l : Fin 256) :
    P0 x10 (ix2 p l) = x10 (ix2 (⟨16 * (0 : Fin 8).val + p.val, by omega⟩ : Fin 128) l) := rows_apply x10 0 _ p l _ (by show 16 * 0 + p.val = 0 + p.val; omega)
theorem P1_apply (p : Fin 16) (l : Fin 256) :
    P1 x10 (ix2 p l) = x10 (ix2 (⟨16 * (1 : Fin 8).val + p.val, by omega⟩ : Fin 128) l) := rows_apply x10 16 _ p l _ (by show 16 * 1 + p.val = 16 + p.val; omega)
theorem P2_apply (p : Fin 16) (l : Fin 256) :
    P2 x10 (ix2 p l) = x10 (ix2 (⟨16 * (2 : Fin 8).val + p.val, by omega⟩ : Fin 128) l) := rows_apply x10 32 _ p l _ (by show 16 * 2 + p.val = 32 + p.val; omega)
theorem P3_apply (p : Fin 16) (l : Fin 256) :
    P3 x10 (ix2 p l) = x10 (ix2 (⟨16 * (3 : Fin 8).val + p.val, by omega⟩ : Fin 128) l) := rows_apply x10 48 _ p l _ (by show 16 * 3 + p.val = 48 + p.val; omega)
theorem P4_apply (p : Fin 16) (l : Fin 256) :
    P4 x10 (ix2 p l) = x10 (ix2 (⟨16 * (4 : Fin 8).val + p.val, by omega⟩ : Fin 128) l) := rows_apply x10 64 _ p l _ (by show 16 * 4 + p.val = 64 + p.val; omega)
theorem P5_apply (p : Fin 16) (l : Fin 256) :
    P5 x10 (ix2 p l) = x10 (ix2 (⟨16 * (5 : Fin 8).val + p.val, by omega⟩ : Fin 128) l) := rows_apply x10 80 _ p l _ (by show 16 * 5 + p.val = 80 + p.val; omega)
theorem P6_apply (p : Fin 16) (l : Fin 256) :
    P6 x10 (ix2 p l) = x10 (ix2 (⟨16 * (6 : Fin 8).val + p.val, by omega⟩ : Fin 128) l) := rows_apply x10 96 _ p l _ (by show 16 * 6 + p.val = 96 + p.val; omega)
theorem P7_apply (p : Fin 16) (l : Fin 256) :
    P7 x10 (ix2 p l) = x10 (ix2 (⟨16 * (7 : Fin 8).val + p.val, by omega⟩ : Fin 128) l) := rows_apply x10 112 _ p l _ (by show 16 * 7 + p.val = 112 + p.val; omega)

/-! ## The sample's own class -/

/-- At a sample of class `c` the eight terms leave the latent mean less prototype `p` of class `c`. -/
theorem diff_apply (Z : Fin 512 → Fin 256 → EReal) (hz : ∀ r l, zB x0 x2 x3 x4 x5 (ix2 r l) = Z r l)
    (r : Fin 512) (c : Fin 8) (hc : x1 (ix2 r 0) = BitVec.ofNat 32 c.val) (p : Fin 16) (l : Fin 256) :
    d6B x0 x1 x2 x3 x4 x5 x10 (ix3 r p l)
        + indW (x1 (ix2 r (0 : Fin 1))) 7#32 * (zB x0 x2 x3 x4 x5 (ix2 r l) - P7 x10 (ix2 p l))
      = Spec.dif (fun (a : Fin 128) (b : Fin 256) => x10 (ix2 a b)) c (Z r) p l := by
  rw [d6B_apply, d3B_apply, hc, hz, P0_apply, P1_apply, P2_apply, P3_apply, P4_apply, P5_apply, P6_apply, P7_apply,
    indW_eq c 0 0#32 rfl, indW_eq c 1 1#32 rfl, indW_eq c 2 2#32 rfl, indW_eq c 3 3#32 rfl, indW_eq c 4 4#32 rfl,
    indW_eq c 5 5#32 rfl, indW_eq c 6 6#32 rfl, indW_eq c 7 7#32 rfl, Ideal.ofBits_zero_f32]
  exact Spec.sel8 c (fun k => Spec.dif (fun (a : Fin 128) (b : Fin 256) => x10 (ix2 a b)) k (Z r) p l)

/-- The squared differences. -/
theorem dsqB_apply (Z : Fin 512 → Fin 256 → EReal) (hz : ∀ r l, zB x0 x2 x3 x4 x5 (ix2 r l) = Z r l)
    (r : Fin 512) (c : Fin 8) (hc : x1 (ix2 r 0) = BitVec.ofNat 32 c.val) (p : Fin 16) (l : Fin 256) :
    dsqB x0 x1 x2 x3 x4 x5 x10 (ix3 r p l) = Spec.dif (fun (a : Fin 128) (b : Fin 256) => x10 (ix2 a b)) c (Z r) p l * Spec.dif (fun (a : Fin 128) (b : Fin 256) => x10 (ix2 a b)) c (Z r) p l := by
  rw [dsqB_eq_sq, diff_apply x0 x1 x2 x3 x4 x5 x10 Z hz r c hc p l]

/-- The sum over the 256 lanes, read at (r, p). -/
theorem laneSum_apply (src : FVec Ideal S512x16x256 .f32) (r : Fin 512) (p : Fin 16) :
    multiReduction (F := Ideal) .add [2] S512x16 src 0x00000000#32 reduces_S512x16x256_S512x16 (.inl rfl) rfl (ix2 r p)
      = ∑ l : Fin 256, src (ix3 r p l) := by
  refine (Ideal.multiReduction_add_single src _ _ _ _ (ix2 r p)).trans ?_
  show ∑ l : Fin 256, src (reduces_S512x16x256_S512x16.lift (ix2 r p) l) = _
  refine Finset.sum_congr rfl fun l _ => congrArg src (funext fun a => ?_)
  match a with
  | ⟨0, _⟩ => rfl
  | ⟨1, _⟩ => rfl
  | ⟨2, _⟩ => rfl

/-- The similarities. -/
theorem simB_apply (Z : Fin 512 → Fin 256 → EReal) (hz : ∀ r l, zB x0 x2 x3 x4 x5 (ix2 r l) = Z r l)
    (r : Fin 512) (c : Fin 8) (hc : x1 (ix2 r 0) = BitVec.ofNat 32 c.val) (p : Fin 16) :
    simB x0 x1 x2 x3 x4 x5 x10 (ix2 r p) = Spec.sim (Spec.dif (fun (a : Fin 128) (b : Fin 256) => x10 (ix2 a b)) c (Z r)) p := by
  have h : simB x0 x1 x2 x3 x4 x5 x10 (ix2 r p)
      = Ideal.log (Ideal.div
          (Ideal.sqrt (multiReduction (F := Ideal) .add [2] S512x16 (dsqB x0 x1 x2 x3 x4 x5 x10) 0x00000000#32
            reduces_S512x16x256_S512x16 (.inl rfl) rfl (ix2 r p)) + Spec.one)
          (Ideal.sqrt (multiReduction (F := Ideal) .add [2] S512x16 (dsqB x0 x1 x2 x3 x4 x5 x10) 0x00000000#32
            reduces_S512x16x256_S512x16 (.inl rfl) rfl (ix2 r p)) + Spec.eps)) := rfl
  rw [h, laneSum_apply]
  unfold Spec.sim Spec.dist
  simp only [dsqB_apply x0 x1 x2 x3 x4 x5 x10 Z hz r c hc]

/-- Class 0's factor on the similarities. -/
theorem msk0_apply (r : Fin 512) (c : Fin 8) (hc : x1 (ix2 r 0) = BitVec.ofNat 32 c.val) (p : Fin 16) :
    k0_pay20 (tB x1) (d6B x0 x1 x2 x3 x4 x5 x10) (m7B x1) (zbB x0 x2 x3 x4 x5) (p7B x10) (ix2 r p)
      = Spec.ind c 0 * simB x0 x1 x2 x3 x4 x5 x10 (ix2 r p) := by
  unfold k0_pay20
  simp only [mulf_apply, spreadCol16_apply, indCol_apply, tB_eq]
  rw [hc, indW_eq c 0 0#32 rfl]
  rfl

end Cert.KernelIdeal.KDiff

end
-- ==== Proof.KOut.lean ====
/-
  The projection block: what a grid point leaves in its block of projections, one sample at a time.

  The body multiplies the block's similarities by each class's indicator (a comparison of the label word with the
  class's word, widened and read signed: `1` on the samples of that class, `0` on the others), lays the eight
  `[512, 16]` products end to end along the lanes into `[512, 128]`, multiplies by the last layer's row spread over the
  samples, and sums the 128 lanes. For a sample of class `c` lane `16 k + p` of the concatenation is
  `ind c k · sim p`: the similarity in the class's own sixteen lanes and zero elsewhere. So the lane sum is the
  specification's projection `outr`.
-/
import proofs.«426893_j22204980920725_3_alg».proof.Proof.KPieces
import proofs.«426893_j22204980920725_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KOut

open Idealize.ShloMosaic Idealize.ShloMosaic.ValueIdx Cert.KernelIdeal Cert.KernelIdeal.Gen Cert.KernelIdeal.Blk

/-! ## The indicator of a class -/

/-- The word of class `c` compared for equality with the word of class `k`, widened to a word and read signed, is the
    integer `1` when the classes agree and `0` when they differ. -/
theorem ind_toInt (c k : Fin 8) :
    ((IntOp.cmpi .eq (BitVec.ofNat 32 c.val) (BitVec.ofNat 32 k.val)).setWidth 32).toInt = if c = k then 1 else 0 := by
  revert c k; decide

/-- At a sample whose label is class `c`'s word, the body's indicator column of class `k` is `ind c k`. -/
theorem ind_apply (t : IVec S512x1 32) (r : Fin 512) (c k : Fin 8) (hc : t (ix2 r 0) = BitVec.ofNat 32 c.val) :
    (sitofp .f32 (extui 32 (cmpi .eq t (broadcast S512x1 (BitVec.ofNat 32 k.val))) natLt_1_32) : FVec Ideal S512x1 .f32) (ix2 r 0)
      = Spec.ind c k := by
  show ((((IntOp.cmpi .eq (t (ix2 r 0)) (BitVec.ofNat 32 k.val)).setWidth 32).toInt : ℝ) : EReal) = Spec.ind c k
  rw [hc, ind_toInt]
  unfold Spec.ind
  split <;> simp

/-! ## The layout operations at an index -/

/-- A column `[512, 1]` spread over sixteen lanes reads, at `(r, p)`, the column at `r`. -/
theorem bcast_col_apply (v : FVec Ideal S512x1 .f32) (r : Fin 512) (p : Fin 16) :
    broadcastTo S512x16 v broadcasts_S512x1_S512x16 (ix2 r p) = v (ix2 r 0) :=
  broadcastTo_apply v _ (ix2 r p) (ix2 r 0) (fun a => by
    match a with
    | ⟨0, _⟩ => rfl
    | ⟨1, _⟩ => rfl)

/-- A `[512]` vector cast to a column `[512, 1]` reads, at `(r, 0)`, the vector at `r`. -/
theorem col_apply (v : FVec Ideal S512 .f32) (r : Fin 512) :
    shapeCast S512x1 v shapeCasts_S512_S512x1 (ix2 r 0) = v (ix1 r) :=
  shapeCast_apply v _ (ix2 r 0) (ix1 r) (by
    rw [Shape.rowMajor_val_two, Shape.rowMajor_val_one]
    show r.val = r.val * 1 + 0
    omega)

/-- The sum over the 128 lanes, at sample `r`. -/
theorem lanesum_apply (v : FVec Ideal S512x128 .f32) (r : Fin 512) :
    multiReduction (F := Ideal) .add [1] S512 v 0x00000000#32 reduces_S512x128_S512 (.inl rfl) rfl (ix1 r)
      = ∑ j : Fin 128, v (ix2 r j) := by
  refine (Ideal.multiReduction_add_single v _ reduces_S512x128_S512 (.inl rfl) rfl (ix1 r)).trans ?_
  refine Finset.sum_congr rfl (fun j _ => congrArg v ?_)
  funext a; apply Fin.ext
  match a with
  | ⟨0, _⟩ => rfl
  | ⟨1, _⟩ => rfl

/-- Eight `[512, 16]` pieces laid end to end along the lanes read, at `(r, j)`, piece `j / 16` at `(r, j % 16)`. -/
theorem cat8_apply (a0 a1 a2 a3 a4 a5 a6 a7 : FVec Ideal S512x16 .f32) (r : Fin 512) (j : Fin 128) :
    concatenate S512x128 1 [⟨S512x16, a0⟩, ⟨S512x16, a1⟩, ⟨S512x16, a2⟩, ⟨S512x16, a3⟩, ⟨S512x16, a4⟩, ⟨S512x16, a5⟩, ⟨S512x16, a6⟩, ⟨S512x16, a7⟩]
        concatenates_S512x16_S512x16_S512x16_S512x16_S512x16_S512x16_S512x16_S512x16_S512x128_d1 (ix2 r j)
      = (![a0, a1, a2, a3, a4, a5, a6, a7] : Fin 8 → FVec Ideal S512x16 .f32) ⟨j.val / 16, by omega⟩
          (ix2 r ⟨j.val % 16, Nat.mod_lt _ (by decide)⟩) :=
  concatenate_ofFn_apply (t := S512x128) (s₁ := S512x16) 1 (![a0, a1, a2, a3, a4, a5, a6, a7] : Fin 8 → FVec Ideal S512x16 .f32)
    concatenates_S512x16_S512x16_S512x16_S512x16_S512x16_S512x16_S512x16_S512x16_S512x128_d1 rfl 16 rfl (ix2 r j) ⟨j.val / 16, by omega⟩ rfl
    (ix2 r ⟨j.val % 16, Nat.mod_lt _ (by decide)⟩) rfl (fun b hb => by
      match b with
      | ⟨0, _⟩ => rfl
      | ⟨1, _⟩ => exact absurd rfl hb)

/-! ## One class's product -/

/-- The similarities under class `k`'s indicator column spread over the sixteen lanes. -/
def piece (t : IVec S512x1 32) (v : FVec Ideal S512x16 .f32) (k : Fin 8) : FVec Ideal S512x16 .f32 :=
  mulf (broadcastTo S512x16 (sitofp .f32 (extui 32 (cmpi .eq t (broadcast S512x1 (BitVec.ofNat 32 k.val))) natLt_1_32))
    broadcasts_S512x1_S512x16) v

theorem piece_apply (t : IVec S512x1 32) (v : FVec Ideal S512x16 .f32) (r : Fin 512) (c k : Fin 8)
    (hc : t (ix2 r 0) = BitVec.ofNat 32 c.val) (p : Fin 16) :
    piece t v k (ix2 r p) = Spec.ind c k * v (ix2 r p) := by
  unfold piece
  rw [mulf_apply, bcast_col_apply, ind_apply t r c k hc]

/-- Class 0's product: the indicator of class 0 times the similarities. -/
theorem pay20_apply (t : IVec S512x1 32) (v126 : FVec Ideal S512x16x256 .f32) (v131 : FVec Ideal S512x1x1 .f32)
    (v135 v136 : FVec Ideal S512x16x256 .f32) (r : Fin 512) (c : Fin 8) (hc : t (ix2 r 0) = BitVec.ofNat 32 c.val) (p : Fin 16) :
    k0_pay20 t v126 v131 v135 v136 (ix2 r p) = Spec.ind c 0 * k0_pay18 v126 v131 v135 v136 (ix2 r p) := by
  unfold k0_pay20
  exact piece_apply t (k0_pay18 v126 v131 v135 v136) r c 0 hc p

/-! ## The projection -/

/-- The indicator times the similarity is the similarity in the class's own lanes and zero elsewhere. -/
theorem ind_mul_eq_fullsim (c : Fin 8) (s : Fin 16 → EReal) (j : Fin 128) :
    Spec.ind c ⟨j.val / 16, by omega⟩ * s ⟨j.val % 16, Nat.mod_lt _ (by decide)⟩ = Spec.fullsim c s j := by
  unfold Spec.ind Spec.fullsim
  by_cases h : j.val / 16 = c.val
  · rw [if_pos (Fin.ext h.symm), if_pos h, one_mul]
  · rw [if_neg (fun e => h (by rw [e])), if_neg h, zero_mul]

/-- The body's projection at a sample of class `c`, from the similarities `v149` and class 0's product `v183`. -/
theorem pay21_apply (t : IVec S512x1 32) (v149 v183 : FVec Ideal S512x16 .f32) (x11 : Vec Ideal S1x128 .f32)
    (r : Fin 512) (c : Fin 8) (hc : t (ix2 r 0) = BitVec.ofNat 32 c.val)
    (h183 : ∀ p : Fin 16, v183 (ix2 r p) = Spec.ind c 0 * v149 (ix2 r p)) :
    k0_pay21 t v149 v183 x11 (ix2 r 0) = Spec.outr (fun j => x11 (ix2 0 j)) c (fun p => v149 (ix2 r p)) := by
  unfold k0_pay21
  refine (col_apply _ r).trans ?_
  refine (lanesum_apply _ r).trans ?_
  unfold Spec.outr
  refine Finset.sum_congr rfl (fun j _ => ?_)
  refine congrArg₂ (· * ·) ?_ (broadcastTo_1b_ab_apply x11 broadcasts_S1x128_S512x128 r j)
  refine (cat8_apply v183 (piece t v149 1) (piece t v149 2) (piece t v149 3) (piece t v149 4) (piece t v149 5)
    (piece t v149 6) (piece t v149 7) r j).trans ?_
  refine Eq.trans ?_ (ind_mul_eq_fullsim c (fun p => v149 (ix2 r p)) j)
  have hall : ∀ (n : Fin 8) (p : Fin 16),
      (![v183, piece t v149 1, piece t v149 2, piece t v149 3, piece t v149 4, piece t v149 5, piece t v149 6,
        piece t v149 7] : Fin 8 → FVec Ideal S512x16 .f32) n (ix2 r p) = Spec.ind c n * v149 (ix2 r p) := by
    intro n p
    match n with
    | ⟨0, _⟩ => exact h183 p
    | ⟨1, _⟩ => exact piece_apply t v149 r c 1 hc p
    | ⟨2, _⟩ => exact piece_apply t v149 r c 2 hc p
    | ⟨3, _⟩ => exact piece_apply t v149 r c 3 hc p
    | ⟨4, _⟩ => exact piece_apply t v149 r c 4 hc p
    | ⟨5, _⟩ => exact piece_apply t v149 r c 5 hc p
    | ⟨6, _⟩ => exact piece_apply t v149 r c 6 hc p
    | ⟨7, _⟩ => exact piece_apply t v149 r c 7 hc p
  exact hall _ _

variable (x0 : Vec Ideal S512x512 .f32) (x1 : Vec Ideal S512x1 .i32) (x2 : Vec Ideal S512x512 .bf16) (x3 : Vec Ideal S1x512 .f32)
  (x4 : Vec Ideal S512x512 .bf16) (x5 : Vec Ideal S1x512 .f32) (x6 : Vec Ideal S256x256 .bf16) (x7 : Vec Ideal S1x256 .f32)
  (x8 : Vec Ideal S512x256 .bf16) (x9 : Vec Ideal S1x512 .f32) (x10 : Vec Ideal S128x256 .f32) (x11 : Vec Ideal S1x128 .f32)

/-- The block of projections: at a sample of class `c` whose similarities are `S r`, the specification's projection. -/
theorem outB_apply (S : Fin 512 → Fin 16 → EReal) (hs : ∀ r p, simB x0 x1 x2 x3 x4 x5 x10 (ix2 r p) = S r p)
    (r : Fin 512) (c : Fin 8) (hc : x1 (ix2 r 0) = BitVec.ofNat 32 c.val) :
    outB x0 x1 x2 x3 x4 x5 x10 x11 (ix2 r 0) = Spec.outr (fun j => x11 (ix2 0 j)) c (S r) := by
  have ht : tB x1 (ix2 r 0) = BitVec.ofNat 32 c.val := by
    unfold tB k0_pay6
    rw [shapeCast_self]
    exact hc
  unfold outB
  refine (pay21_apply (tB x1) (simB x0 x1 x2 x3 x4 x5 x10) _ x11 r c ht (fun p => ?_)).trans ?_
  · unfold simB
    exact pay20_apply (tB x1) _ _ _ _ r c ht p
  · exact congrArg (Spec.outr (fun j => x11 (ix2 0 j)) c) (funext (hs r))

end Cert.KernelIdeal.KOut

end
-- ==== Proof.KTile.lean ====
/-
  The block's sum of ratios, and the three small accumulator values, read at their one index.

  The kernel's block-level term for the sum of ratios takes the clipped log-variances `lv`, their exponentials, the squared
  differences `d²` and the similarities `sim` of the block's 512 samples against their class's sixteen prototypes. For sample
  `r` and prototype `p` it sums `−½·lv + ½·(exp lv + d²) − ½` over the 256 lanes and divides by 256 (the divergence term),
  multiplies by `sim` (the weight), takes the indicator of a positive weight, sums the weights and the indicated
  similarities over the prototypes, divides the first sum by the second (the sample's ratio), and sums the ratios over the
  samples. Read at the extended reals, with the inputs being the specification's, this is the sum over the block of
  `Spec.ratio`.

  The layout steps in between (a [512,256] block viewed [512,1,256] and spread over the prototypes, a [512] vector viewed
  as a column, a [1] vector viewed [1,1]) each read one entry of their operand; each of the three sums is a sum over one
  axis's coordinates.
-/
import proofs.«426893_j22204980920725_3_alg».proof.Proof.KPieces
import proofs.«426893_j22204980920725_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KTile

open Idealize.ShloMosaic Idealize.ShloMosaic.ValueIdx Cert.KernelIdeal Cert.KernelIdeal.Gen Cert.KernelIdeal.Blk

variable (x0 : Vec Ideal S512x512 .f32) (x1 : Vec Ideal S512x1 .i32) (x2 : Vec Ideal S512x512 .bf16) (x3 : Vec Ideal S1x512 .f32)
  (x4 : Vec Ideal S512x512 .bf16) (x5 : Vec Ideal S1x512 .f32) (x6 : Vec Ideal S256x256 .bf16) (x7 : Vec Ideal S1x256 .f32)
  (x8 : Vec Ideal S512x256 .bf16) (x9 : Vec Ideal S1x512 .f32) (x10 : Vec Ideal S128x256 .f32) (x11 : Vec Ideal S1x128 .f32)

/-! ## The layout operations and the three sums, read at an index -/

/-- A [512,256] block viewed [512,1,256] reads `(r, l)` at `(r, u, l)`. -/
theorem cast_row_apply (v : FVec Ideal S512x256 .f32) (r : Fin 512) (u : Fin 1) (l : Fin 256) :
    shapeCast S512x1x256 v shapeCasts_S512x256_S512x1x256 (ix3 r u l) = v (ix2 r l) :=
  shapeCast_apply v shapeCasts_S512x256_S512x1x256 _ _ (by
    have hu : u.val = 0 := by omega
    rw [Shape.rowMajor_val_three, Shape.rowMajor_val_two]
    show r.val * 256 + l.val = (r.val * 1 + u.val) * 256 + l.val
    rw [hu, Nat.mul_one, Nat.add_zero])

/-- A [512,1,256] block spread over the sixteen prototypes reads `(r, 0, l)` at `(r, p, l)`. -/
theorem spread_proto_apply (v : FVec Ideal S512x1x256 .f32) (r : Fin 512) (p : Fin 16) (l : Fin 256) :
    broadcastTo S512x16x256 v broadcasts_S512x1x256_S512x16x256 (ix3 r p l) = v (ix3 r (0 : Fin 1) l) :=
  broadcastTo_apply v broadcasts_S512x1x256_S512x16x256 _ _ (fun a =>
    match a with
    | ⟨0, _⟩ => rfl
    | ⟨1, _⟩ => rfl
    | ⟨2, _⟩ => rfl)

/-- The sum over the 256 lanes. -/
theorem sum_lanes_apply (v : FVec Ideal S512x16x256 .f32) (hφ : FTy.f32 = FTy.f32 ∨ FTy.f32 = FTy.bf16)
    (hacc : (0x00000000#32 : BitVec 32) = 0x00000000#32) (r : Fin 512) (p : Fin 16) :
    multiReduction .add [2] S512x16 v 0x00000000#32 reduces_S512x16x256_S512x16 hφ hacc (ix2 r p)
      = ∑ l : Fin 256, v (ix3 r p l) :=
  (Ideal.multiReduction_add_single v 0x00000000#32 reduces_S512x16x256_S512x16 hφ hacc (ix2 r p)).trans
    (Finset.sum_congr rfl fun l _ => congrArg v (funext fun a => Fin.ext (
      match a with
      | ⟨0, _⟩ => rfl
      | ⟨1, _⟩ => rfl
      | ⟨2, _⟩ => rfl)))

/-- The sum over the sixteen prototypes. -/
theorem sum_protos_apply (v : FVec Ideal S512x16 .f32) (hφ : FTy.f32 = FTy.f32 ∨ FTy.f32 = FTy.bf16)
    (hacc : (0x00000000#32 : BitVec 32) = 0x00000000#32) (r : Fin 512) :
    multiReduction .add [1] S512 v 0x00000000#32 reduces_S512x16_S512 hφ hacc (ix1 r)
      = ∑ p : Fin 16, v (ix2 r p) :=
  (Ideal.multiReduction_add_single v 0x00000000#32 reduces_S512x16_S512 hφ hacc (ix1 r)).trans
    (Finset.sum_congr rfl fun p _ => congrArg v (funext fun a => Fin.ext (
      match a with
      | ⟨0, _⟩ => rfl
      | ⟨1, _⟩ => rfl)))

/-- The sum over the block's 512 samples. -/
theorem sum_rows_apply (v : FVec Ideal S512x1 .f32) (hφ : FTy.f32 = FTy.f32 ∨ FTy.f32 = FTy.bf16)
    (hacc : (0x00000000#32 : BitVec 32) = 0x00000000#32) (u : Fin 1) :
    multiReduction .add [0] S1 v 0x00000000#32 reduces_S512x1_S1 hφ hacc (ix1 u)
      = ∑ r : Fin 512, v (ix2 r u) :=
  (Ideal.multiReduction_add_single v 0x00000000#32 reduces_S512x1_S1 hφ hacc (ix1 u)).trans
    (Finset.sum_congr rfl fun r _ => congrArg v (funext fun a => Fin.ext (
      match a with
      | ⟨0, _⟩ => rfl
      | ⟨1, _⟩ => rfl)))

/-- A [512] vector viewed as a column reads `r` at `(r, u)`. -/
theorem cast_col_apply (v : FVec Ideal S512 .f32) (r : Fin 512) (u : Fin 1) :
    shapeCast S512x1 v shapeCasts_S512_S512x1 (ix2 r u) = v (ix1 r) :=
  shapeCast_apply v shapeCasts_S512_S512x1 _ _ (by
    have hu : u.val = 0 := by omega
    rw [Shape.rowMajor_val_one, Shape.rowMajor_val_two]
    show r.val = r.val * 1 + u.val
    rw [hu, Nat.mul_one, Nat.add_zero])

/-- A [1] vector viewed [1,1]. -/
theorem cast_one_apply (v : FVec Ideal S1 .f32) (u w : Fin 1) :
    shapeCast S1x1 v shapeCasts_S1_S1x1 (ix2 u w) = v (ix1 w) :=
  shapeCast_a_1a_apply v shapeCasts_S1_S1x1 u w

/-! ## The indicator of a positive weight -/

/-- A comparison "above zero" widened to a word and converted is `1` when the value is above zero, else `0`. -/
theorem indicator_pos (x : EReal) :
    (FloatOps.sitofp (F := Ideal) .f32
        ((FloatOps.cmpf (F := Ideal) (φ := .f32) .ogt x (Ideal.ofBits .f32 0x00000000#32)).setWidth 32) : EReal)
      = if 0 < x then 1 else 0 := by
  rw [Ideal.ofBits_zero_f32]
  show ((((BitVec.ofBool (decide (0 < x))).setWidth 32).toInt : ℝ) : EReal) = _
  by_cases h : 0 < x
  · rw [if_pos h, decide_eq_true h]
    show (((1 : ℤ) : ℝ) : EReal) = 1
    norm_num
  · rw [if_neg h, decide_eq_false h]
    show (((0 : ℤ) : ℝ) : EReal) = 0
    norm_num

/-! ## One sample's weighted divergence terms and its ratio -/

/-- The divergence term of sample `r` against prototype `p`, times the similarity: `−½·lv + ½·(exp lv + d²) − ½` summed
    over the lanes, divided by 256, times `sim`. -/
theorem klw_apply (lv var : FVec Ideal S512x256 .f32) (dsq : FVec Ideal S512x16x256 .f32) (sm : FVec Ideal S512x16 .f32)
    (hφ : FTy.f32 = FTy.f32 ∨ FTy.f32 = FTy.bf16) (hacc : (0x00000000#32 : BitVec 32) = 0x00000000#32)
    (LVr : Fin 256 → EReal) (d : Fin 16 → Fin 256 → EReal) (r : Fin 512)
    (hlv : ∀ l, lv (ix2 r l) = LVr l) (hvar : ∀ l, var (ix2 r l) = Ideal.exp (LVr l))
    (hd : ∀ p l, dsq (ix3 r p l) = d p l * d p l) (hs : ∀ p, sm (ix2 r p) = Spec.sim d p) (p : Fin 16) :
    mulf
        (divf
          (multiReduction .add [2] S512x16
            (subf
              (addf
                (broadcastTo S512x16x256
                  (mulf (broadcast S512x1x256 (Scalar.ofBits (F := Ideal) .f32 0xBF000000#32))
                    (shapeCast S512x1x256 lv shapeCasts_S512x256_S512x1x256))
                  broadcasts_S512x1x256_S512x16x256)
                (mulf (broadcast S512x16x256 (Scalar.ofBits (F := Ideal) .f32 0x3F000000#32))
                  (addf
                    (broadcastTo S512x16x256 (shapeCast S512x1x256 var shapeCasts_S512x256_S512x1x256)
                      broadcasts_S512x1x256_S512x16x256)
                    dsq)))
              (broadcast S512x16x256 (Scalar.ofBits (F := Ideal) .f32 0x3F000000#32)))
            0x00000000#32 reduces_S512x16x256_S512x16 hφ hacc)
          (broadcast S512x16 (Scalar.ofBits (F := Ideal) .f32 0x43800000#32)))
        sm (ix2 r p)
      = Spec.klw d LVr p := by
  rw [mulf_apply, divf_apply, sum_lanes_apply, broadcast_apply, hs]
  unfold Spec.klw Spec.klr
  refine congrArg (fun s => Ideal.div s _ * _) (Finset.sum_congr rfl fun l _ => ?_)
  simp only [subf_apply, addf_apply, mulf_apply, broadcast_apply, spread_proto_apply, cast_row_apply, hlv, hvar, hd]
  rfl

/-- The two sums over the sixteen prototypes and their quotient. -/
theorem ratio_apply (K sm : FVec Ideal S512x16 .f32)
    (hφ : FTy.f32 = FTy.f32 ∨ FTy.f32 = FTy.bf16) (hacc : (0x00000000#32 : BitVec 32) = 0x00000000#32)
    (d : Fin 16 → Fin 256 → EReal) (LVr : Fin 256 → EReal) (r : Fin 512) (u : Fin 1)
    (hK : ∀ p, K (ix2 r p) = Spec.klw d LVr p) (hs : ∀ p, sm (ix2 r p) = Spec.sim d p) :
    divf
        (shapeCast S512x1 (multiReduction .add [1] S512 K 0x00000000#32 reduces_S512x16_S512 hφ hacc) shapeCasts_S512_S512x1)
        (shapeCast S512x1
          (multiReduction .add [1] S512
            (mulf sm
              (sitofp .f32
                (extui 32 (cmpf .ogt K (broadcast S512x16 (Scalar.ofBits (F := Ideal) .f32 0x00000000#32))) natLt_1_32)))
            0x00000000#32 reduces_S512x16_S512 hφ hacc)
          shapeCasts_S512_S512x1)
        (ix2 r u)
      = Spec.ratio d LVr := by
  rw [divf_apply, cast_col_apply, cast_col_apply, sum_protos_apply, sum_protos_apply]
  unfold Spec.ratio
  refine congrArg₂ Ideal.div (Finset.sum_congr rfl fun p _ => hK p) (Finset.sum_congr rfl fun p _ => ?_)
  rw [mulf_apply, hs, sitofp_apply, extui_apply, cmpf_apply, broadcast_apply, hK]
  exact congrArg (fun s => Spec.sim d p * s) (indicator_pos _)

/-! ## The block's sum of ratios -/

/-- The sum over the block's samples of the ratios, over any squared differences and similarities that are the
    specification's. -/
theorem pay19_apply (lv var : FVec Ideal S512x256 .f32) (v126 : FVec Ideal S512x16x256 .f32)
    (v131 : FVec Ideal S512x1x1 .f32) (v135 v136 : FVec Ideal S512x16x256 .f32)
    (LV : Fin 512 → Fin 256 → EReal) (D : Fin 512 → Fin 16 → Fin 256 → EReal)
    (hlv : ∀ r l, lv (ix2 r l) = LV r l) (hvar : ∀ r l, var (ix2 r l) = Ideal.exp (LV r l))
    (hd : ∀ r p l, k0_pay17 v126 v131 v135 v136 (ix3 r p l) = D r p l * D r p l)
    (hs : ∀ r p, k0_pay18 v126 v131 v135 v136 (ix2 r p) = Spec.sim (D r) p) :
    k0_pay19 lv var v126 v131 v135 v136 (ix2 0 0) = ∑ r : Fin 512, Spec.ratio (D r) (LV r) := by
  unfold k0_pay19
  dsimp only
  rw [cast_one_apply, sum_rows_apply]
  refine Finset.sum_congr rfl fun r _ => ?_
  exact ratio_apply _ _ _ _ (D r) (LV r) r 0
    (klw_apply lv var _ _ _ _ (LV r) (D r) r (hlv r) (hvar r) (hd r) (hs r)) (hs r)

/-- The block's sum of ratios is the sum over its samples of the specification's ratio, once the log-variances, their
    exponentials, the squared differences and the similarities are the specification's. -/
theorem tileB_apply (LV : Fin 512 → Fin 256 → EReal) (D : Fin 512 → Fin 16 → Fin 256 → EReal)
    (hlv : ∀ r l, lvB x0 x2 x3 x4 x5 (ix2 r l) = LV r l)
    (hvar : ∀ r l, varB x0 x2 x3 x4 x5 (ix2 r l) = Ideal.exp (LV r l))
    (hd : ∀ r p l, dsqB x0 x1 x2 x3 x4 x5 x10 (ix3 r p l) = D r p l * D r p l)
    (hs : ∀ r p, simB x0 x1 x2 x3 x4 x5 x10 (ix2 r p) = Spec.sim (D r) p) :
    tileB x0 x1 x2 x3 x4 x5 x10 (ix2 0 0) = ∑ r : Fin 512, Spec.ratio (D r) (LV r) := by
  unfold tileB
  unfold dsqB at hd
  unfold simB at hs
  exact pay19_apply _ _ _ _ _ _ LV D hlv hvar hd hs

/-! ## The accumulator's three values -/

/-- The updated accumulator: the carried value plus the block's sum. -/
theorem pay25_apply (v177 v256 : Vec Ideal S1x1 .f32) :
    k0_pay25 v177 v256 (ix2 0 0) = v256 (ix2 0 0) + v177 (ix2 0 0) := by
  unfold k0_pay25
  rw [shapeCast_self]
  rfl

/-- The reset accumulator is zero. -/
theorem pay24_apply : k0_pay24 (F := Ideal) (ix2 0 0) = 0 := by
  unfold k0_pay24
  rw [shapeCast_self, broadcast_apply]
  exact Ideal.ofBits_zero_f32

/-- The loss block: the accumulator scaled by the constant word. -/
theorem pay1_apply (v : Vec Ideal S1x1 .f32) :
    k0_pay1 v (ix2 0 0) = v (ix2 0 0) * Ideal.ofBits .f32 0x38800000#32 := by
  unfold k0_pay1
  rfl

end Cert.KernelIdeal.KTile

end
-- ==== Proof.KBlocks.lean ====
import proofs.«426893_j22204980920725_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

/-!
# The kernel's twelve input blocks at a grid point, read at an index

The grid has 32 points. Window 0 (the table `x`, [16384, 512]) and window 1 (the labels as a column,
[16384, 1]) move with the point `t`: their block is rows `512 t … 512 t + 511`. Windows 2 … 11 are whole
arrays, the same block at every point. Windows 1 … 9 read arrays that the program wrote before the region,
from its arguments: a reshape of a vector to a column or to a row (same row-major position), or a
conversion to a narrower float format (the identity over the extended reals). Each block entry is
therefore one entry of one ARGUMENT of the program, and this module says which.

A block's coordinate in its array is always (block index × block extent + offset inside the block), axis by
axis; the block indices are decided once over the 32 points.
-/

noncomputable section

namespace Cert.KernelIdeal.KBlocks

open Idealize.ShloMosaic Idealize.ShloMosaic.TcCoe Idealize.SL.Sem Idealize.ShloMosaic.ValueIdx Cert.KernelIdeal Cert.KernelIdeal.Gen

/-! ## The grid and the block indices -/

/-- A grid point is below 32. -/
theorem t_lt (t : Fin cfg0.N) : t.val < 32 := by
  have h := t.isLt
  have e : cfg0.N = 32 := N_0
  omega

/-- Row `r` of block `t` is row `512 t + r` of a 16384-row array. -/
theorem row_lt (t : Fin cfg0.N) (r : Fin 512) : 512 * t.val + r.val < 16384 := by
  have := t_lt t; have := r.isLt; omega

/-- Windows 0 and 1 are at block row `t`, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Windows 2 … 11 are at block (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

variable (m : (ℓ : Loc nD τ sig) → Buf (Elt Ideal) ℓ) (c : Dev nD) (t : Fin cfg0.N)

/-! ## The arrays written before the region, as functions of the arguments -/

/-- The labels as a [16384, 1] column: the reshape of argument 1. -/
theorem V_main_v0 : (V m c main_v0 : S16384x1.Idx → Elt Ideal .i32)
    = shapeCast S16384x1 (m ((c : Thread nD τ).loc main_arg1)) shapeCasts_S16384_S16384x1 := by
  show StableHlo.after hostOps0 (fun b => m (c, b)) (Proc.devRef .tc main_v0) = _
  after_results
  rfl

/-- Argument 3 converted to the narrower format. -/
theorem V_main_v1 : (V m c main_v1 : S512x512.Idx → Elt Ideal .bf16)
    = truncf (F := Ideal) (s := S512x512) (φ := .f32) .bf16 (m ((c : Thread nD τ).loc main_arg3)) bitsLt_bf16_f32 := by
  show StableHlo.after hostOps0 (fun b => m (c, b)) (Proc.devRef .tc main_v1) = _
  after_results

/-- Argument 5 converted to the narrower format. -/
theorem V_main_v2 : (V m c main_v2 : S512x512.Idx → Elt Ideal .bf16)
    = truncf (F := Ideal) (s := S512x512) (φ := .f32) .bf16 (m ((c : Thread nD τ).loc main_arg5)) bitsLt_bf16_f32 := by
  show StableHlo.after hostOps0 (fun b => m (c, b)) (Proc.devRef .tc main_v2) = _
  after_results

/-- Argument 7 converted to the narrower format. -/
theorem V_main_v3 : (V m c main_v3 : S256x256.Idx → Elt Ideal .bf16)
    = truncf (F := Ideal) (s := S256x256) (φ := .f32) .bf16 (m ((c : Thread nD τ).loc main_arg7)) bitsLt_bf16_f32 := by
  show StableHlo.after hostOps0 (fun b => m (c, b)) (Proc.devRef .tc main_v3) = _
  after_results

/-- Argument 9 converted to the narrower format. -/
theorem V_main_v4 : (V m c main_v4 : S512x256.Idx → Elt Ideal .bf16)
    = truncf (F := Ideal) (s := S512x256) (φ := .f32) .bf16 (m ((c : Thread nD τ).loc main_arg9)) bitsLt_bf16_f32 := by
  show StableHlo.after hostOps0 (fun b => m (c, b)) (Proc.devRef .tc main_v4) = _
  after_results

/-- Argument 4 as a [1, 512] row. -/
theorem V_main_v5 : (V m c main_v5 : S1x512.Idx → Elt Ideal .f32)
    = shapeCast S1x512 (m ((c : Thread nD τ).loc main_arg4)) shapeCasts_S512_S1x512 := by
  show StableHlo.after hostOps0 (fun b => m (c, b)) (Proc.devRef .tc main_v5) = _
  after_results
  rfl

/-- Argument 6 as a [1, 512] row. -/
theorem V_main_v6 : (V m c main_v6 : S1x512.Idx → Elt Ideal .f32)
    = shapeCast S1x512 (m ((c : Thread nD τ).loc main_arg6)) shapeCasts_S512_S1x512 := by
  show StableHlo.after hostOps0 (fun b => m (c, b)) (Proc.devRef .tc main_v6) = _
  after_results
  rfl

/-- Argument 8 as a [1, 256] row. -/
theorem V_main_v7 : (V m c main_v7 : S1x256.Idx → Elt Ideal .f32)
    = shapeCast S1x256 (m ((c : Thread nD τ).loc main_arg8)) shapeCasts_S256_S1x256 := by
  show StableHlo.after hostOps0 (fun b => m (c, b)) (Proc.devRef .tc main_v7) = _
  after_results
  rfl

/-- Argument 10 as a [1, 512] row. -/
theorem V_main_v8 : (V m c main_v8 : S1x512.Idx → Elt Ideal .f32)
    = shapeCast S1x512 (m ((c : Thread nD τ).loc main_arg10)) shapeCasts_S512_S1x512 := by
  show StableHlo.after hostOps0 (fun b => m (c, b)) (Proc.devRef .tc main_v8) = _
  after_results
  rfl

/-! ## The blocks that move with the point -/

/-- Block `t` of the table: entry (r, k) is entry (512 t + r, k) of argument 0. -/
theorem blk0_apply (r k : Fin 512) :
    (iblk m c 0 t : Vec Ideal S512x512 .f32) (ix2 r k)
      = m ((c : Thread nD τ).loc main_arg0) (ix2 ⟨512 * t.val + r.val, row_lt t r⟩ k) := by
  unfold iblk
  rw [View.read_apply]
  show V m c main_arg0 (((cfg0.win 0).blk t).view.emb (ix2 r k)) = _
  rw [V_main_arg0]
  refine congrArg (m ((c : Thread nD τ).loc main_arg0)) (funext fun a => Fin.ext ?_)
  match a with
  | ⟨0, _⟩ =>
    show win0_0.index t 0 * 512 + 1 * r.val = 512 * t.val + r.val
    rw [(idx0 t).1]; omega
  | ⟨1, _⟩ =>
    show win0_0.index t 1 * 512 + 1 * k.val = k.val
    rw [(idx0 t).2]; omega

/-- Block `t` of the label column: entry (r, 0) is label 512 t + r. The column's entry (i, 0) sits at
    row-major position i, as does entry i of the vector. -/
theorem blk1_apply (r : Fin 512) :
    (iblk m c 1 t : Vec Ideal S512x1 .i32) (ix2 r 0)
      = m ((c : Thread nD τ).loc main_arg1) (ix1 ⟨512 * t.val + r.val, row_lt t r⟩) := by
  unfold iblk
  rw [View.read_apply]
  show V m c main_v0 (((cfg0.win 1).blk t).view.emb (ix2 r 0)) = _
  rw [V_main_v0]
  refine shapeCast_apply (s := S16384) (t := S16384x1) _ _ _ _ ?_
  rw [Shape.rowMajor_val_one, Shape.rowMajor_val_two]
  show 512 * t.val + r.val = (win0_1.index t 0 * 512 + 1 * r.val) * 1 + (win0_1.index t 1 * 1 + 1 * 0)
  rw [(idx1 t).1, (idx1 t).2]; omega

/-! ## The whole-array blocks: converted matrices -/

theorem blk2_apply (j k : Fin 512) :
    (iblk m c 2 t : Vec Ideal S512x512 .bf16) (ix2 j k) = m ((c : Thread nD τ).loc main_arg3) (ix2 j k) := by
  unfold iblk
  rw [View.read_apply]
  show V m c main_v1 (((cfg0.win 2).blk t).view.emb (ix2 j k)) = _
  rw [V_main_v1]
  show m ((c : Thread nD τ).loc main_arg3) (((cfg0.win 2).blk t).view.emb (ix2 j k)) = _
  refine congrArg (m ((c : Thread nD τ).loc main_arg3)) (funext fun a => Fin.ext ?_)
  match a with
  | ⟨0, _⟩ =>
    show win0_2.index t 0 * 512 + 1 * j.val = j.val
    rw [(idx2 t).1]; omega
  | ⟨1, _⟩ =>
    show win0_2.index t 1 * 512 + 1 * k.val = k.val
    rw [(idx2 t).2]; omega

theorem blk4_apply (j k : Fin 512) :
    (iblk m c 4 t : Vec Ideal S512x512 .bf16) (ix2 j k) = m ((c : Thread nD τ).loc main_arg5) (ix2 j k) := by
  unfold iblk
  rw [View.read_apply]
  show V m c main_v2 (((cfg0.win 4).blk t).view.emb (ix2 j k)) = _
  rw [V_main_v2]
  show m ((c : Thread nD τ).loc main_arg5) (((cfg0.win 4).blk t).view.emb (ix2 j k)) = _
  refine congrArg (m ((c : Thread nD τ).loc main_arg5)) (funext fun a => Fin.ext ?_)
  match a with
  | ⟨0, _⟩ =>
    show win0_4.index t 0 * 512 + 1 * j.val = j.val
    rw [(idx4 t).1]; omega
  | ⟨1, _⟩ =>
    show win0_4.index t 1 * 512 + 1 * k.val = k.val
    rw [(idx4 t).2]; omega

theorem blk6_apply (l q : Fin 256) :
    (iblk m c 6 t : Vec Ideal S256x256 .bf16) (ix2 l q) = m ((c : Thread nD τ).loc main_arg7) (ix2 l q) := by
  unfold iblk
  rw [View.read_apply]
  show V m c main_v3 (((cfg0.win 6).blk t).view.emb (ix2 l q)) = _
  rw [V_main_v3]
  show m ((c : Thread nD τ).loc main_arg7) (((cfg0.win 6).blk t).view.emb (ix2 l q)) = _
  refine congrArg (m ((c : Thread nD τ).loc main_arg7)) (funext fun a => Fin.ext ?_)
  match a with
  | ⟨0, _⟩ =>
    show win0_6.index t 0 * 256 + 1 * l.val = l.val
    rw [(idx6 t).1]; omega
  | ⟨1, _⟩ =>
    show win0_6.index t 1 * 256 + 1 * q.val = q.val
    rw [(idx6 t).2]; omega

theorem blk8_apply (j : Fin 512) (l : Fin 256) :
    (iblk m c 8 t : Vec Ideal S512x256 .bf16) (ix2 j l) = m ((c : Thread nD τ).loc main_arg9) (ix2 j l) := by
  unfold iblk
  rw [View.read_apply]
  show V m c main_v4 (((cfg0.win 8).blk t).view.emb (ix2 j l)) = _
  rw [V_main_v4]
  show m ((c : Thread nD τ).loc main_arg9) (((cfg0.win 8).blk t).view.emb (ix2 j l)) = _
  refine congrArg (m ((c : Thread nD τ).loc main_arg9)) (funext fun a => Fin.ext ?_)
  match a with
  | ⟨0, _⟩ =>
    show win0_8.index t 0 * 512 + 1 * j.val = j.val
    rw [(idx8 t).1]; omega
  | ⟨1, _⟩ =>
    show win0_8.index t 1 * 256 + 1 * l.val = l.val
    rw [(idx8 t).2]; omega

/-! ## The whole-array blocks: vectors as rows -/

theorem blk3_apply (j : Fin 512) :
    (iblk m c 3 t : Vec Ideal S1x512 .f32) (ix2 0 j) = m ((c : Thread nD τ).loc main_arg4) (ix1 j) := by
  unfold iblk
  rw [View.read_apply]
  show V m c main_v5 (((cfg0.win 3).blk t).view.emb (ix2 0 j)) = _
  rw [V_main_v5]
  refine shapeCast_apply (s := S512) (t := S1x512) _ _ _ _ ?_
  rw [Shape.rowMajor_val_one, Shape.rowMajor_val_two]
  show j.val = (win0_3.index t 0 * 1 + 1 * 0) * 512 + (win0_3.index t 1 * 512 + 1 * j.val)
  rw [(idx3 t).1, (idx3 t).2]; omega

theorem blk5_apply (j : Fin 512) :
    (iblk m c 5 t : Vec Ideal S1x512 .f32) (ix2 0 j) = m ((c : Thread nD τ).loc main_arg6) (ix1 j) := by
  unfold iblk
  rw [View.read_apply]
  show V m c main_v6 (((cfg0.win 5).blk t).view.emb (ix2 0 j)) = _
  rw [V_main_v6]
  refine shapeCast_apply (s := S512) (t := S1x512) _ _ _ _ ?_
  rw [Shape.rowMajor_val_one, Shape.rowMajor_val_two]
  show j.val = (win0_5.index t 0 * 1 + 1 * 0) * 512 + (win0_5.index t 1 * 512 + 1 * j.val)
  rw [(idx5 t).1, (idx5 t).2]; omega

theorem blk7_apply (l : Fin 256) :
    (iblk m c 7 t : Vec Ideal S1x256 .f32) (ix2 0 l) = m ((c : Thread nD τ).loc main_arg8) (ix1 l) := by
  unfold iblk
  rw [View.read_apply]
  show V m c main_v7 (((cfg0.win 7).blk t).view.emb (ix2 0 l)) = _
  rw [V_main_v7]
  refine shapeCast_apply (s := S256) (t := S1x256) _ _ _ _ ?_
  rw [Shape.rowMajor_val_one, Shape.rowMajor_val_two]
  show l.val = (win0_7.index t 0 * 1 + 1 * 0) * 256 + (win0_7.index t 1 * 256 + 1 * l.val)
  rw [(idx7 t).1, (idx7 t).2]; omega

theorem blk9_apply (j : Fin 512) :
    (iblk m c 9 t : Vec Ideal S1x512 .f32) (ix2 0 j) = m ((c : Thread nD τ).loc main_arg10) (ix1 j) := by
  unfold iblk
  rw [View.read_apply]
  show V m c main_v8 (((cfg0.win 9).blk t).view.emb (ix2 0 j)) = _
  rw [V_main_v8]
  refine shapeCast_apply (s := S512) (t := S1x512) _ _ _ _ ?_
  rw [Shape.rowMajor_val_one, Shape.rowMajor_val_two]
  show j.val = (win0_9.index t 0 * 1 + 1 * 0) * 512 + (win0_9.index t 1 * 512 + 1 * j.val)
  rw [(idx9 t).1, (idx9 t).2]; omega

/-! ## The whole-array blocks: arguments staged as they are -/

theorem blk10_apply (a : Fin 128) (q : Fin 256) :
    (iblk m c 10 t : Vec Ideal S128x256 .f32) (ix2 a q) = m ((c : Thread nD τ).loc main_arg2) (ix2 a q) := by
  unfold iblk
  rw [View.read_apply]
  show V m c main_arg2 (((cfg0.win 10).blk t).view.emb (ix2 a q)) = _
  rw [V_main_arg2]
  refine congrArg (m ((c : Thread nD τ).loc main_arg2)) (funext fun d => Fin.ext ?_)
  match d with
  | ⟨0, _⟩ =>
    show win0_10.index t 0 * 128 + 1 * a.val = a.val
    rw [(idx10 t).1]; omega
  | ⟨1, _⟩ =>
    show win0_10.index t 1 * 256 + 1 * q.val = q.val
    rw [(idx10 t).2]; omega

theorem blk11_apply (j : Fin 128) :
    (iblk m c 11 t : Vec Ideal S1x128 .f32) (ix2 0 j) = m ((c : Thread nD τ).loc main_arg11) (ix2 0 j) := by
  unfold iblk
  rw [View.read_apply]
  show V m c main_arg11 (((cfg0.win 11).blk t).view.emb (ix2 0 j)) = _
  rw [V_main_arg11]
  refine congrArg (m ((c : Thread nD τ).loc main_arg11)) (funext fun d => Fin.ext ?_)
  match d with
  | ⟨0, _⟩ =>
    show win0_11.index t 0 * 1 + 1 * 0 = 0
    rw [(idx11 t).1]
  | ⟨1, _⟩ =>
    show win0_11.index t 1 * 128 + 1 * j.val = j.val
    rw [(idx11 t).2]; omega

end Cert.KernelIdeal.KBlocks
-- ==== Proof.SpecAll.lean ====
/-
  The four results as functions of the twelve argument arrays.

  `Inputs` holds the arguments as plain functions of their coordinates. Sample `b` has latent mean `Z b`, clipped
  log-variance `LV b`, differences `D b` from its class's prototypes (the class is the one its label word names);
  the results are the projection `gOut b`, the decoded row `gDec b`, and the mean `gKl` over the batch of the
  samples' ratios.
-/
import proofs.«426893_j22204980920725_3_alg».proof.Proof.Spec

noncomputable section

namespace Cert.Spec

open Idealize.ShloMosaic

structure Inputs where
  X : Fin 16384 → Fin 512 → EReal
  T : Fin 16384 → BitVec 32
  P : Fin 128 → Fin 256 → EReal
  W1 : Fin 512 → Fin 512 → EReal
  b1 : Fin 512 → EReal
  W2 : Fin 512 → Fin 512 → EReal
  b2 : Fin 512 → EReal
  Wd1 : Fin 256 → Fin 256 → EReal
  bd1 : Fin 256 → EReal
  Wd2 : Fin 512 → Fin 256 → EReal
  bd2 : Fin 512 → EReal
  Wl : Fin 128 → EReal

variable (I : Inputs)

/-- Sample `b`'s encoder row, latent mean, clipped log-variance, class and differences. -/
def CV (b : Fin 16384) : Fin 512 → EReal := conv I.W1 I.b1 I.W2 I.b2 (I.X b)
def Z (b : Fin 16384) : Fin 256 → EReal := zr (CV I b)
def LV (b : Fin 16384) : Fin 256 → EReal := lvr (CV I b)
def C (b : Fin 16384) : Fin 8 := cls (I.T b)
def D (b : Fin 16384) : Fin 16 → Fin 256 → EReal := dif I.P (C I b) (Z I b)

/-- The four results (the fourth, a function of the prototype table alone, is the same host computation in both
    programs and is carried as it is). -/
def gOut (b : Fin 16384) : EReal := outr I.Wl (C I b) (sim (D I b))
def gDec (b : Fin 16384) (j : Fin 512) : EReal := decr I.Wd1 I.bd1 I.Wd2 I.bd2 (Z I b) j
def gRatio (b : Fin 16384) : EReal := ratio (D I b) (LV I b)
def gKl : EReal := Ideal.div (∑ b : Fin 16384, gRatio I b) (Ideal.ofBits .f32 0x46800000#32)

/-- The labels are class labels. -/
def Labelled : Prop := ∀ b : Fin 16384, ∃ c : Fin 8, I.T b = BitVec.ofNat 32 c.val

theorem C_spec (h : Labelled I) (b : Fin 16384) : I.T b = BitVec.ofNat 32 (C I b).val := by
  obtain ⟨c, hc⟩ := h b
  unfold C
  rw [hc, cls_ofNat]

/-- The mean over the batch, tile by tile and scaled by `2⁻¹⁴`. -/
theorem gKl_tiles : gKl I = (∑ t : Fin 32, ∑ r : Fin 512, gRatio I (row t r)) * Ideal.ofBits .f32 0x38800000#32 := by
  unfold gKl
  rw [div_16384, sum_tiles]

end Cert.Spec

end
-- ==== Proof.KVal.lean ====
/-
  The kernel's per-point block values are the common results.

  Point `t` of the grid works on samples `512t … 512t+511`: its first two input blocks are those rows of the samples
  and of the labels, and its other input blocks are the whole weight, bias and prototype arrays. Under that reading
  of the blocks the encoder's row of the block's sample `r` is the row of sample `512t + r`; so are its latent mean,
  clipped log-variance, class and differences; hence the block of projections, the block of decoded rows and the
  block's sum of ratios are the common results at the point's samples. A row `n` of a result array lies in the block
  of point `n / 512` at place `n % 512`, and `512 (n / 512) + n % 512 = n`.
-/
import proofs.«426893_j22204980920725_3_alg».proof.Proof.KRun
import proofs.«426893_j22204980920725_3_alg».proof.Proof.KEnc
import proofs.«426893_j22204980920725_3_alg».proof.Proof.KDiff
import proofs.«426893_j22204980920725_3_alg».proof.Proof.KOut
import proofs.«426893_j22204980920725_3_alg».proof.Proof.KTile
import proofs.«426893_j22204980920725_3_alg».proof.Proof.KBlocks
import proofs.«426893_j22204980920725_3_alg».proof.Proof.SpecAll

noncomputable section

namespace Cert.KernelIdeal.KVal

open Idealize.ShloMosaic Idealize.ShloMosaic.TcCoe Idealize.SL.Sem Idealize.ShloMosaic.ValueIdx
open Cert.KernelIdeal Cert.KernelIdeal.Gen Cert.KernelIdeal.Blk Cert.KernelIdeal.KRun Cert.KernelIdeal.KEnc

/-! ## One block, read as the samples of one point -/

section Block

variable (x0 : Vec Ideal S512x512 .f32) (x1 : Vec Ideal S512x1 .i32) (x2 : Vec Ideal S512x512 .bf16) (x3 : Vec Ideal S1x512 .f32)
  (x4 : Vec Ideal S512x512 .bf16) (x5 : Vec Ideal S1x512 .f32) (x6 : Vec Ideal S256x256 .bf16) (x7 : Vec Ideal S1x256 .f32)
  (x8 : Vec Ideal S512x256 .bf16) (x9 : Vec Ideal S1x512 .f32) (x10 : Vec Ideal S128x256 .f32) (x11 : Vec Ideal S1x128 .f32)
  (I : Spec.Inputs) (t : Fin 32)

/-- The twelve blocks are point `t`'s: rows `512t … 512t+511` of the samples and of the labels, and the weights, biases
    and prototypes whole. -/
structure IsBlock : Prop where
  h0 : ∀ (r k : Fin 512), x0 (ix2 r k) = I.X (Spec.row t r) k
  h1 : ∀ r : Fin 512, x1 (ix2 r 0) = I.T (Spec.row t r)
  h2 : ∀ (j k : Fin 512), x2 (ix2 j k) = I.W1 j k
  h3 : ∀ j : Fin 512, x3 (ix2 0 j) = I.b1 j
  h4 : ∀ (j k : Fin 512), x4 (ix2 j k) = I.W2 j k
  h5 : ∀ j : Fin 512, x5 (ix2 0 j) = I.b2 j
  h6 : ∀ (l q : Fin 256), x6 (ix2 l q) = I.Wd1 l q
  h7 : ∀ l : Fin 256, x7 (ix2 0 l) = I.bd1 l
  h8 : ∀ (j : Fin 512) (l : Fin 256), x8 (ix2 j l) = I.Wd2 j l
  h9 : ∀ j : Fin 512, x9 (ix2 0 j) = I.bd2 j
  h10 : ∀ (a : Fin 128) (q : Fin 256), x10 (ix2 a q) = I.P a q
  h11 : ∀ j : Fin 128, x11 (ix2 0 j) = I.Wl j

variable {x0 x1 x2 x3 x4 x5 x6 x7 x8 x9 x10 x11 I t}
variable (h : IsBlock x0 x1 x2 x3 x4 x5 x6 x7 x8 x9 x10 x11 I t)
include h

/-- The encoder's row of the block's sample `r` is the row of sample `512t + r`. -/
theorem conv_row_eq (r : Fin 512) : convRow x0 x2 x3 x4 x5 r = Spec.CV I (Spec.row t r) := by
  have e2 : (fun j k => x2 (ix2 j k)) = I.W1 := funext fun j => funext fun k => h.h2 j k
  have e3 : (fun j => x3 (ix2 0 j)) = I.b1 := funext h.h3
  have e4 : (fun j k => x4 (ix2 j k)) = I.W2 := funext fun j => funext fun k => h.h4 j k
  have e5 : (fun j => x5 (ix2 0 j)) = I.b2 := funext h.h5
  have e0 : (fun k => x0 (ix2 r k)) = I.X (Spec.row t r) := funext (h.h0 r)
  exact congr (congr (congr (congr (congrArg Spec.conv e2) e3) e4) e5) e0

/-- So are its latent mean, its clipped log-variance and the variance. -/
theorem z_eq (r : Fin 512) (l : Fin 256) : zB x0 x2 x3 x4 x5 (ix2 r l) = Spec.Z I (Spec.row t r) l := by
  rw [zB_apply, conv_row_eq h]; rfl
theorem lv_eq (r : Fin 512) (l : Fin 256) : lvB x0 x2 x3 x4 x5 (ix2 r l) = Spec.LV I (Spec.row t r) l := by
  rw [lvB_apply, conv_row_eq h]; rfl
theorem var_eq (r : Fin 512) (l : Fin 256) : varB x0 x2 x3 x4 x5 (ix2 r l) = Ideal.exp (Spec.LV I (Spec.row t r) l) := by
  rw [varB_apply, conv_row_eq h]; rfl

/-- The decoded block holds the decoded rows of the point's samples. -/
theorem dec_eq (r : Fin 512) (j : Fin 512) :
    decB x0 x2 x3 x4 x5 x6 x7 x8 x9 (ix2 r j) = Spec.gDec I (Spec.row t r) j := by
  have e6 : (fun l q => x6 (ix2 l q)) = I.Wd1 := funext fun l => funext fun q => h.h6 l q
  have e7 : (fun l => x7 (ix2 0 l)) = I.bd1 := funext h.h7
  have e8 : (fun j l => x8 (ix2 j l)) = I.Wd2 := funext fun j => funext fun l => h.h8 j l
  have e9 : (fun j => x9 (ix2 0 j)) = I.bd2 := funext h.h9
  rw [decB_apply, conv_row_eq h, e6, e7, e8, e9]; rfl

variable (hL : Spec.Labelled I)
include hL

/-- A labelled sample's label word is its class's. -/
theorem lab_eq (r : Fin 512) : x1 (ix2 r 0) = BitVec.ofNat 32 (Spec.C I (Spec.row t r)).val :=
  (h.h1 r).trans (Spec.C_spec I hL _)

/-- The similarities and the squared differences are those of the sample's class. -/
theorem sim_eq (r : Fin 512) (p : Fin 16) :
    simB x0 x1 x2 x3 x4 x5 x10 (ix2 r p) = Spec.sim (Spec.D I (Spec.row t r)) p := by
  have e10 : (fun a b => x10 (ix2 a b)) = I.P := funext fun a => funext fun q => h.h10 a q
  refine (KDiff.simB_apply x0 x1 x2 x3 x4 x5 x10 (fun r => Spec.Z I (Spec.row t r)) (fun r l => z_eq h r l) r
    (Spec.C I (Spec.row t r)) (lab_eq h hL r) p).trans ?_
  rw [e10]; rfl
theorem dsq_eq (r : Fin 512) (p : Fin 16) (l : Fin 256) :
    dsqB x0 x1 x2 x3 x4 x5 x10 (ix3 r p l) = Spec.D I (Spec.row t r) p l * Spec.D I (Spec.row t r) p l := by
  have e10 : (fun a b => x10 (ix2 a b)) = I.P := funext fun a => funext fun q => h.h10 a q
  refine (KDiff.dsqB_apply x0 x1 x2 x3 x4 x5 x10 (fun r => Spec.Z I (Spec.row t r)) (fun r l => z_eq h r l) r
    (Spec.C I (Spec.row t r)) (lab_eq h hL r) p l).trans ?_
  rw [e10]; rfl

/-- The block of projections holds the projections of the point's samples. -/
theorem out_eq (r : Fin 512) : outB x0 x1 x2 x3 x4 x5 x10 x11 (ix2 r 0) = Spec.gOut I (Spec.row t r) := by
  have e11 : (fun j => x11 (ix2 0 j)) = I.Wl := funext h.h11
  refine (KOut.outB_apply x0 x1 x2 x3 x4 x5 x10 x11 (fun r => Spec.sim (Spec.D I (Spec.row t r))) (fun r p => sim_eq h hL r p) r
    (Spec.C I (Spec.row t r)) (lab_eq h hL r)).trans ?_
  rw [e11]; rfl

/-- The block's sum is the sum of the ratios of the point's samples. -/
theorem tile_block_eq : tileB x0 x1 x2 x3 x4 x5 x10 (ix2 0 0) = ∑ r : Fin 512, Spec.gRatio I (Spec.row t r) :=
  KTile.tileB_apply x0 x1 x2 x3 x4 x5 x10 (fun r => Spec.LV I (Spec.row t r)) (fun r => Spec.D I (Spec.row t r))
    (fun r l => lv_eq h r l) (fun r l => var_eq h r l) (fun r p l => dsq_eq h hL r p l) (fun r p => sim_eq h hL r p)

end Block

/-! ## The blocks of a point of the grid -/

variable (m : (ℓ : Loc nD τ sig) → Buf (Elt Ideal) ℓ) (c : Dev nD)

/-- The program's arguments as functions of their coordinates. -/
def kIn : Spec.Inputs where
  X := fun b k => m ((c : Thread nD τ).loc main_arg0) (ix2 b k)
  T := fun b => m ((c : Thread nD τ).loc main_arg1) (ix1 b)
  P := fun a q => m ((c : Thread nD τ).loc main_arg2) (ix2 a q)
  W1 := fun j k => m ((c : Thread nD τ).loc main_arg3) (ix2 j k)
  b1 := fun j => m ((c : Thread nD τ).loc main_arg4) (ix1 j)
  W2 := fun j k => m ((c : Thread nD τ).loc main_arg5) (ix2 j k)
  b2 := fun j => m ((c : Thread nD τ).loc main_arg6) (ix1 j)
  Wd1 := fun l q => m ((c : Thread nD τ).loc main_arg7) (ix2 l q)
  bd1 := fun l => m ((c : Thread nD τ).loc main_arg8) (ix1 l)
  Wd2 := fun j l => m ((c : Thread nD τ).loc main_arg9) (ix2 j l)
  bd2 := fun j => m ((c : Thread nD τ).loc main_arg10) (ix1 j)
  Wl := fun j => m ((c : Thread nD τ).loc main_arg11) (ix2 0 j)

/-- A point of the grid as one of the 32 tiles. -/
def tl (t : Fin cfg0.N) : Fin 32 := ⟨t.val, lt_of_lt_of_eq t.isLt hN⟩

/-- Point `t`'s input blocks are tile `t`'s blocks of the arguments. -/
theorem isBlock (t : Fin cfg0.N) :
    IsBlock (iblk m c 0 t : Vec Ideal S512x512 .f32) (iblk m c 1 t : Vec Ideal S512x1 .i32) (iblk m c 2 t : Vec Ideal S512x512 .bf16)
      (iblk m c 3 t : Vec Ideal S1x512 .f32) (iblk m c 4 t : Vec Ideal S512x512 .bf16) (iblk m c 5 t : Vec Ideal S1x512 .f32)
      (iblk m c 6 t : Vec Ideal S256x256 .bf16) (iblk m c 7 t : Vec Ideal S1x256 .f32) (iblk m c 8 t : Vec Ideal S512x256 .bf16)
      (iblk m c 9 t : Vec Ideal S1x512 .f32) (iblk m c 10 t : Vec Ideal S128x256 .f32) (iblk m c 11 t : Vec Ideal S1x128 .f32)
      (kIn m c) (tl t) where
  h0 := fun r k => KBlocks.blk0_apply m c t r k
  h1 := fun r => KBlocks.blk1_apply m c t r
  h2 := fun j k => KBlocks.blk2_apply m c t j k
  h3 := fun j => KBlocks.blk3_apply m c t j
  h4 := fun j k => KBlocks.blk4_apply m c t j k
  h5 := fun j => KBlocks.blk5_apply m c t j
  h6 := fun l q => KBlocks.blk6_apply m c t l q
  h7 := fun l => KBlocks.blk7_apply m c t l
  h8 := fun j l => KBlocks.blk8_apply m c t j l
  h9 := fun j => KBlocks.blk9_apply m c t j
  h10 := fun a q => KBlocks.blk10_apply m c t a q
  h11 := fun j => KBlocks.blk11_apply m c t j

/-- Row `n` of the batch is place `n % 512` of tile `n / 512`. -/
theorem row_ptN (n : Nat) (hn : n < 16384) : Spec.row (tl (ptN n)) (rwN n) = ⟨n, hn⟩ := by
  apply Fin.ext
  show 512 * (n / 512 % 32) + n % 512 = n
  omega

/-- A column below 512 is its own place. -/
theorem rwN_lt (k : Nat) (hk : k < 512) : rwN k = ⟨k, hk⟩ := Fin.ext (Nat.mod_eq_of_lt hk)

/-! ## The two per-sample arrays and the points' sums -/

/-- The array of decoded rows. -/
theorem G13_eq : G13 m c = fun i => Spec.gDec (kIn m c) ⟨(i 0).val, (i 0).isLt⟩ ⟨(i 1).val, (i 1).isLt⟩ := by
  funext i
  have h0 : (i 0).val < 16384 := (i 0).isLt
  have h1 : (i 1).val < 512 := (i 1).isLt
  refine (dec_eq (isBlock m c (ptN (i 0).val)) (rwN (i 0).val) (rwN (i 1).val)).trans ?_
  rw [row_ptN (i 0).val h0, rwN_lt (i 1).val h1]

/-- The array of projections. -/
theorem G12_eq (hL : Spec.Labelled (kIn m c)) : G12 m c = fun i => Spec.gOut (kIn m c) ⟨(i 0).val, (i 0).isLt⟩ := by
  funext i
  have h0 : (i 0).val < 16384 := (i 0).isLt
  refine (out_eq (isBlock m c (ptN (i 0).val)) hL (rwN (i 0).val)).trans ?_
  rw [row_ptN (i 0).val h0]

/-- The sum point `t` adds to the accumulator. -/
theorem tile_eq (hL : Spec.Labelled (kIn m c)) (t : Fin cfg0.N) :
    tileP m c t (ix2 0 0) = ∑ r : Fin 512, Spec.gRatio (kIn m c) (Spec.row ⟨t.val, lt_of_lt_of_eq t.isLt hN⟩ r) :=
  tile_block_eq (isBlock m c t) hL

end Cert.KernelIdeal.KVal

end
-- ==== Proof.KTail.lean ====
/-
  The lines of the kernel's program after its call: the third result of the call reshaped to a scalar, and the
  orthogonality loss of the prototype table. The loss reads the table alone, by the same operations in both programs,
  so it is carried as one function `ortho` of the table and never opened.
-/
import proofs.«426893_j22204980920725_3_alg».proof.Proof.Gen.KernelIdeal.Frame
import proofs.«426893_j22204980920725_3_alg».proof.Proof.Gen.ReferenceIdeal.Read
import Idealize.ShloMosaic.Lib.Pipeline.Value
import Idealize.ShloMosaic.Lib.StableHlo.Run

noncomputable section

namespace Cert.KernelIdeal.KTail

open Idealize.ShloMosaic Idealize.ShloMosaic.TcCoe Idealize.SL.Sem Idealize.ShloMosaic.StableHlo Cert.KernelIdeal Cert.KernelIdeal.Gen

variable {F : FTy → Type} [FloatOps F]

/-! ## The orthogonality loss of the prototype table

The lines after the kernel's call, from the reshape of the table to the final division, one definition per line that
has an operand; the loss is the last. -/

/-- The table as eight classes of sixteen prototypes. -/
def t11 (x : (⟨S128x256, .f32⟩ : BufTy).Contents (Elt F)) : (⟨S8x16x256, .f32⟩ : BufTy).Contents (Elt F) :=
  shapeCast _ x shapeCasts_S128x256_S8x16x256
/-- The sum of each class's prototypes. -/
def t12 (x : (⟨S128x256, .f32⟩ : BufTy).Contents (Elt F)) : (⟨S8x256, .f32⟩ : BufTy).Contents (Elt F) :=
  Host.reduceAdd (t11 x) (constant (F := F) S_ .f32 0x00000000#32) reducesTo_S8x16x256_S8x256_d1 h_S_
def t13 (x : (⟨S128x256, .f32⟩ : BufTy).Contents (Elt F)) : (⟨S8x1x256, .f32⟩ : BufTy).Contents (Elt F) :=
  broadcastInDim S8x1x256 ![0, 2] bcast_S8x256_S8x1x256_0_2 (t12 x)
/-- The divisor sixteen, on every entry. -/
def t14 : (⟨S8x1x256, .f32⟩ : BufTy).Contents (Elt F) :=
  broadcastInDim S8x1x256 ![] bcast_S_S8x1x256 (constant (F := F) S_ .f32 0x41800000#32)
/-- Each class's mean prototype. -/
def t15 (x : (⟨S128x256, .f32⟩ : BufTy).Contents (Elt F)) : (⟨S8x1x256, .f32⟩ : BufTy).Contents (Elt F) :=
  Host.divf (t13 x) (t14 (F := F))
def t16 (x : (⟨S128x256, .f32⟩ : BufTy).Contents (Elt F)) : (⟨S8x16x256, .f32⟩ : BufTy).Contents (Elt F) :=
  broadcastInDim S8x16x256 ![0, 1, 2] bcast_S8x1x256_S8x16x256_0_1_2 (t15 x)
/-- The prototypes less their class's mean. -/
def t17 (x : (⟨S128x256, .f32⟩ : BufTy).Contents (Elt F)) : (⟨S8x16x256, .f32⟩ : BufTy).Contents (Elt F) :=
  subf (t11 x) (t16 x)
/-- Each class's Gram matrix of the centred prototypes. -/
def t18 (x : (⟨S128x256, .f32⟩ : BufTy).Contents (Elt F)) : (⟨S8x16x16, .f32⟩ : BufTy).Contents (Elt F) :=
  Host.dotGeneral dot_S8x16x256_S8x16x256_S8x16x16_2_2_1_1_0_0 none (t17 x) (t17 x)
/-- The row number plus zero. -/
def t22 : (⟨S16x16, .i32⟩ : BufTy).Contents (Elt F) :=
  addi (iotaInDim S16x16 32 0) (broadcastInDim S16x16 ![] bcast_S_S16x16 (constantI S_ 32 0#32))
/-- The sixteen by sixteen identity matrix. -/
def t24 : (⟨S16x16, .f32⟩ : BufTy).Contents (Elt F) :=
  uitofp .f32 (cmpi .eq (t22 (F := F)) (iotaInDim S16x16 32 1))
def t26 : (⟨S8x16x16, .f32⟩ : BufTy).Contents (Elt F) :=
  broadcastInDim S8x16x16 ![0, 1, 2] bcast_S1x16x16_S8x16x16_0_1_2
    (broadcastInDim S1x16x16 ![1, 2] bcast_S16x16_S1x16x16_1_2 (t24 (F := F)))
/-- The Gram matrices less the identity. -/
def t27 (x : (⟨S128x256, .f32⟩ : BufTy).Contents (Elt F)) : (⟨S8x16x16, .f32⟩ : BufTy).Contents (Elt F) :=
  subf (t18 x) (t26 (F := F))
def t28 (x : (⟨S128x256, .f32⟩ : BufTy).Contents (Elt F)) : (⟨S8x16x16, .f32⟩ : BufTy).Contents (Elt F) :=
  mulf (t27 x) (t27 x)
/-- Each class's sum of squares of that difference. -/
def t29 (x : (⟨S128x256, .f32⟩ : BufTy).Contents (Elt F)) : (⟨S8, .f32⟩ : BufTy).Contents (Elt F) :=
  Host.reduceAdd (t28 x) (constant (F := F) S_ .f32 0x00000000#32) reducesTo_S8x16x16_S8_d1_2 h_S_
/-- Each class's Frobenius norm of the difference. -/
def t30 (x : (⟨S128x256, .f32⟩ : BufTy).Contents (Elt F)) : (⟨S8, .f32⟩ : BufTy).Contents (Elt F) :=
  Host.sqrt (t29 x)
def t31 (x : (⟨S128x256, .f32⟩ : BufTy).Contents (Elt F)) : (⟨S_, .f32⟩ : BufTy).Contents (Elt F) :=
  Host.reduceAdd (t30 x) (constant (F := F) S_ .f32 0x00000000#32) reducesTo_S8_S_d0 h_S_

/-- The orthogonality loss as one function of the table: the mean over the eight classes of the Frobenius norm of the
    class's centred Gram matrix less the identity. -/
def ortho (x : FVec F S128x256 .f32) : FVec F S_ .f32 :=
  Host.divf (t31 x) (constant (F := F) S_ .f32 0x41000000#32)

/-! ## The lines after the call, from any contents -/

/-- From any contents, after those lines the scalar holds the call's third result reshaped. -/
theorem after_v10 (W : Valuation τ sig (Elt F)) :
    StableHlo.after (hostOps1 (F := F)) W (Proc.devRef .tc main_v10)
      = shapeCast S_ (W (Proc.devRef .tc main_v9_2)) shapeCasts_S1x1_S_ := by
  after_results
  rfl

set_option maxHeartbeats 4000000 in
/-- From any contents, after those lines the last buffer holds the loss of the table's contents. -/
theorem after_v32 (W : Valuation τ sig (Elt F)) :
    StableHlo.after (hostOps1 (F := F)) W (Proc.devRef .tc main_v32)
      = ortho (W (Proc.devRef .tc main_arg2)) := by
  after_results_simp
  unfold ortho t31 t30 t29 t28 t27 t26 t24 t22 t18 t17 t16 t15 t14 t13 t12 t11
  rfl

/-! ## The same function in the reference -/

/-- The reference computes its fourth result from the table by the same operations over the same shapes: its term is
    `ortho` of the table. -/
theorem ortho_eq (x : FVec F S128x256 .f32) :
    ortho x = Cert.ReferenceIdeal.Read.val_main_v123 (F := F) x := rfl

/-! ## The two results at the end of the run -/

variable (m : (ℓ : Loc nD τ sig) → Buf (Elt F) ℓ) (c : Dev nD)

/-- The scalar result is the reshape of what the call leaves in its third result array. -/
theorem tail_v10 :
    Pipeline.afterTail₀ cfgs (dats m) 0 (V0 m) [hostOps1] c main_v10
      = shapeCast S_ ((dats m 0 c).arrAt 14 cfg0.N) shapeCasts_S1x1_S_ := by
  unfold Pipeline.afterTail₀
  show StableHlo.after hostOps1 _ (Proc.devRef .tc main_v10) = _
  rw [after_v10]
  exact congrArg (fun v => shapeCast S_ v shapeCasts_S1x1_S_)
    (Pipeline.withArrays_arr spec0 launch0.win.arr_inj c _ _ 14)

/-- The loss result is `ortho` of the table as launched: the call only reads the table. -/
theorem tail_v32 :
    Pipeline.afterTail₀ cfgs (dats m) 0 (V0 m) [hostOps1] c main_v32
      = ortho (m ((c : Thread nD τ).loc main_arg2)) := by
  unfold Pipeline.afterTail₀
  show StableHlo.after hostOps1 _ (Proc.devRef .tc main_v32) = _
  rw [after_v32]
  exact congrArg ortho
    ((Pipeline.withArrays_arr spec0 launch0.win.arr_inj c _ _ 10).trans
      (((dats m 0 c).arrAt_in 10 rfl _).trans ((A_eq m c 10).trans (V_main_arg2 m c))))

end Cert.KernelIdeal.KTail

end
-- ==== Proof.KFinal.lean ====
/-
  The kernel program's run with its four results named.

  The pipeline's two per-sample arrays end holding the projections and the decoded rows of the samples; the host lines
  after the call read the loss array's one entry as a scalar — the sum over the 32 points of each point's sum of
  ratios, times `2⁻¹⁴`, which is the mean of the ratios over the batch — and compute the fourth result from the
  prototype table alone; the arguments end as they were launched.
-/
import proofs.«426893_j22204980920725_3_alg».proof.Proof.KRun
import proofs.«426893_j22204980920725_3_alg».proof.Proof.KAcc
import proofs.«426893_j22204980920725_3_alg».proof.Proof.KVal
import proofs.«426893_j22204980920725_3_alg».proof.Proof.KTail
import proofs.«426893_j22204980920725_3_alg».proof.Proof.SpecAll
import Idealize.ShloMosaic.Lib.Pipeline.Value
import Idealize.ShloMosaic.Lib.ValueIdx

set_option maxRecDepth 16384

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KRun Cert.KernelIdeal.KVal

variable (m : (ℓ : Loc nD τ sig) → Buf (Elt Ideal) ℓ) (ρ : Dev nD → PrngReg)

/-- The loss array's one entry is the mean of the ratios over the batch: the points' sums, each the sum of its
    samples' ratios, regrouped as the sum over the batch. -/
theorem kl_entry (c : Dev nD) (hL : Spec.Labelled (kIn m c)) :
    (dats m 0 c).arrAt 14 cfg0.N (ix2 0 0) = Spec.gKl (kIn m c) := by
  have e1 : (dats m 0 c).arrAt 14 cfg0.N (ix2 0 0) = (∑ t : Fin cfg0.N, KAcc.tau m c t) * Ideal.ofBits .f32 0x38800000#32 :=
    (congrFun (KAcc.final14 m c) (ix2 0 0)).trans (KAcc.R14_apply m c)
  have e2 : (∑ t : Fin cfg0.N, KAcc.tau m c t) = ∑ s : Fin 32, ∑ r : Fin 512, Spec.gRatio (kIn m c) (Spec.row s r) :=
    Fintype.sum_equiv (finCongr hN) (fun t => KAcc.tau m c t)
      (fun s => ∑ r : Fin 512, Spec.gRatio (kIn m c) (Spec.row s r)) (fun t => tile_eq m c hL t)
  exact e1.trans ((congrArg (fun s : EReal => s * Ideal.ofBits .f32 0x38800000#32) e2).trans (Spec.gKl_tiles (kIn m c)).symm)

/-- Read as a scalar, it is that mean. -/
theorem kl_scalar (c : Dev nD) (hL : Spec.Labelled (kIn m c)) :
    shapeCast S_ ((dats m 0 c).arrAt 14 cfg0.N) shapeCasts_S1x1_S_ = fun _ => Spec.gKl (kIn m c) := by
  funext j
  rw [shapeCast_apply (s := S1x1) (t := S_) _ _ j (ix2 0 0) (by
    rw [Shape.rowMajor_val_two]
    show 0 * _ + 0 = (Shape.rowMajorPi _ j).val
    rw [Shape.rowMajorPi_zero]; simp)]
  exact kl_entry m c hL

/-- THE RUN: every weakly fair execution terminates with the four results at the common results of the arguments and the
    arguments unchanged. -/
theorem run (hL : ∀ c : Dev nD, Spec.Labelled (kIn m c)) :
    θ_run defs (onTc (τ := τ) (main (F := Ideal))) ⟨m, fun _ => 0, ρ⟩ (fun r => ∀ c : Dev nD,
      r.2.mem ((c : Thread nD τ).loc main_v9_0) = (fun i => Spec.gOut (kIn m c) ⟨(i 0).val, (i 0).isLt⟩)
      ∧ r.2.mem ((c : Thread nD τ).loc main_v9_1) = (fun i => Spec.gDec (kIn m c) ⟨(i 0).val, (i 0).isLt⟩ ⟨(i 1).val, (i 1).isLt⟩)
      ∧ r.2.mem ((c : Thread nD τ).loc main_v10) = (fun _ => Spec.gKl (kIn m c))
      ∧ r.2.mem ((c : Thread nD τ).loc main_v32) = KTail.ortho (F := Ideal) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c => ⟨
      ((h c).1 12).trans ((final12 m c).trans (G12_eq m c (hL c))),
      ((h c).1 13).trans ((final13 m c).trans (G13_eq m c)),
      ((h c).2 main_v10 (Pipeline.mem_restRefs_of main_v10 (by decide) (by decide))).trans ((KTail.tail_v10 m c).trans (kl_scalar m c (hL c))),
      ((h c).2 main_v32 (Pipeline.mem_restRefs_of main_v32 (by decide) (by decide))).trans (KTail.tail_v32 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 10).trans (((dats m 0 c).arrAt_in 10 rfl _).trans ((A_eq m c 10).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c)))⟩)
    (run_main m ρ)

end Cert.KernelIdeal.KFinal

end
-- ==== Proof.RefEnc.lean ====
/-
  The reference's encoder and decoder, read one row of the batch at a time.

  Row `b` of the reference's encoder output is `Spec.conv` of row `b` of the input table under the four encoder
  weights; its first half is the latent mean `Spec.zr`, its second half clipped is the log-variance `Spec.lvr`, the
  exponential of that the variance; and the decoder's output row is `Spec.decr` of the latent mean.
-/
import proofs.«426893_j22204980920725_3_alg».proof.Proof.Gen.ReferenceIdeal.Read
import proofs.«426893_j22204980920725_3_alg».proof.Proof.Spec
import Idealize.ShloMosaic.Lib.ValueIdx
import Idealize.ShloMosaic.PureOps.Ideal
import Idealize.ShloMosaic.PureOps.Ideal.Laws

noncomputable section

namespace Cert.ReferenceIdeal.RefEnc

open Idealize.ShloMosaic Idealize.ShloMosaic.ValueIdx Cert.ReferenceIdeal Cert.ReferenceIdeal.Gen Cert.ReferenceIdeal.Read

variable (x0 : (⟨S16384x512, .f32⟩ : BufTy).Contents (Elt Ideal)) (x1 : (⟨S16384, .i32⟩ : BufTy).Contents (Elt Ideal)) (x2 : (⟨S128x256, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S256x256, .f32⟩ : BufTy).Contents (Elt Ideal)) (x8 : (⟨S256, .f32⟩ : BufTy).Contents (Elt Ideal)) (x9 : (⟨S512x256, .f32⟩ : BufTy).Contents (Elt Ideal)) (x10 : (⟨S512, .f32⟩ : BufTy).Contents (Elt Ideal)) (x11 : (⟨S1x128, .f32⟩ : BufTy).Contents (Elt Ideal))

/-! ## The encoder -/

/-- The hidden layer: entry `(b, j)` is `max (∑ₖ x (b,k) · W1 (j,k) + b1 j) 0`. The product contracts the row with a row of
    the weight because the weight enters transposed. -/
theorem hid_ref (b : Fin 16384) (j : Fin 512) :
    val_main_v6 (F := Ideal) x0 x3 x4 (ix2 b j)
      = Spec.hid (fun j k => x3 (ix2 j k)) (fun j => x4 (ix1 j)) (fun k => x0 (ix2 b k)) j := by
  have e1 : ∀ k : Fin 512, lidx_main_v1 (ix2 b j) k = ix2 b k := fun k =>
    funext fun a => Fin.ext (by match a with | ⟨0, _⟩ => rfl | ⟨1, _⟩ => rfl)
  have e2 : ∀ k : Fin 512, idx_main_v0 (ridx_main_v1 (ix2 b j) k) = ix2 j k := fun k =>
    funext fun a => Fin.ext (by match a with | ⟨0, _⟩ => rfl | ⟨1, _⟩ => rfl)
  have e3 : idx_main_v2 (idx_main_v3 (ix2 b j)) = ix1 j :=
    funext fun a => Fin.ext (by match a with | ⟨0, _⟩ => rfl)
  rw [val_main_v6_apply, val_main_v4_apply, val_main_v1_apply, val_main_v3_apply, val_main_v2_apply,
    val_main_v5_apply, val_main_cst_apply]
  simp only [val_main_v0_apply, e1, e2, e3, Ideal.ofBits_def, Ideal.addf_def, Ideal.maximumf_def,
    Ideal.ofBits_zero_f32]
  rfl

/-- The encoder's output: entry `(b, j)` is `∑ₖ hid (b,k) · W2 (j,k) + b2 j`, that is `Spec.conv` of row `b`. -/
theorem conv_ref (b : Fin 16384) (j : Fin 512) :
    val_main_v11 (F := Ideal) x0 x3 x4 x5 x6 (ix2 b j)
      = Spec.conv (fun j k => x3 (ix2 j k)) (fun j => x4 (ix1 j)) (fun j k => x5 (ix2 j k)) (fun j => x6 (ix1 j))
          (fun k => x0 (ix2 b k)) j := by
  have e1 : ∀ k : Fin 512, lidx_main_v8 (ix2 b j) k = ix2 b k := fun k =>
    funext fun a => Fin.ext (by match a with | ⟨0, _⟩ => rfl | ⟨1, _⟩ => rfl)
  have e2 : ∀ k : Fin 512, idx_main_v7 (ridx_main_v8 (ix2 b j) k) = ix2 j k := fun k =>
    funext fun a => Fin.ext (by match a with | ⟨0, _⟩ => rfl | ⟨1, _⟩ => rfl)
  have e3 : idx_main_v9 (idx_main_v10 (ix2 b j)) = ix1 j :=
    funext fun a => Fin.ext (by match a with | ⟨0, _⟩ => rfl)
  rw [val_main_v11_apply, val_main_v8_apply, val_main_v10_apply, val_main_v9_apply]
  simp only [val_main_v7_apply, e1, e2, e3, hid_ref, Ideal.addf_def]
  rfl

/-- The first column half of the encoder's output is the latent mean. -/
theorem z_ref (b : Fin 16384) (l : Fin 256) :
    val_main_v12 (F := Ideal) x0 x3 x4 x5 x6 (ix2 b l)
      = Spec.zr (Spec.conv (fun j k => x3 (ix2 j k)) (fun j => x4 (ix1 j)) (fun j k => x5 (ix2 j k)) (fun j => x6 (ix1 j))
          (fun k => x0 (ix2 b k))) l := by
  have e1 : idx_main_v12 (ix2 b l) = ix2 b (⟨l.val, by omega⟩ : Fin 512) :=
    funext fun a => Fin.ext (by match a with | ⟨0, _⟩ => rfl | ⟨1, _⟩ => rfl)
  rw [val_main_v12_apply, e1, conv_ref]
  rfl

/-- The second column half of the encoder's output, clipped between the two bounds, is the latent log-variance. -/
theorem lv_ref (b : Fin 16384) (l : Fin 256) :
    val_main_v14 (F := Ideal) x0 x3 x4 x5 x6 (ix2 b l)
      = Spec.lvr (Spec.conv (fun j k => x3 (ix2 j k)) (fun j => x4 (ix1 j)) (fun j k => x5 (ix2 j k)) (fun j => x6 (ix1 j))
          (fun k => x0 (ix2 b k))) l := by
  have e1 : idx_main_v13 (ix2 b l) = ix2 b (⟨256 + l.val, by omega⟩ : Fin 512) :=
    funext fun a => Fin.ext (by match a with | ⟨0, _⟩ => rfl | ⟨1, _⟩ => rfl)
  rw [val_main_v14_apply, val_main_call0_v4_apply, val_main_call0_v3_apply, val_main_cst_1_apply,
    val_main_call0_v2_apply, val_main_call0_v1_apply, val_main_call0_v0_apply, val_main_cst_0_apply,
    val_main_v13_apply, e1, conv_ref]
  simp only [Ideal.ofBits_def, Ideal.minimumf_def, Ideal.maximumf_def]
  rfl

/-- The variance is the exponential of the log-variance. -/
theorem var_ref (b : Fin 16384) (l : Fin 256) :
    val_main_v60 (F := Ideal) x0 x3 x4 x5 x6 (ix2 b l)
      = Ideal.exp (Spec.lvr (Spec.conv (fun j k => x3 (ix2 j k)) (fun j => x4 (ix1 j)) (fun j k => x5 (ix2 j k))
          (fun j => x6 (ix1 j)) (fun k => x0 (ix2 b k))) l) := by
  rw [val_main_v60_apply, lv_ref, Ideal.hostUnary_exp_def]

/-! ## The decoder -/

/-- The decoder's hidden layer: entry `(b, l)` is `max (∑_q z (b,q) · Wd1 (l,q) + bd1 l) 0`. -/
theorem dhid_ref (b : Fin 16384) (l : Fin 256) :
    val_main_v95 (F := Ideal) x0 x3 x4 x5 x6 x7 x8 (ix2 b l)
      = max ((∑ q : Fin 256,
              Spec.zr (Spec.conv (fun j k => x3 (ix2 j k)) (fun j => x4 (ix1 j)) (fun j k => x5 (ix2 j k))
                (fun j => x6 (ix1 j)) (fun k => x0 (ix2 b k))) q * x7 (ix2 l q)) + x8 (ix1 l)) 0 := by
  have e1 : ∀ q : Fin 256, lidx_main_v90 (ix2 b l) q = ix2 b q := fun q =>
    funext fun a => Fin.ext (by match a with | ⟨0, _⟩ => rfl | ⟨1, _⟩ => rfl)
  have e2 : ∀ q : Fin 256, idx_main_v89 (ridx_main_v90 (ix2 b l) q) = ix2 l q := fun q =>
    funext fun a => Fin.ext (by match a with | ⟨0, _⟩ => rfl | ⟨1, _⟩ => rfl)
  have e3 : idx_main_v91 (idx_main_v92 (ix2 b l)) = ix1 l :=
    funext fun a => Fin.ext (by match a with | ⟨0, _⟩ => rfl)
  rw [val_main_v95_apply, val_main_v93_apply, val_main_v90_apply, val_main_v92_apply, val_main_v91_apply,
    val_main_v94_apply, val_main_cst_22_apply]
  simp only [val_main_v89_apply, e1, e2, e3, z_ref, Ideal.ofBits_def, Ideal.addf_def, Ideal.maximumf_def,
    Ideal.ofBits_zero_f32]

/-- The decoder's output row is `Spec.decr` of the latent mean. -/
theorem dec_ref (b : Fin 16384) (j : Fin 512) :
    val_main_v101 (F := Ideal) x0 x3 x4 x5 x6 x7 x8 x9 x10 (ix2 b j)
      = Spec.decr (fun l q => x7 (ix2 l q)) (fun l => x8 (ix1 l)) (fun j l => x9 (ix2 j l)) (fun j => x10 (ix1 j))
          (Spec.zr (Spec.conv (fun j k => x3 (ix2 j k)) (fun j => x4 (ix1 j)) (fun j k => x5 (ix2 j k))
            (fun j => x6 (ix1 j)) (fun k => x0 (ix2 b k)))) j := by
  have e1 : ∀ l : Fin 256, lidx_main_v97 (ix2 b j) l = ix2 b l := fun l =>
    funext fun a => Fin.ext (by match a with | ⟨0, _⟩ => rfl | ⟨1, _⟩ => rfl)
  have e2 : ∀ l : Fin 256, idx_main_v96 (ridx_main_v97 (ix2 b j) l) = ix2 j l := fun l =>
    funext fun a => Fin.ext (by match a with | ⟨0, _⟩ => rfl | ⟨1, _⟩ => rfl)
  have e3 : idx_main_v98 (idx_main_v99 (ix2 b j)) = ix1 j :=
    funext fun a => Fin.ext (by match a with | ⟨0, _⟩ => rfl)
  rw [val_main_v101_apply, val_main_v100_apply, val_main_v97_apply, val_main_v99_apply, val_main_v98_apply]
  simp only [val_main_v96_apply, e1, e2, e3, dhid_ref, Ideal.addf_def, Ideal.hostUnary_tanh_def]
  rfl

end Cert.ReferenceIdeal.RefEnc

end
-- ==== Proof.RefSim.lean ====
/-
  The reference's similarity and divergence stage, read one element at a time over the extended reals.

  With the label word of sample `b` naming class `c` (`0 ≤ c < 8`):
  * the index word of prototype slot `p` is `16c + p`, which is not negative and below 128, so the wrap-around select
    keeps it and the gather's clamp leaves it: the gathered row is row `16c + p` of the prototype table;
  * `z − gathered` is `Spec.dif`, its lane sum of squares under the square root `Spec.dist`, and the logarithm of
    `(dist + 1) / (dist + ε)` is `Spec.sim`;
  * the lane sum of `−½·lv + ½·(exp lv + dif²) − ½` over 256 is `Spec.klr`, its product with the similarity `Spec.klw`,
    the comparison `klw > 0` read as a number `Spec.msk`, and the quotient of the two sums over the sixteen slots
    `Spec.ratio`;
  * the loss is the sum of the ratios over the batch divided by 16384.
-/
import proofs.«426893_j22204980920725_3_alg».proof.Proof.Gen.ReferenceIdeal.Read
import proofs.«426893_j22204980920725_3_alg».proof.Proof.Spec
import Idealize.ShloMosaic.Lib.ValueIdx
import Idealize.ShloMosaic.PureOps.Ideal.Laws

noncomputable section

namespace Cert.ReferenceIdeal.RefSim

open Idealize.ShloMosaic Idealize.ShloMosaic.ValueIdx Cert.ReferenceIdeal Cert.ReferenceIdeal.Gen Cert.ReferenceIdeal.Read

variable (x0 : (⟨S16384x512, .f32⟩ : BufTy).Contents (Elt Ideal)) (x1 : (⟨S16384, .i32⟩ : BufTy).Contents (Elt Ideal)) (x2 : (⟨S128x256, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))

/-- The index word of prototype slot `p` at a sample of class `c`: `16c + p` is not negative, so the wrap-around select keeps it. -/
theorem word_sel (c : Fin 8) (p : Fin 16) :
    Scalar.select (IntOp.cmpi .slt (IntOp.addi (IntOp.muli (BitVec.ofNat 32 c.val) 16#32) (BitVec.ofNat 32 p.val)) 0#32)
      (IntOp.addi (IntOp.addi (IntOp.muli (BitVec.ofNat 32 c.val) 16#32) (BitVec.ofNat 32 p.val)) 128#32)
      (IntOp.addi (IntOp.muli (BitVec.ofNat 32 c.val) 16#32) (BitVec.ofNat 32 p.val)) = BitVec.ofNat 32 (16 * c.val + p.val) := by
  revert c p; decide

theorem idx_word (b : Fin 16384) (c : Fin 8) (hc : x1 (ix1 b) = BitVec.ofNat 32 c.val) (p : Fin 16) (q : Fin 1) :
    val_main_v28 (F := Ideal) x1 (ix3 b p q) = BitVec.ofNat 32 (16 * c.val + p.val) := by
  have e1 : idx_main_v15 (idx_main_v20 (idx_main_v28 (ix3 b p q))) = ix1 b :=
    funext fun a => Fin.ext (by match a with | ⟨0, _⟩ => rfl)
  rw [val_main_v28_apply, val_main_v27_apply, val_main_v24_apply, val_main_v26_apply, val_main_v22_apply,
    val_main_v20_apply, val_main_v17_apply, val_main_v15_apply, val_main_v16_apply, val_main_c_apply,
    val_main_v21_apply, val_main_v19_apply, val_main_v18_apply, val_main_v23_apply, val_main_c_2_apply,
    val_main_v25_apply, val_main_c_3_apply, e1, hc]
  exact word_sel c p

/-- The gather's dimension numbers: rows of the table picked by the index word, the whole row kept. -/
abbrev GD : GatherDims S128x256 S16384x16x1 S16384x16x256 := gather_S128x256_S16384x16x1_S16384x16x256_2_0_n_n_0_2_1256

/-- On the table's row axis the gather reads the index word, signed, clamped into `[0, 127]`. -/
theorem gather_row (idx : IVec S16384x16x1 32) (b : Fin 16384) (p : Fin 16) (l : Fin 256) :
    (GD.operandIdx (ix3 b p l) idx 0).val = min (idx (ix3 b p (0 : Fin 1))).toInt.toNat 127 := by
  show GD.start (ix3 b p l) idx 0 + GD.batchCoord (ix3 b p l) 0 + GD.offCoord (ix3 b p l) 0 = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (show (0 : Fin S128x256.rank) ∈ GD.startIndexMap by decide)]
  have hsi : GD.siIdx (ix3 b p l) ⟨List.idxOf (0 : Fin S128x256.rank) GD.startIndexMap,
      List.idxOf_lt_length_iff.2 (by decide)⟩ = ix3 b p (0 : Fin 1) := by
    funext a; refine Fin.ext ?_
    match a with
    | ⟨0, _⟩ => rfl
    | ⟨1, _⟩ => rfl
    | ⟨2, _⟩ => rfl
  rw [hsi]
  rfl

/-- On the table's lane axis the gather reads the result's own lane. -/
theorem gather_lane (idx : IVec S16384x16x1 32) (b : Fin 16384) (p : Fin 16) (l : Fin 256) :
    (GD.operandIdx (ix3 b p l) idx 1).val = l.val := by
  show GD.start (ix3 b p l) idx 1 + GD.batchCoord (ix3 b p l) 1 + GD.offCoord (ix3 b p l) 1 = _
  rw [GatherDims.batchCoord_eq_zero _ _ _ (by decide)]
  unfold GatherDims.start
  rw [dif_neg (show ¬ (1 : Fin S128x256.rank) ∈ GD.startIndexMap by decide)]
  unfold GatherDims.offCoord
  rw [dif_pos (show (1 : Fin S128x256.rank) ∈ GD.sKept by decide)]
  simp only [Nat.zero_add, Nat.add_zero]
  rfl

/-- The word `16c + p` read signed is the natural `16c + p`, below 128. -/
theorem word_nat (c : Fin 8) (p : Fin 16) :
    min (BitVec.ofNat 32 (16 * c.val + p.val)).toInt.toNat 127 = 16 * c.val + p.val := by
  revert c p; decide

/-- The gather at sample `b`, prototype slot `p`, lane `l`: row `16c + p` of the table at lane `l`. -/
theorem gather_ref (b : Fin 16384) (c : Fin 8) (hc : x1 (ix1 b) = BitVec.ofNat 32 c.val) (p : Fin 16) (l : Fin 256) :
    val_main_v29 (F := Ideal) x1 x2 (ix3 b p l) = x2 (ix2 ⟨16 * c.val + p.val, by omega⟩ l) := by
  unfold val_main_v29 Host.gather
  refine congrArg x2 (funext fun a => Fin.ext ?_)
  match a with
  | ⟨0, _⟩ =>
    refine (gather_row (val_main_v28 (F := Ideal) x1) b p l).trans ?_
    rw [idx_word x1 b c hc p 0]
    exact word_nat c p
  | ⟨1, _⟩ => exact gather_lane (val_main_v28 (F := Ideal) x1) b p l

/-- The latent mean less the class's prototype, at sample `b`, slot `p`, lane `l`. -/
theorem dif_ref (Z : Fin 16384 → Fin 256 → EReal)
    (hz : ∀ b l, val_main_v12 (F := Ideal) x0 x3 x4 x5 x6 (ix2 b l) = Z b l)
    (b : Fin 16384) (c : Fin 8) (hc : x1 (ix1 b) = BitVec.ofNat 32 c.val) (p : Fin 16) (l : Fin 256) :
    val_main_v32 (F := Ideal) x0 x1 x2 x3 x4 x5 x6 (ix3 b p l) = Spec.dif (fun a q => x2 (ix2 a q)) c (Z b) p l := by
  have e1 : idx_main_v30 (idx_main_v31 (ix3 b p l)) = ix2 b l :=
    funext fun a => Fin.ext (by match a with | ⟨0, _⟩ => rfl | ⟨1, _⟩ => rfl)
  rw [val_main_v32_apply, val_main_v31_apply, val_main_v30_apply, e1, hz, gather_ref x1 x2 b c hc p l]
  rfl

/-- The squared distance to prototype slot `p`: the lane sum of the squared differences. -/
theorem sumsq_ref (Z : Fin 16384 → Fin 256 → EReal)
    (hz : ∀ b l, val_main_v12 (F := Ideal) x0 x3 x4 x5 x6 (ix2 b l) = Z b l)
    (b : Fin 16384) (c : Fin 8) (hc : x1 (ix1 b) = BitVec.ofNat 32 c.val) (p : Fin 16) :
    val_main_v34 (F := Ideal) x0 x1 x2 x3 x4 x5 x6 (ix2 b p)
      = ∑ l : Fin 256, Spec.dif (fun a q => x2 (ix2 a q)) c (Z b) p l * Spec.dif (fun a q => x2 (ix2 a q)) c (Z b) p l := by
  rw [val_main_v34_apply, val_main_cst_4_apply, Ideal.ofBits_def, Ideal.ofBits_zero_f32, zero_add]
  refine Finset.sum_congr rfl fun l _ => ?_
  have e1 : idx_main_v34 (ix2 b p) l = ix3 b p l :=
    funext fun a => Fin.ext (by match a with | ⟨0, _⟩ => rfl | ⟨1, _⟩ => rfl | ⟨2, _⟩ => rfl)
  rw [e1, val_main_v33_apply, dif_ref x0 x1 x2 x3 x4 x5 x6 Z hz b c hc p l]
  rfl

/-- The similarity to prototype slot `p`. -/
theorem sim_ref (Z : Fin 16384 → Fin 256 → EReal)
    (hz : ∀ b l, val_main_v12 (F := Ideal) x0 x3 x4 x5 x6 (ix2 b l) = Z b l)
    (b : Fin 16384) (c : Fin 8) (hc : x1 (ix1 b) = BitVec.ofNat 32 c.val) (p : Fin 16) :
    val_main_v41 (F := Ideal) x0 x1 x2 x3 x4 x5 x6 (ix2 b p) = Spec.sim (Spec.dif (fun a q => x2 (ix2 a q)) c (Z b)) p := by
  rw [val_main_v41_apply, val_main_v40_apply, val_main_v37_apply, val_main_v39_apply, val_main_v35_apply,
    val_main_v36_apply, val_main_cst_5_apply, val_main_v38_apply, val_main_cst_6_apply,
    sumsq_ref x0 x1 x2 x3 x4 x5 x6 Z hz b c hc p]
  rfl

/-- The indicator of `x > 0` as the comparison's bit read as a number. -/
theorem ind_pos (x : EReal) :
    FloatOps.uitofp (F := Ideal) .f32 (FloatOps.cmpf (F := Ideal) (φ := .f32) .ogt x (Ideal.ofBits .f32 0x00000000#32))
      = if 0 < x then (1 : EReal) else 0 := by
  rw [Ideal.ofBits_zero_f32]
  show (((Ideal.cmp .ogt x 0).toNat : ℝ) : EReal) = _
  unfold Ideal.cmp
  by_cases h : (0 : EReal) < x
  · simp [h]
  · simp [h]

/-- One lane's term of the divergence. -/
theorem klterm_ref (Z LV : Fin 16384 → Fin 256 → EReal)
    (hz : ∀ b l, val_main_v12 (F := Ideal) x0 x3 x4 x5 x6 (ix2 b l) = Z b l)
    (hlv : ∀ b l, val_main_v14 (F := Ideal) x0 x3 x4 x5 x6 (ix2 b l) = LV b l)
    (hvar : ∀ b l, val_main_v60 (F := Ideal) x0 x3 x4 x5 x6 (ix2 b l) = Ideal.exp (LV b l))
    (b : Fin 16384) (c : Fin 8) (hc : x1 (ix1 b) = BitVec.ofNat 32 c.val) (p : Fin 16) (l : Fin 256) :
    val_main_v73 (F := Ideal) x0 x1 x2 x3 x4 x5 x6 (ix3 b p l)
      = Spec.mhalf * LV b l
        + Spec.half * (Ideal.exp (LV b l) + Spec.dif (fun a q => x2 (ix2 a q)) c (Z b) p l * Spec.dif (fun a q => x2 (ix2 a q)) c (Z b) p l) - Spec.half := by
  have e1 : idx_main_v61 (idx_main_v70 (ix3 b p l)) = ix2 b l :=
    funext fun a => Fin.ext (by match a with | ⟨0, _⟩ => rfl | ⟨1, _⟩ => rfl)
  have e2 : idx_main_v64 (idx_main_v66 (ix3 b p l)) = ix2 b l :=
    funext fun a => Fin.ext (by match a with | ⟨0, _⟩ => rfl | ⟨1, _⟩ => rfl)
  rw [val_main_v73_apply, val_main_v71_apply, val_main_v70_apply, val_main_v63_apply, val_main_v62_apply,
    val_main_cst_12_apply, val_main_v61_apply, e1, hlv, val_main_v69_apply, val_main_v68_apply, val_main_cst_13_apply,
    val_main_v67_apply, val_main_v66_apply, val_main_v64_apply, e2, hvar, val_main_v65_apply,
    dif_ref x0 x1 x2 x3 x4 x5 x6 Z hz b c hc p l, val_main_v72_apply, val_main_cst_14_apply]
  rfl

/-- The divergence term of prototype slot `p`. -/
theorem klr_ref (Z LV : Fin 16384 → Fin 256 → EReal)
    (hz : ∀ b l, val_main_v12 (F := Ideal) x0 x3 x4 x5 x6 (ix2 b l) = Z b l)
    (hlv : ∀ b l, val_main_v14 (F := Ideal) x0 x3 x4 x5 x6 (ix2 b l) = LV b l)
    (hvar : ∀ b l, val_main_v60 (F := Ideal) x0 x3 x4 x5 x6 (ix2 b l) = Ideal.exp (LV b l))
    (b : Fin 16384) (c : Fin 8) (hc : x1 (ix1 b) = BitVec.ofNat 32 c.val) (p : Fin 16) :
    val_main_v76 (F := Ideal) x0 x1 x2 x3 x4 x5 x6 (ix2 b p) = Spec.klr (Spec.dif (fun a q => x2 (ix2 a q)) c (Z b)) (LV b) p := by
  rw [val_main_v76_apply, val_main_v74_apply, val_main_cst_15_apply, val_main_v75_apply, val_main_cst_16_apply,
    Ideal.ofBits_def, Ideal.ofBits_zero_f32, zero_add, Ideal.hostDivf_def, Ideal.ofBits_def]
  unfold Spec.klr Spec.c256
  refine congrArg (fun s => Ideal.div s (Ideal.ofBits .f32 0x43800000#32)) (Finset.sum_congr rfl fun l _ => ?_)
  have e1 : idx_main_v74 (ix2 b p) l = ix3 b p l :=
    funext fun a => Fin.ext (by match a with | ⟨0, _⟩ => rfl | ⟨1, _⟩ => rfl | ⟨2, _⟩ => rfl)
  rw [e1, klterm_ref x0 x1 x2 x3 x4 x5 x6 Z LV hz hlv hvar b c hc p l]

/-- The weighted divergence term of prototype slot `p`. -/
theorem klw_ref (Z LV : Fin 16384 → Fin 256 → EReal)
    (hz : ∀ b l, val_main_v12 (F := Ideal) x0 x3 x4 x5 x6 (ix2 b l) = Z b l)
    (hlv : ∀ b l, val_main_v14 (F := Ideal) x0 x3 x4 x5 x6 (ix2 b l) = LV b l)
    (hvar : ∀ b l, val_main_v60 (F := Ideal) x0 x3 x4 x5 x6 (ix2 b l) = Ideal.exp (LV b l))
    (b : Fin 16384) (c : Fin 8) (hc : x1 (ix1 b) = BitVec.ofNat 32 c.val) (p : Fin 16) :
    val_main_v77 (F := Ideal) x0 x1 x2 x3 x4 x5 x6 (ix2 b p) = Spec.klw (Spec.dif (fun a q => x2 (ix2 a q)) c (Z b)) (LV b) p := by
  rw [val_main_v77_apply, klr_ref x0 x1 x2 x3 x4 x5 x6 Z LV hz hlv hvar b c hc p,
    sim_ref x0 x1 x2 x3 x4 x5 x6 Z hz b c hc p]
  rfl

/-- The indicator of a positive weighted term. -/
theorem msk_ref (Z LV : Fin 16384 → Fin 256 → EReal)
    (hz : ∀ b l, val_main_v12 (F := Ideal) x0 x3 x4 x5 x6 (ix2 b l) = Z b l)
    (hlv : ∀ b l, val_main_v14 (F := Ideal) x0 x3 x4 x5 x6 (ix2 b l) = LV b l)
    (hvar : ∀ b l, val_main_v60 (F := Ideal) x0 x3 x4 x5 x6 (ix2 b l) = Ideal.exp (LV b l))
    (b : Fin 16384) (c : Fin 8) (hc : x1 (ix1 b) = BitVec.ofNat 32 c.val) (p : Fin 16) :
    val_main_v80 (F := Ideal) x0 x1 x2 x3 x4 x5 x6 (ix2 b p) = Spec.msk (Spec.dif (fun a q => x2 (ix2 a q)) c (Z b)) (LV b) p := by
  rw [val_main_v80_apply, val_main_v79_apply, klw_ref x0 x1 x2 x3 x4 x5 x6 Z LV hz hlv hvar b c hc p,
    val_main_v78_apply, val_main_cst_17_apply, Ideal.ofBits_def]
  exact ind_pos _

/-- The sample's ratio. -/
theorem ratio_ref (Z LV : Fin 16384 → Fin 256 → EReal)
    (hz : ∀ b l, val_main_v12 (F := Ideal) x0 x3 x4 x5 x6 (ix2 b l) = Z b l)
    (hlv : ∀ b l, val_main_v14 (F := Ideal) x0 x3 x4 x5 x6 (ix2 b l) = LV b l)
    (hvar : ∀ b l, val_main_v60 (F := Ideal) x0 x3 x4 x5 x6 (ix2 b l) = Ideal.exp (LV b l))
    (b : Fin 16384) (c : Fin 8) (hc : x1 (ix1 b) = BitVec.ofNat 32 c.val) :
    val_main_v84 (F := Ideal) x0 x1 x2 x3 x4 x5 x6 (ix1 b) = Spec.ratio (Spec.dif (fun a q => x2 (ix2 a q)) c (Z b)) (LV b) := by
  rw [val_main_v84_apply, val_main_v81_apply, val_main_v83_apply, val_main_cst_18_apply, val_main_cst_19_apply,
    Ideal.ofBits_def, Ideal.ofBits_zero_f32, zero_add, zero_add, Ideal.hostDivf_def]
  unfold Spec.ratio
  refine congrArg₂ Ideal.div (Finset.sum_congr rfl fun p _ => ?_) (Finset.sum_congr rfl fun p _ => ?_)
  · have e1 : idx_main_v81 (ix1 b) p = ix2 b p :=
      funext fun a => Fin.ext (by match a with | ⟨0, _⟩ => rfl | ⟨1, _⟩ => rfl)
    rw [e1, klw_ref x0 x1 x2 x3 x4 x5 x6 Z LV hz hlv hvar b c hc p]
  · have e1 : idx_main_v83 (ix1 b) p = ix2 b p :=
      funext fun a => Fin.ext (by match a with | ⟨0, _⟩ => rfl | ⟨1, _⟩ => rfl)
    rw [e1, val_main_v82_apply, sim_ref x0 x1 x2 x3 x4 x5 x6 Z hz b c hc p,
      msk_ref x0 x1 x2 x3 x4 x5 x6 Z LV hz hlv hvar b c hc p]
    rfl

/-- A sum over a rank-1 index set is the sum over its coordinate. -/
theorem sum_idx1 {M : Type} [AddCommMonoid M] {n : Nat} (f : (⟨1, ![n]⟩ : Shape).Idx → M) :
    ∑ i, f i = ∑ a : Fin n, f (ix1 a) :=
  (Fintype.sum_equiv ⟨fun a => ix1 a, fun i => i 0, fun _ => rfl, fun i => (eq_ix1 i).symm⟩ _ _ (fun _ => rfl)).symm

/-- The loss: the mean over the batch of the samples' ratios. -/
theorem kl_ref (Z LV : Fin 16384 → Fin 256 → EReal)
    (hz : ∀ b l, val_main_v12 (F := Ideal) x0 x3 x4 x5 x6 (ix2 b l) = Z b l)
    (hlv : ∀ b l, val_main_v14 (F := Ideal) x0 x3 x4 x5 x6 (ix2 b l) = LV b l)
    (hvar : ∀ b l, val_main_v60 (F := Ideal) x0 x3 x4 x5 x6 (ix2 b l) = Ideal.exp (LV b l))
    (hT : ∀ b : Fin 16384, ∃ c : Fin 8, x1 (ix1 b) = BitVec.ofNat 32 c.val) :
    val_main_v86 (F := Ideal) x0 x1 x2 x3 x4 x5 x6 ix0
      = Ideal.div (∑ b : Fin 16384, Spec.ratio (Spec.dif (fun a q => x2 (ix2 a q)) (Spec.cls (x1 (ix1 b))) (Z b)) (LV b))
          (Ideal.ofBits .f32 0x46800000#32) := by
  rw [val_main_v86_apply, val_main_v85_apply, val_main_cst_20_apply, val_main_cst_21_apply,
    Ideal.ofBits_def, Ideal.ofBits_zero_f32, zero_add, Ideal.hostDivf_def, Ideal.ofBits_def]
  refine congrArg (fun s => Ideal.div s (Ideal.ofBits .f32 0x46800000#32)) ?_
  refine (sum_idx1 _).trans (Finset.sum_congr rfl fun b _ => ?_)
  obtain ⟨c, hc⟩ := hT b
  rw [ratio_ref x0 x1 x2 x3 x4 x5 x6 Z LV hz hlv hvar b c hc, hc, Spec.cls_ofNat]

end Cert.ReferenceIdeal.RefSim

end
-- ==== Proof.LibScatter.lean ====
/-
  A set-scatter read at an index.

  `Host.scatter d (fun _ b => b) x idx upd` walks the update indices in row-major order and, for each one whose
  target lies inside the operand, overwrites the operand's element at that target with the update's element.
  Read at an operand index `i`:
  * if no update index targets `i`, the element is the operand's own (`scatter_set_miss`);
  * if some update index `j₀` targets `i`, and every update index targeting `i` carries the same value as `j₀`
    (in particular when the in-range targets are pairwise distinct), the element is the update's at `j₀`
    (`scatter_set_hit`).
  Both are proved for any list of steps by induction on the list; nothing is evaluated.
-/
import Idealize.ShloMosaic.PureOps.ShapeOps

namespace Idealize.ShloMosaic.LibScatter

open Idealize.ShloMosaic

section Fold
variable {ι α β : Type} [DecidableEq ι]

/-- One overwrite step of the walk: the element at the step's target becomes the step's value. -/
def step (tgt : β → Option ι) (val : β → α) (r : ι → α) (n : β) : ι → α :=
  match tgt n with
  | some i => fun i' => if i' = i then val n else r i'
  | none => r

theorem step_apply_of_ne (tgt : β → Option ι) (val : β → α) (r : ι → α) (n : β) (i : ι) (h : tgt n ≠ some i) :
    step tgt val r n i = r i := by
  unfold step
  cases hn : tgt n with
  | none => rfl
  | some k =>
    have hk : i ≠ k := fun e => h (by rw [hn, e])
    simp only [if_neg hk]

theorem step_apply_of_eq (tgt : β → Option ι) (val : β → α) (r : ι → α) (n : β) (i : ι) (h : tgt n = some i) :
    step tgt val r n i = val n := by
  unfold step
  rw [h]
  simp only [if_true]

/-- No step of the list targets `i`: the walk leaves the element at `i` alone. -/
theorem foldl_step_miss (tgt : β → Option ι) (val : β → α) (i : ι) :
    ∀ (l : List β) (r : ι → α), (∀ n ∈ l, tgt n ≠ some i) → l.foldl (step tgt val) r i = r i
  | [], _, _ => rfl
  | a :: l, r, h => by
    rw [List.foldl_cons, foldl_step_miss tgt val i l _ (fun n hn => h n (List.mem_cons_of_mem _ hn)),
      step_apply_of_ne tgt val r a i (h a List.mem_cons_self)]

/-- Every step of the list that targets `i` carries the value `v`, and the element at `i` is already `v`: it stays `v`. -/
theorem foldl_step_keep (tgt : β → Option ι) (val : β → α) (i : ι) (v : α) :
    ∀ (l : List β) (r : ι → α), (∀ n ∈ l, tgt n = some i → val n = v) → r i = v → l.foldl (step tgt val) r i = v
  | [], _, _, hr => hr
  | a :: l, r, h, hr => by
    rw [List.foldl_cons]
    refine foldl_step_keep tgt val i v l _ (fun n hn => h n (List.mem_cons_of_mem _ hn)) ?_
    by_cases ha : tgt a = some i
    · rw [step_apply_of_eq tgt val r a i ha]; exact h a List.mem_cons_self ha
    · rw [step_apply_of_ne tgt val r a i ha]; exact hr

/-- Every step of the list that targets `i` carries the value `v`, and some step does target `i`: the walk ends with `v` at `i`. -/
theorem foldl_step_hit (tgt : β → Option ι) (val : β → α) (i : ι) (v : α) :
    ∀ (l : List β) (r : ι → α), (∀ n ∈ l, tgt n = some i → val n = v) → (∃ n ∈ l, tgt n = some i) →
      l.foldl (step tgt val) r i = v
  | [], _, _, ⟨_, hn, _⟩ => absurd hn List.not_mem_nil
  | a :: l, r, h, ⟨n, hn, hni⟩ => by
    rw [List.foldl_cons]
    by_cases ha : tgt a = some i
    · exact foldl_step_keep tgt val i v l _ (fun n hn => h n (List.mem_cons_of_mem _ hn))
        (by rw [step_apply_of_eq tgt val r a i ha]; exact h a List.mem_cons_self ha)
    · refine foldl_step_hit tgt val i v l _ (fun n hn => h n (List.mem_cons_of_mem _ hn)) ?_
      rcases List.mem_cons.mp hn with rfl | hn'
      · exact absurd hni ha
      · exact ⟨n, hn', hni⟩

end Fold

section Scatter
variable {α : Type} {s si u : Shape} {w : Nat}

/-- The set-scatter is the walk of overwrite steps over the update indices in row-major order. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- No update index targets `i`: the scatter leaves the operand's element there. -/
theorem scatter_set_miss (d : ScatterDims s si u) (x : s.Idx → α) (idx : IVec si w) (upd : u.Idx → α) (i : s.Idx)
    (hmiss : ∀ j : u.Idx, d.resultIdx? j idx ≠ some i) :
    Host.scatter d (fun _ b => b) x idx upd i = x i := by
  rw [scatter_set_eq_foldl]
  exact foldl_step_miss _ _ i _ _ (fun n _ => hmiss _)

/-- The update index `j₀` targets `i`, and every update index that targets `i` carries `j₀`'s value: the scatter
    has that value at `i`. -/
theorem scatter_set_hit (d : ScatterDims s si u) (x : s.Idx → α) (idx : IVec si w) (upd : u.Idx → α) (i : s.Idx)
    (j₀ : u.Idx) (h₀ : d.resultIdx? j₀ idx = some i)
    (hsame : ∀ j : u.Idx, d.resultIdx? j idx = some i → upd j = upd j₀) :
    Host.scatter d (fun _ b => b) x idx upd i = upd j₀ := by
  rw [scatter_set_eq_foldl]
  refine foldl_step_hit _ _ i (upd j₀) _ _ (fun n _ hn => hsame _ hn) ⟨u.rowMajor j₀, List.mem_finRange _, ?_⟩
  rw [Equiv.symm_apply_apply]; exact h₀

end Scatter

end Idealize.ShloMosaic.LibScatter
-- ==== Proof.RefOut.lean ====
/-
  The reference's first result, one sample at a time.

  The reference places the sixteen similarities of sample `b` into a zero array of 128 columns at the columns
  `16·t_b + p` (a set-scatter whose index vectors are (row number, column)), then multiplies by the transposed last
  layer. Read at row `b`:
  * the index vector of update `(b, p)` is `(b, 16·c + p)` when the label word of row `b` is `c < 8`: the
    "negative, so add the extent" normalisation never fires on words this small;
  * an update lands where its index vector says, so `(b, j)` is the target of the single update `(b, j mod 16)` when
    `j / 16 = c` and of no update otherwise: the scattered row is `Spec.fullsim`;
  * the product with the last layer is the sum over the 128 columns: `Spec.outr`.
-/
import proofs.«426893_j22204980920725_3_alg».proof.Proof.Gen.ReferenceIdeal.Read
import proofs.«426893_j22204980920725_3_alg».proof.Proof.Spec
import proofs.«426893_j22204980920725_3_alg».proof.Proof.LibScatter
import Idealize.ShloMosaic.Lib.ValueIdx
import Idealize.ShloMosaic.Lib.Pipeline.Value

noncomputable section

namespace Cert.ReferenceIdeal.RefOut

open Idealize.ShloMosaic Idealize.ShloMosaic.ValueIdx Idealize.ShloMosaic.LibScatter Cert.ReferenceIdeal Cert.ReferenceIdeal.Gen Cert.ReferenceIdeal.Read

variable (x0 : (⟨S16384x512, .f32⟩ : BufTy).Contents (Elt Ideal)) (x1 : (⟨S16384, .i32⟩ : BufTy).Contents (Elt Ideal))
  (x2 : (⟨S128x256, .f32⟩ : BufTy).Contents (Elt Ideal)) (x3 : (⟨S512x512, .f32⟩ : BufTy).Contents (Elt Ideal))
  (x4 : (⟨S512, .f32⟩ : BufTy).Contents (Elt Ideal)) (x5 : (⟨S512x512, .f32⟩ : BufTy).Contents (Elt Ideal))
  (x6 : (⟨S512, .f32⟩ : BufTy).Contents (Elt Ideal)) (x11 : (⟨S1x128, .f32⟩ : BufTy).Contents (Elt Ideal))

/-! ## Words -/

/-- A word below 2^31 reads signed as itself. -/
theorem toInt_ofNat_small (n : Nat) (h : n < 2147483648) : (BitVec.ofNat 32 n).toInt = (n : Int) := by
  have h1 : (BitVec.ofNat 32 n).toNat = n := by rw [BitVec.toNat_ofNat]; omega
  rw [BitVec.toInt_eq_toNat_of_lt (by rw [h1]; omega), h1]

/-- A word below 2^31 is not negative. -/
theorem slt_zero_small (n : Nat) (h : n < 2147483648) : IntOp.cmpi .slt (BitVec.ofNat 32 n) 0#32 = 0#1 := by
  unfold IntOp.cmpi
  simp only [BitVec.slt_eq_decide, toInt_ofNat_small n h]
  have : ¬ ((n : Int) < (0#32 : BitVec 32).toInt) := by
    have : (0#32 : BitVec 32).toInt = 0 := by decide
    omega
  rw [decide_eq_false this]
  rfl

/-- The index normalisation "negative, so add the extent" leaves a word below 2^31 alone. -/
theorem wrap_small (n : Nat) (h : n < 2147483648) (k : BitVec 32) :
    Scalar.select (IntOp.cmpi .slt (BitVec.ofNat 32 n) 0#32) (IntOp.addi (BitVec.ofNat 32 n) k) (BitVec.ofNat 32 n)
      = BitVec.ofNat 32 n := by
  rw [slt_zero_small n h, select_zero]

/-- Sixteen times a label below 8, plus a slot below 16, as words. -/
theorem lab_word (c p : Nat) (hc : c < 8) (hp : p < 16) :
    IntOp.addi (IntOp.muli (BitVec.ofNat 32 c) 16#32) (BitVec.ofNat 32 p) = BitVec.ofNat 32 (16 * c + p) := by
  apply BitVec.eq_of_toNat_eq
  simp only [IntOp.addi, IntOp.muli, BitVec.toNat_add, BitVec.toNat_mul, BitVec.toNat_ofNat]
  omega

/-! ## The scatter indices -/

/-- Component 0 of the index vector of update `(b, p)` is the row number `b`. -/
theorem row_word (b : Fin 16384) (p : Fin 16) :
    val_main_v56 (F := Ideal) (ix3 b p (0 : Fin 1)) = BitVec.ofNat 32 b.val := by
  have e : idx_main_v44 (idx_main_v55 (idx_main_v56 (ix3 b p (0 : Fin 1)))) = ix1 b :=
    funext fun a => Fin.ext (by match a with | ⟨0, _⟩ => rfl)
  rw [val_main_v56_apply, val_main_v55_apply, val_main_v49_apply, val_main_v46_apply, val_main_v48_apply,
    val_main_v44_apply, val_main_v45_apply, val_main_v47_apply, val_main_v43_apply, val_main_c_8_apply,
    val_main_c_9_apply, e]
  exact wrap_small b.val (by omega) _

/-- Component 1 of the index vector of update `(b, p)` is `16·c + p` when row `b` carries the label `c`. -/
theorem col_word (b : Fin 16384) (p : Fin 16) (c : Fin 8) (hc : x1 (ix1 b) = BitVec.ofNat 32 c.val) :
    val_main_v57 (F := Ideal) x1 (ix3 b p (0 : Fin 1)) = BitVec.ofNat 32 (16 * c.val + p.val) := by
  have e1 : idx_main_v15 (idx_main_v20 (idx_main_v57 (ix3 b p (0 : Fin 1)))) = ix1 b :=
    funext fun a => Fin.ext (by match a with | ⟨0, _⟩ => rfl)
  have e2 : idx_main_v19 (idx_main_v21 (idx_main_v57 (ix3 b p (0 : Fin 1)))) = ix1 p :=
    funext fun a => Fin.ext (by match a with | ⟨0, _⟩ => rfl)
  rw [val_main_v57_apply, val_main_v54_apply, val_main_v51_apply, val_main_v53_apply, val_main_v22_apply,
    val_main_v20_apply, val_main_v17_apply, val_main_v15_apply, val_main_v16_apply, val_main_c_apply,
    val_main_v21_apply, val_main_v19_apply, val_main_v18_apply, val_main_v50_apply, val_main_c_10_apply,
    val_main_v52_apply, val_main_c_11_apply, e1, e2, hc]
  show Scalar.select (IntOp.cmpi .slt (IntOp.addi (IntOp.muli (BitVec.ofNat 32 c.val) 16#32) (BitVec.ofNat 32 p.val)) 0#32)
      (IntOp.addi (IntOp.addi (IntOp.muli (BitVec.ofNat 32 c.val) 16#32) (BitVec.ofNat 32 p.val)) 128#32)
      (IntOp.addi (IntOp.muli (BitVec.ofNat 32 c.val) 16#32) (BitVec.ofNat 32 p.val)) = _
  rw [lab_word c.val p.val c.isLt p.isLt]
  exact wrap_small _ (by omega) _

/-- The index vectors are the two components joined along the last axis: component 0 … -/
theorem v58_row (b : Fin 16384) (p : Fin 16) :
    val_main_v58 (F := Ideal) x1 (ix3 b p (0 : Fin 2)) = val_main_v56 (F := Ideal) (ix3 b p (0 : Fin 1)) := by
  unfold val_main_v58
  exact concatenate_pair_apply_left (t := S16384x16x2) (s₁ := S16384x16x1) (s₂ := S16384x16x1) (2 : Fin 3) _ _ _ (ix3 b p (0 : Fin 2)) rfl (ix3 b p (0 : Fin 1))
    (fun a => match a with | ⟨0, _⟩ => rfl | ⟨1, _⟩ => rfl | ⟨2, _⟩ => rfl)

/-- … and component 1. -/
theorem v58_col (b : Fin 16384) (p : Fin 16) :
    val_main_v58 (F := Ideal) x1 (ix3 b p (1 : Fin 2)) = val_main_v57 (F := Ideal) x1 (ix3 b p (0 : Fin 1)) := by
  unfold val_main_v58
  exact concatenate_pair_apply_right (t := S16384x16x2) (s₁ := S16384x16x1) (s₂ := S16384x16x1) (2 : Fin 3) _ _ _ (ix3 b p (1 : Fin 2)) rfl rfl (ix3 b p (0 : Fin 1))
    (fun a => match a with | ⟨0, _⟩ => fun _ => rfl | ⟨1, _⟩ => fun _ => rfl | ⟨2, _⟩ => fun h => absurd rfl h) rfl

/-! ## Where an update lands -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro e a
      have e1 := congrArg Fin.val (congrFun (Option.some.inj e) a)
      have := (h a).1
      simp only at e1
      omega
    · intro e
      congr 1
      funext a
      refine Fin.ext ?_
      have := e a
      simp only
      omega
  · rw [dif_neg h]
    constructor
    · intro e; cases e
    · intro e
      exact absurd (fun a => by have := e a; have := (i a).isLt; omega) h

/-- The scatter's dimension numbers: both operand axes are inserted window axes, and the index vector's two components
    name them in order. -/
abbrev SD : ScatterDims S16384x128 S16384x16x2 S16384x16 := scatter_S16384x128_S16384x16x2_S16384x16_n_01_01_2

/-- The start on the row axis is component 0 of the update's index vector, read signed. -/
theorem start_row (idx : IVec S16384x16x2 32) (b : Fin 16384) (p : Fin 16) :
    SD.start (ix2 b p) idx 0 = (idx (ix3 b p (0 : Fin 2))).toInt := by
  unfold ScatterDims.start
  rw [dif_pos (show (0 : Fin S16384x128.rank) ∈ SD.scatterDimsToOperandDims by decide)]
  have hsi : SD.siIdx (ix2 b p) ⟨List.idxOf (0 : Fin S16384x128.rank) SD.scatterDimsToOperandDims,
      List.idxOf_lt_length_iff.2 (by decide)⟩ = ix3 b p (0 : Fin 2) := by
    funext a; refine Fin.ext ?_
    match a with
    | ⟨0, _⟩ => rfl
    | ⟨1, _⟩ => rfl
    | ⟨2, _⟩ => rfl
  rw [hsi]

/-- The start on the column axis is component 1. -/
theorem start_col (idx : IVec S16384x16x2 32) (b : Fin 16384) (p : Fin 16) :
    SD.start (ix2 b p) idx 1 = (idx (ix3 b p (1 : Fin 2))).toInt := by
  unfold ScatterDims.start
  rw [dif_pos (show (1 : Fin S16384x128.rank) ∈ SD.scatterDimsToOperandDims by decide)]
  have hsi : SD.siIdx (ix2 b p) ⟨List.idxOf (1 : Fin S16384x128.rank) SD.scatterDimsToOperandDims,
      List.idxOf_lt_length_iff.2 (by decide)⟩ = ix3 b p (1 : Fin 2) := by
    funext a; refine Fin.ext ?_
    match a with
    | ⟨0, _⟩ => rfl
    | ⟨1, _⟩ => rfl
    | ⟨2, _⟩ => rfl
  rw [hsi]

/-- No operand axis is a window axis: every window coordinate is zero. -/
theorem window_zero (j : S16384x16.Idx) (a : Fin S16384x128.rank) : SD.window j a = 0 := by
  unfold ScatterDims.window
  exact dif_neg ((by decide : ∀ a : Fin S16384x128.rank, a ∉ SD.sKept) a)

/-- Update `(b, p)` lands at `(r, q)` exactly when its index vector reads `(r, q)`. -/
theorem target_iff (idx : IVec S16384x16x2 32) (b : Fin 16384) (p : Fin 16) (r : Fin 16384) (q : Fin 128) :
    SD.resultIdx? (ix2 b p) idx = some (ix2 r q) ↔
      (idx (ix3 b p (0 : Fin 2))).toInt = (r.val : Int) ∧ (idx (ix3 b p (1 : Fin 2))).toInt = (q.val : Int) := by
  rw [resultIdx?_eq_some_iff]
  constructor
  · intro h
    have h0 := h 0
    have h1 := h 1
    rw [start_row, window_zero] at h0
    rw [start_col, window_zero] at h1
    exact ⟨by simpa using h0, by simpa using h1⟩
  · rintro ⟨h0, h1⟩ a
    rw [window_zero]
    match a with
    | ⟨0, _⟩ => exact (by rw [start_row]; simpa using h0 : SD.start (ix2 b p) idx 0 + ((0 : Nat) : Int) = (r.val : Int))
    | ⟨1, _⟩ => exact (by rw [start_col]; simpa using h1 : SD.start (ix2 b p) idx 1 + ((0 : Nat) : Int) = (q.val : Int))

/-! ## The scatter read at an index, and the projection -/

/-- The similarities scattered into the zero array: row `b` holds them in the sixteen slots of its class and zero
    elsewhere. Update `(b', p')` lands at `(b', 16·c' + p')`, `c'` the label of row `b'`: so `(b, j)` is the target of the
    one update `(b, j mod 16)` when `j / 16` is the label of row `b`, and of none otherwise. -/
theorem scat_ref (S : Fin 16384 → Fin 16 → EReal)
    (hs : ∀ b p, val_main_v41 (F := Ideal) x0 x1 x2 x3 x4 x5 x6 (ix2 b p) = S b p)
    (hT : ∀ b : Fin 16384, ∃ c : Fin 8, x1 (ix1 b) = BitVec.ofNat 32 c.val) (b : Fin 16384) (j : Fin 128) :
    val_main_v59 (F := Ideal) x0 x1 x2 x3 x4 x5 x6 (ix2 b j) = Spec.fullsim (Spec.cls (x1 (ix1 b))) (S b) j := by
  obtain ⟨c, hc⟩ := hT b
  rw [hc, Spec.cls_ofNat]
  have hrow : ∀ (b' : Fin 16384) (p' : Fin 16),
      (val_main_v58 (F := Ideal) x1 (ix3 b' p' (0 : Fin 2))).toInt = (b'.val : Int) := fun b' p' => by
    rw [v58_row, row_word, toInt_ofNat_small _ (by omega)]
  have hcol : ∀ p' : Fin 16,
      (val_main_v58 (F := Ideal) x1 (ix3 b p' (1 : Fin 2))).toInt = ((16 * c.val + p'.val : Nat) : Int) := fun p' => by
    rw [v58_col, col_word x1 b p' c hc, toInt_ofNat_small _ (by omega)]
  unfold val_main_v59 Spec.fullsim
  by_cases hj : j.val / 16 = c.val
  · rw [if_pos hj]
    refine (scatter_set_hit SD _ _ _ (ix2 b j) (ix2 b ⟨j.val % 16, Nat.mod_lt _ (by decide)⟩) ?_ ?_).trans (hs b _)
    · refine (target_iff _ b _ b j).mpr ⟨hrow b _, ?_⟩
      rw [hcol]
      show ((16 * c.val + j.val % 16 : Nat) : Int) = (j.val : Int)
      omega
    · intro j' h
      obtain ⟨b', p', rfl⟩ : ∃ (b' : Fin 16384) (p' : Fin 16), j' = ix2 b' p' := ⟨j' 0, j' 1, eq_ix2 j'⟩
      obtain ⟨h0, h1⟩ := (target_iff _ b' p' b j).mp h
      rw [hrow] at h0
      have hb : b' = b := Fin.ext (by omega)
      subst hb
      rw [hcol] at h1
      have hp : p' = ⟨j.val % 16, Nat.mod_lt _ (by decide)⟩ := Fin.ext (by show p'.val = j.val % 16; omega)
      rw [hp]
  · rw [if_neg hj]
    refine (scatter_set_miss SD _ _ _ (ix2 b j) ?_).trans ?_
    · intro j' h
      obtain ⟨b', p', rfl⟩ : ∃ (b' : Fin 16384) (p' : Fin 16), j' = ix2 b' p' := ⟨j' 0, j' 1, eq_ix2 j'⟩
      obtain ⟨h0, h1⟩ := (target_iff _ b' p' b j).mp h
      rw [hrow] at h0
      have hb : b' = b := Fin.ext (by omega)
      subst hb
      rw [hcol] at h1
      exact hj (by omega)
    · rw [val_main_v42_apply, val_main_cst_7_apply]
      exact Ideal.ofBits_zero_f32

/-- The first result: row `b` of the scattered array against the last layer's weights. -/
theorem out_ref (S : Fin 16384 → Fin 16 → EReal)
    (hs : ∀ b p, val_main_v41 (F := Ideal) x0 x1 x2 x3 x4 x5 x6 (ix2 b p) = S b p)
    (hT : ∀ b : Fin 16384, ∃ c : Fin 8, x1 (ix1 b) = BitVec.ofNat 32 c.val) (b : Fin 16384) :
    val_main_v88 (F := Ideal) x0 x1 x2 x3 x4 x5 x6 x11 (ix2 b 0)
      = Spec.outr (fun j => x11 (ix2 0 j)) (Spec.cls (x1 (ix1 b))) (S b) := by
  rw [val_main_v88_apply]
  unfold Spec.outr
  refine Finset.sum_congr rfl fun k _ => ?_
  have el : lidx_main_v88 (ix2 b (0 : Fin 1)) k = ix2 b k :=
    funext fun a => Fin.ext (by match a with | ⟨0, _⟩ => rfl | ⟨1, _⟩ => rfl)
  have er : idx_main_v87 (ridx_main_v88 (ix2 b (0 : Fin 1)) k) = ix2 (0 : Fin 1) k :=
    funext fun a => Fin.ext (by match a with | ⟨0, _⟩ => rfl | ⟨1, _⟩ => rfl)
  rw [val_main_v87_apply, el, er, scat_ref x0 x1 x2 x3 x4 x5 x6 S hs hT b k]

end Cert.ReferenceIdeal.RefOut

end
-- ==== Proof.RefRun.lean ====
/-
  The reference program's three batch results as the common results.

  The program's arguments, read as functions of their coordinates, are the record of inputs; the projection, the
  decoded rows and the mean ratio the program leaves are then the record's `gOut`, `gDec` and `gKl`: sample by sample
  the encoder gives the latent mean and the clipped log-variance, the prototypes of the sample's class give the
  similarities and the ratio, and the three results are their projection, the decoder's row and the batch's mean.
-/
import proofs.«426893_j22204980920725_3_alg».proof.Proof.Gen.ReferenceIdeal.Read
import proofs.«426893_j22204980920725_3_alg».proof.Proof.RefEnc
import proofs.«426893_j22204980920725_3_alg».proof.Proof.RefSim
import proofs.«426893_j22204980920725_3_alg».proof.Proof.RefOut
import proofs.«426893_j22204980920725_3_alg».proof.Proof.SpecAll
import Idealize.ShloMosaic.Lib.ValueIdx

noncomputable section

namespace Cert.ReferenceIdeal.RefRun

open Idealize.ShloMosaic Idealize.ShloMosaic.ValueIdx Cert.ReferenceIdeal Cert.ReferenceIdeal.Gen Cert.ReferenceIdeal.Read

variable (m : (ℓ : Loc nD τ sig) → Buf (Elt Ideal) ℓ) (c : Dev nD)

/-! ## The arguments -/

/-- The program's twelve arguments on device `c`, each at its array type. -/
abbrev a0 : (⟨S16384x512, .f32⟩ : BufTy).Contents (Elt Ideal) := m ((c.tc : Thread nD τ).loc main_arg0)
abbrev a1 : (⟨S16384, .i32⟩ : BufTy).Contents (Elt Ideal) := m ((c.tc : Thread nD τ).loc main_arg1)
abbrev a2 : (⟨S128x256, .f32⟩ : BufTy).Contents (Elt Ideal) := m ((c.tc : Thread nD τ).loc main_arg2)
abbrev a3 : (⟨S512x512, .f32⟩ : BufTy).Contents (Elt Ideal) := m ((c.tc : Thread nD τ).loc main_arg3)
abbrev a4 : (⟨S512, .f32⟩ : BufTy).Contents (Elt Ideal) := m ((c.tc : Thread nD τ).loc main_arg4)
abbrev a5 : (⟨S512x512, .f32⟩ : BufTy).Contents (Elt Ideal) := m ((c.tc : Thread nD τ).loc main_arg5)
abbrev a6 : (⟨S512, .f32⟩ : BufTy).Contents (Elt Ideal) := m ((c.tc : Thread nD τ).loc main_arg6)
abbrev a7 : (⟨S256x256, .f32⟩ : BufTy).Contents (Elt Ideal) := m ((c.tc : Thread nD τ).loc main_arg7)
abbrev a8 : (⟨S256, .f32⟩ : BufTy).Contents (Elt Ideal) := m ((c.tc : Thread nD τ).loc main_arg8)
abbrev a9 : (⟨S512x256, .f32⟩ : BufTy).Contents (Elt Ideal) := m ((c.tc : Thread nD τ).loc main_arg9)
abbrev a10 : (⟨S512, .f32⟩ : BufTy).Contents (Elt Ideal) := m ((c.tc : Thread nD τ).loc main_arg10)
abbrev a11 : (⟨S1x128, .f32⟩ : BufTy).Contents (Elt Ideal) := m ((c.tc : Thread nD τ).loc main_arg11)

/-- The arguments as the record of functions of their coordinates. -/
def rIn : Spec.Inputs where
  X := fun b k => a0 m c (ix2 b k)
  T := fun b => a1 m c (ix1 b)
  P := fun a q => a2 m c (ix2 a q)
  W1 := fun j k => a3 m c (ix2 j k)
  b1 := fun j => a4 m c (ix1 j)
  W2 := fun j k => a5 m c (ix2 j k)
  b2 := fun j => a6 m c (ix1 j)
  Wd1 := fun l q => a7 m c (ix2 l q)
  bd1 := fun l => a8 m c (ix1 l)
  Wd2 := fun j l => a9 m c (ix2 j l)
  bd2 := fun j => a10 m c (ix1 j)
  Wl := fun j => a11 m c (ix2 0 j)

/-! ## The intermediate arrays, sample by sample -/

/-- The latent means. -/
theorem z_at (b : Fin 16384) (l : Fin 256) :
    val_main_v12 (F := Ideal) (a0 m c) (a3 m c) (a4 m c) (a5 m c) (a6 m c) (ix2 b l) = Spec.Z (rIn m c) b l :=
  RefEnc.z_ref (a0 m c) (a3 m c) (a4 m c) (a5 m c) (a6 m c) b l

/-- The clipped log-variances. -/
theorem lv_at (b : Fin 16384) (l : Fin 256) :
    val_main_v14 (F := Ideal) (a0 m c) (a3 m c) (a4 m c) (a5 m c) (a6 m c) (ix2 b l) = Spec.LV (rIn m c) b l :=
  RefEnc.lv_ref (a0 m c) (a3 m c) (a4 m c) (a5 m c) (a6 m c) b l

/-- Their exponentials. -/
theorem var_at (b : Fin 16384) (l : Fin 256) :
    val_main_v60 (F := Ideal) (a0 m c) (a3 m c) (a4 m c) (a5 m c) (a6 m c) (ix2 b l) = Ideal.exp (Spec.LV (rIn m c) b l) :=
  RefEnc.var_ref (a0 m c) (a3 m c) (a4 m c) (a5 m c) (a6 m c) b l

/-- The similarities to the prototypes of the sample's class. -/
theorem sim_at (hL : Spec.Labelled (rIn m c)) (b : Fin 16384) (p : Fin 16) :
    val_main_v41 (F := Ideal) (a0 m c) (a1 m c) (a2 m c) (a3 m c) (a4 m c) (a5 m c) (a6 m c) (ix2 b p) = Spec.sim (Spec.D (rIn m c) b) p :=
  RefSim.sim_ref (a0 m c) (a1 m c) (a2 m c) (a3 m c) (a4 m c) (a5 m c) (a6 m c) (Spec.Z (rIn m c)) (z_at m c) b (Spec.C (rIn m c) b)
    (Spec.C_spec (rIn m c) hL b) p

/-! ## The three results -/

/-- The decoded rows. -/
theorem dec_eq :
    val_main_v101 (F := Ideal) (a0 m c) (a3 m c) (a4 m c) (a5 m c) (a6 m c) (a7 m c) (a8 m c) (a9 m c) (a10 m c)
      = fun i => Spec.gDec (rIn m c) ⟨(i 0).val, (i 0).isLt⟩ ⟨(i 1).val, (i 1).isLt⟩ := by
  funext i
  obtain ⟨b, j, rfl⟩ : ∃ (b : Fin 16384) (j : Fin 512), i = ix2 b j := ⟨i 0, i 1, eq_ix2 i⟩
  exact RefEnc.dec_ref (a0 m c) (a3 m c) (a4 m c) (a5 m c) (a6 m c) (a7 m c) (a8 m c) (a9 m c) (a10 m c) b j

/-- The projections. -/
theorem out_eq (hL : Spec.Labelled (rIn m c)) :
    Cert.ReferenceIdeal.Value.res_main_v88 m c = fun i => Spec.gOut (rIn m c) ⟨(i 0).val, (i 0).isLt⟩ := by
  refine (val_main_v88_eq m c).trans ?_
  funext i
  obtain ⟨b, z, rfl⟩ : ∃ (b : Fin 16384) (z : Fin 1), i = ix2 b z := ⟨i 0, i 1, eq_ix2 i⟩
  obtain rfl : z = 0 := Subsingleton.elim _ _
  exact RefOut.out_ref (a0 m c) (a1 m c) (a2 m c) (a3 m c) (a4 m c) (a5 m c) (a6 m c) (a11 m c) (fun b => Spec.sim (Spec.D (rIn m c) b)) (sim_at m c hL) hL b

/-- The mean ratio. -/
theorem kl_eq (hL : Spec.Labelled (rIn m c)) :
    Cert.ReferenceIdeal.Value.res_main_v86 m c = fun _ => Spec.gKl (rIn m c) := by
  refine (val_main_v86_eq m c).trans ?_
  funext i
  obtain rfl : i = ix0 := eq_ix0 i
  exact RefSim.kl_ref (a0 m c) (a1 m c) (a2 m c) (a3 m c) (a4 m c) (a5 m c) (a6 m c) (Spec.Z (rIn m c)) (Spec.LV (rIn m c)) (z_at m c) (lv_at m c) (var_at m c) hL

end Cert.ReferenceIdeal.RefRun

end
-- ==== Proof.lean ====
/-
  The kernel and its reference compute the same four results over the extended reals, for class labels in range.

  A sample goes through a two-layer encoder; the first half of the encoder's row is the latent mean `z`, the second
  half, clipped, the log-variance. The sample's class `c` selects sixteen prototypes (rows `16c … 16c+15` of the
  table); from the differences `z − P` come the distances, the similarities `log ((d + 1)/(d + ε))`, a divergence
  term and their ratio. The four results are: the similarities projected on the last layer's weights through the
  class's sixteen slots of a 128-vector; the decoded row `tanh (relu (z·Wd1ᵀ + bd1)·Wd2ᵀ + bd2)`; the mean over the
  batch of the ratios; and a loss of the prototype table alone.

  The reference gathers the class's prototypes by index and scatters the similarities into the 128-vector; the kernel
  adds, for each of the eight classes, the class's term under the indicator of "the label is this class" and
  concatenates the eight masked copies of the similarities. For a label in `0 … 7` exactly one indicator is 1, and
  `1·x = x`, `0·x = 0`, `0 + x = x` hold for every extended real, so both compute the class's own term: no finiteness
  is used. The kernel works through the batch in 32 tiles of 512 samples, adds each tile's sum of ratios into an
  accumulator and multiplies the total by `2⁻¹⁴`; the reference sums the 16384 ratios and divides by 16384: the same
  extended real, sums over the batch regrouping freely. Outside `0 ≤ t < 8` the reference indexes the table out of
  range (the gather clamps, a negative index wraps) while the kernel's indicators are all zero: hence the label
  range in the precondition, decoded here into "every label word is a class".

  The three frames are the generated ones (the reference's is its generated run with the results dropped); the
  idealization rewrote nothing.
-/
import proofs.«426893_j22204980920725_3_alg».proof.Defs
import proofs.«426893_j22204980920725_3_alg».proof.Proof.Gen.Kernel
import proofs.«426893_j22204980920725_3_alg».proof.Proof.Gen.Kernel.Skeleton
import proofs.«426893_j22204980920725_3_alg».proof.Proof.Gen.Kernel.Launch
import proofs.«426893_j22204980920725_3_alg».proof.Proof.Gen.Kernel.Points
import proofs.«426893_j22204980920725_3_alg».proof.Proof.Gen.Kernel.Frame
import proofs.«426893_j22204980920725_3_alg».proof.Proof.Gen.KernelIdeal
import proofs.«426893_j22204980920725_3_alg».proof.Proof.Gen.KernelIdeal.Skeleton
import proofs.«426893_j22204980920725_3_alg».proof.Proof.Gen.KernelIdeal.Launch
import proofs.«426893_j22204980920725_3_alg».proof.Proof.Gen.KernelIdeal.Points
import proofs.«426893_j22204980920725_3_alg».proof.Proof.Gen.KernelIdeal.Frame
import proofs.«426893_j22204980920725_3_alg».proof.Proof.Gen.ReferenceIdeal
import proofs.«426893_j22204980920725_3_alg».proof.Proof.Gen.ReferenceIdeal.Run
import proofs.«426893_j22204980920725_3_alg».proof.Proof.Gen.ReferenceIdeal.Read
import proofs.«426893_j22204980920725_3_alg».proof.Proof.Gen.Pre_finite_inputs
import proofs.«426893_j22204980920725_3_alg».proof.Proof.PreT
import proofs.«426893_j22204980920725_3_alg».proof.Proof.KFinal
import proofs.«426893_j22204980920725_3_alg».proof.Proof.RefRun
import Idealize.ShloMosaic.Adequacy
import Idealize.ShloMosaic.Init

noncomputable section

namespace Cert.Proof

open Idealize.ShloMosaic Idealize.SL.Sem Idealize.ShloMosaic.ValueIdx

/-- Under the precondition every label word is a class. -/
theorem labelled (m : (ℓ : Loc Cert.KernelIdeal.nD Cert.KernelIdeal.τ Cert.KernelIdeal.sig) → Buf (Elt Ideal) ℓ) (hpre : Cert.Pre_KernelIdeal m) (c : Dev Cert.KernelIdeal.nD) :
    Cert.Spec.Labelled (Cert.KernelIdeal.KVal.kIn m c) :=
  Cert.PreT.label_range _ _ _ _ _ _ _ _ _ _ _ _ (hpre c)

/-- Memories that agree on the arguments give the two programs the same inputs. -/
theorem inputs_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefRun.rIn m' c = Cert.KernelIdeal.KVal.kIn m c := by
  unfold Cert.ReferenceIdeal.RefRun.rIn Cert.KernelIdeal.KVal.kIn
  simp only [Cert.ReferenceIdeal.RefRun.a0, Cert.ReferenceIdeal.RefRun.a1, Cert.ReferenceIdeal.RefRun.a2, Cert.ReferenceIdeal.RefRun.a3, Cert.ReferenceIdeal.RefRun.a4, Cert.ReferenceIdeal.RefRun.a5, Cert.ReferenceIdeal.RefRun.a6, Cert.ReferenceIdeal.RefRun.a7, Cert.ReferenceIdeal.RefRun.a8, Cert.ReferenceIdeal.RefRun.a9, Cert.ReferenceIdeal.RefRun.a10, Cert.ReferenceIdeal.RefRun.a11]
  rw [h0, h1, h2, h3, h4, h5, h6, h7, h8, h9, h10, h11]

theorem frame_k : Cert.frame_Kernel := fun m ρ _ => Cert.Kernel.Gen.frame m ρ

theorem frame_ki : Cert.frame_KernelIdeal := fun m ρ _ => Cert.KernelIdeal.Gen.frame m ρ

/-- The reference's frame: its generated run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The two idealized programs, from memories agreeing on the arguments, end with the same four results. -/
theorem algebraic : Cert.algebraic_KernelIdeal_ReferenceIdeal := by
  intro m ρ m' ρ' hpre hagree
  have hL := labelled m hpre
  have hI : ∀ c, Cert.ReferenceIdeal.RefRun.rIn m' c = Cert.KernelIdeal.KVal.kIn m c := fun c => by
    obtain ⟨h0, h1, h2, h3, h4, h5, h6, h7, h8, h9, h10, h11⟩ := hagree c
    exact inputs_eq m m' c h0 h1 h2 h3 h4 h5 h6 h7 h8 h9 h10 h11
  refine ⟨fun c i => Cert.Spec.gOut (Cert.KernelIdeal.KVal.kIn m c) ⟨(i 0).val, (i 0).isLt⟩,
    fun c i => Cert.Spec.gDec (Cert.KernelIdeal.KVal.kIn m c) ⟨(i 0).val, (i 0).isLt⟩ ⟨(i 1).val, (i 1).isLt⟩,
    fun c _ => Cert.Spec.gKl (Cert.KernelIdeal.KVal.kIn m c),
    fun c => Cert.KernelIdeal.KTail.ortho (F := Ideal) (m ((c.tc : Thread Cert.KernelIdeal.nD Cert.KernelIdeal.τ).loc Cert.KernelIdeal.main_arg2)),
    Cert.KernelIdeal.KFinal.run m ρ hL, ?_⟩
  refine (θ_run Cert.ReferenceIdeal.defs _ _).mono (fun _ h c => ?_) (Cert.ReferenceIdeal.Value.run (F := Ideal) m' ρ')
  obtain ⟨r0, r1, r2, r3, rargs⟩ := h c
  have hL' : Cert.Spec.Labelled (Cert.ReferenceIdeal.RefRun.rIn m' c) := by rw [hI c]; exact hL c
  refine ⟨?_, ?_, ?_, ?_, rargs⟩
  · rw [r0, Cert.ReferenceIdeal.RefRun.out_eq m' c hL', hI c]
    rfl
  · rw [r1]
    refine ((Cert.ReferenceIdeal.Read.val_main_v101_eq _ _ _ _ _ _ _ _ _).trans (Cert.ReferenceIdeal.RefRun.dec_eq m' c)).trans ?_
    rw [hI c]
    rfl
  · rw [r2, Cert.ReferenceIdeal.RefRun.kl_eq m' c hL', hI c]
    rfl
  · rw [r3]
    refine ((Cert.ReferenceIdeal.Read.val_main_v123_eq _).trans (Cert.KernelIdeal.KTail.ortho_eq _).symm).trans ?_
    rw [(hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
